-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x7x7x11 : Shape := ⟨4, ![32768, 7, 7, 11]⟩
abbrev S_ : Shape := ⟨0, ![]⟩

class Facts : Prop where
  bcast_S_S32768x7x7x11 : S_.BroadcastsInDim S32768x7x7x11 (![] : Fin 0 → Fin S32768x7x7x11.rank)
  reducesTo_S32768x7x7x11_S_d0_1_2_3 : S32768x7x7x11.ReducesTo [0, 1, 2, 3] S_
  h_S_ : 0 < S_.numel

variable [Facts]

def fn {F : FTy → Type} [FloatOps F] (main_arg0 : FVec F S32768x7x7x11 .f32) (main_arg1 : FVec F S32768x7x7x11 .f32) : IVec S_ 1 :=
  let main_v0 : FVec F S32768x7x7x11 .f32 := Host.absf main_arg0
  let main_cst : FVec F S_ .f32 := constant S_ .f32 0x7F800000#32
  let main_v1 : FVec F S32768x7x7x11 .f32 := broadcastInDim S32768x7x7x11 ![] bcast_S_S32768x7x7x11 main_cst
  let main_v2 : IVec S32768x7x7x11 1 := cmpf .olt main_v0 main_v1
  let main_c : IVec S_ 1 := constantI S_ 1 1#1
  let main_v3 : IVec S_ 1 := (fun x v => Host.reduce IntOp.andi x v reducesTo_S32768x7x7x11_S_d0_1_2_3 h_S_) main_v2 main_c
  let main_v4 : FVec F S32768x7x7x11 .f32 := Host.absf main_arg1
  let main_cst_0 : FVec F S_ .f32 := constant S_ .f32 0x7F800000#32
  let main_v5 : FVec F S32768x7x7x11 .f32 := broadcastInDim S32768x7x7x11 ![] bcast_S_S32768x7x7x11 main_cst_0
  let main_v6 : IVec S32768x7x7x11 1 := cmpf .olt main_v4 main_v5
  let main_c_1 : IVec S_ 1 := constantI S_ 1 1#1
  let main_v7 : IVec S_ 1 := (fun x v => Host.reduce IntOp.andi x v reducesTo_S32768x7x7x11_S_d0_1_2_3 h_S_) main_v6 main_c_1
  let main_v8 : IVec S_ 1 := andi main_v3 main_v7
  main_v8
-- ==== Kernel.lean ====
abbrev S32768x7x7x11 : Shape := ⟨4, ![32768, 7, 7, 11]⟩
abbrev S2x802816x11 : Shape := ⟨3, ![2, 802816, 11]⟩
abbrev S2x1x1 : Shape := ⟨3, ![2, 1, 1]⟩
abbrev S1x4096x11 : Shape := ⟨3, ![1, 4096, 11]⟩
abbrev S1x1x1 : Shape := ⟨3, ![1, 1, 1]⟩
abbrev S1x1 : Shape := ⟨2, ![1, 1]⟩
abbrev S4096x11 : Shape := ⟨2, ![4096, 11]⟩
abbrev S4096x2 : Shape := ⟨2, ![4096, 2]⟩
abbrev S4096x1 : Shape := ⟨2, ![4096, 1]⟩
abbrev S1 : Shape := ⟨1, ![1]⟩
abbrev S4096 : Shape := ⟨1, ![4096]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S32768x7x7x11, .f32⟩
  | .hbm, ⟨1, _⟩ => ⟨S32768x7x7x11, .f32⟩
  | .hbm, ⟨2, _⟩ => ⟨S2x802816x11, .f32⟩
  | .hbm, ⟨3, _⟩ => ⟨S2x802816x11, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x4096x11, .f32⟩
  | .local _ .vmem, ⟨1, _⟩ => ⟨S1x4096x11, .f32⟩
  | .local _ .vmem, ⟨2, _⟩ => ⟨S1x4096x11, .f32⟩
  | .local _ .vmem, ⟨3, _⟩ => ⟨S1x4096x11, .f32⟩
  | .local _ .vmem, ⟨4, _⟩ => ⟨S1x1x1, .f32⟩
  | .local _ .vmem, ⟨5, _⟩ => ⟨S1x1x1, .f32⟩
  | _, _ => ⟨S32768x7x7x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 196], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S32768x7x7x11_S2x802816x11 : S32768x7x7x11.ShapeCasts S2x802816x11
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x4096x11_S1x4096x11_0_0_0 : ∀ a, (![0, 0, 0] : Fin 3 → Nat) a + S1x4096x11.size a ≤ S1x4096x11.size a
  h_S1x4096x11 : 0 < S1x4096x11.numel
  shapeCasts_S1x4096x11_S4096x11 : S1x4096x11.ShapeCasts S4096x11
  slices_S4096x11_o0_0_S4096x2 : S4096x11.Slices ![0, 0] S4096x2
  slices_S4096x11_o0_2_S4096x2 : S4096x11.Slices ![0, 2] S4096x2
  slices_S4096x11_o0_4_S4096x1 : S4096x11.Slices ![0, 4] S4096x1
  slices_S4096x11_o0_5_S4096x2 : S4096x11.Slices ![0, 5] S4096x2
  slices_S4096x11_o0_7_S4096x2 : S4096x11.Slices ![0, 7] S4096x2
  slices_S4096x11_o0_9_S4096x1 : S4096x11.Slices ![0, 9] S4096x1
  slices_S4096x11_o0_10_S4096x1 : S4096x11.Slices ![0, 10] S4096x1
  reduces_S4096x1_S1 : S4096x1.Reduces [0] S1
  shapeCasts_S1_S1x1 : S1.ShapeCasts S1x1
  slices_S4096x2_o0_0_S4096x1 : S4096x2.Slices ![0, 0] S4096x1
  slices_S4096x2_o0_1_S4096x1 : S4096x2.Slices ![0, 1] S4096x1
  reduces_S4096x2_S4096 : S4096x2.Reduces [1] S4096
  shapeCasts_S4096_S4096x1 : S4096.ShapeCasts S4096x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x11.size a ≤ S2x802816x11.size a
  hwx0_0 : ∀ i : grid0.Coords, EltTy.bits .f32 = 32 ∨ (Rect.block (s := S2x802816x11) S1x4096x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x11.size a ≤ S2x802816x11.size a
  hwx0_1 : ∀ i : grid0.Coords, EltTy.bits .f32 = 32 ∨ (Rect.block (s := S2x802816x11) S1x4096x11.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S1x4096x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x7x7x11 : Shape := ⟨4, ![32768, 7, 7, 11]⟩
abbrev S32768x7x7x1 : Shape := ⟨4, ![32768, 7, 7, 1]⟩
abbrev S32768x7x7 : Shape := ⟨3, ![32768, 7, 7]⟩
abbrev S_ : Shape := ⟨0, ![]⟩
abbrev S32768x7x7x10 : Shape := ⟨4, ![32768, 7, 7, 10]⟩
abbrev S32768x7x7x2x5 : Shape := ⟨5, ![32768, 7, 7, 2, 5]⟩
abbrev S32768x7x7x5 : Shape := ⟨4, ![32768, 7, 7, 5]⟩
abbrev S32768x7x7x2x2 : Shape := ⟨5, ![32768, 7, 7, 2, 2]⟩
abbrev S32768x7x7x2x4 : Shape := ⟨5, ![32768, 7, 7, 2, 4]⟩
abbrev S32768x7x7x2 : Shape := ⟨4, ![32768, 7, 7, 2]⟩
abbrev S32768x7x7x4 : Shape := ⟨4, ![32768, 7, 7, 4]⟩
abbrev S32768x7x7x1x4 : Shape := ⟨5, ![32768, 7, 7, 1, 4]⟩
abbrev S32768x7x7x1x2 : Shape := ⟨5, ![32768, 7, 7, 1, 2]⟩
abbrev S32768x7x7x2x1 : Shape := ⟨5, ![32768, 7, 7, 2, 1]⟩
abbrev S32768x7x7x1x1 : Shape := ⟨5, ![32768, 7, 7, 1, 1]⟩

abbrev nBuf : Space → Nat
  | .hbm => 203
  | .vmem => 0
  | .smem => 0
  | _ => 0

abbrev hbmTy0_0 (i : Nat) : BufTy := match i % 128 with
  | 0 => ⟨S32768x7x7x11, .f32⟩
  | 1 => ⟨S32768x7x7x11, .f32⟩
  | 2 => ⟨S32768x7x7x1, .f32⟩
  | 3 => ⟨S32768x7x7, .f32⟩
  | 4 => ⟨S_, .f32⟩
  | 5 => ⟨S32768x7x7, .f32⟩
  | 6 => ⟨S32768x7x7, .i1⟩
  | 7 => ⟨S32768x7x7, .i1⟩
  | 8 => ⟨S32768x7x7x1, .f32⟩
  | 9 => ⟨S32768x7x7, .f32⟩
  | 10 => ⟨S32768x7x7x1, .f32⟩
  | 11 => ⟨S32768x7x7, .f32⟩
  | 12 => ⟨S32768x7x7, .f32⟩
  | 13 => ⟨S32768x7x7, .f32⟩
  | 14 => ⟨S32768x7x7x1, .f32⟩
  | 15 => ⟨S32768x7x7, .f32⟩
  | 16 => ⟨S32768x7x7x1, .f32⟩
  | 17 => ⟨S32768x7x7, .f32⟩
  | 18 => ⟨S32768x7x7, .f32⟩
  | 19 => ⟨S32768x7x7, .f32⟩
  | 20 => ⟨S32768x7x7, .f32⟩
  | 21 => ⟨S_, .f32⟩
  | 22 => ⟨S_, .f32⟩
  | 23 => ⟨S32768x7x7, .f32⟩
  | 24 => ⟨S32768x7x7, .f32⟩
  | 25 => ⟨S_, .f32⟩
  | 26 => ⟨S_, .f32⟩
  | 27 => ⟨S32768x7x7x10, .f32⟩
  | 28 => ⟨S32768x7x7x2x5, .f32⟩
  | 29 => ⟨S32768x7x7x10, .f32⟩
  | 30 => ⟨S32768x7x7x2x5, .f32⟩
  | 31 => ⟨S32768x7x7x5, .f32⟩
  | 32 => ⟨S32768x7x7x2x2, .f32⟩
  | 33 => ⟨S_, .f32⟩
  | 34 => ⟨S32768x7x7x2x2, .f32⟩
  | 35 => ⟨S32768x7x7x2x2, .f32⟩
  | 36 => ⟨S32768x7x7x2x2, .f32⟩
  | 37 => ⟨S_, .f32⟩
  | 38 => ⟨S32768x7x7x2x2, .f32⟩
  | 39 => ⟨S32768x7x7x2x2, .f32⟩
  | 40 => ⟨S_, .f32⟩
  | 41 => ⟨S32768x7x7x2x2, .f32⟩
  | 42 => ⟨S32768x7x7x2x2, .f32⟩
  | 43 => ⟨S32768x7x7x2x2, .f32⟩
  | 44 => ⟨S_, .f32⟩
  | 45 => ⟨S32768x7x7x2x2, .f32⟩
  | 46 => ⟨S32768x7x7x2x2, .f32⟩
  | 47 => ⟨S32768x7x7x2x2, .f32⟩
  | 48 => ⟨S32768x7x7x2x4, .f32⟩
  | 49 => ⟨S32768x7x7x2, .f32⟩
  | 50 => ⟨S_, .f32⟩
  | 51 => ⟨S32768x7x7x2, .f32⟩
  | 52 => ⟨S32768x7x7x2, .f32⟩
  | 53 => ⟨S32768x7x7x2, .f32⟩
  | 54 => ⟨S_, .f32⟩
  | 55 => ⟨S32768x7x7x2, .f32⟩
  | 56 => ⟨S32768x7x7x2, .f32⟩
  | 57 => ⟨S_, .f32⟩
  | 58 => ⟨S32768x7x7x2, .f32⟩
  | 59 => ⟨S32768x7x7x2, .f32⟩
  | 60 => ⟨S32768x7x7x2, .f32⟩
  | 61 => ⟨S_, .f32⟩
  | 62 => ⟨S32768x7x7x2, .f32⟩
  | 63 => ⟨S32768x7x7x2, .f32⟩
  | 64 => ⟨S32768x7x7x2, .f32⟩
  | 65 => ⟨S32768x7x7x4, .f32⟩
  | 66 => ⟨S32768x7x7x1x4, .f32⟩
  | 67 => ⟨S32768x7x7x2x2, .f32⟩
  | 68 => ⟨S32768x7x7x1x2, .f32⟩
  | 69 => ⟨S32768x7x7x2x2, .f32⟩
  | 70 => ⟨S32768x7x7x2x2, .f32⟩
  | 71 => ⟨S32768x7x7x2x2, .f32⟩
  | 72 => ⟨S32768x7x7x1x2, .f32⟩
  | 73 => ⟨S32768x7x7x2x2, .f32⟩
  | 74 => ⟨S32768x7x7x2x2, .f32⟩
  | 75 => ⟨S32768x7x7x2x1, .f32⟩
  | 76 => ⟨S32768x7x7x2, .f32⟩
  | 77 => ⟨S32768x7x7x2x1, .f32⟩
  | 78 => ⟨S32768x7x7x2, .f32⟩
  | 79 => ⟨S32768x7x7x2, .i1⟩
  | 80 => ⟨S32768x7x7x2x1, .f32⟩
  | 81 => ⟨S32768x7x7x2, .f32⟩
  | 82 => ⟨S32768x7x7x2x1, .f32⟩
  | 83 => ⟨S32768x7x7x2, .f32⟩
  | 84 => ⟨S32768x7x7x2, .i1⟩
  | 85 => ⟨S32768x7x7x2, .i1⟩
  | 86 => ⟨S32768x7x7x2x1, .f32⟩
  | 87 => ⟨S32768x7x7x2, .f32⟩
  | 88 => ⟨S32768x7x7x2x1, .f32⟩
  | 89 => ⟨S32768x7x7x2, .f32⟩
  | 90 => ⟨S32768x7x7x2, .f32⟩
  | 91 => ⟨S32768x7x7x2x1, .f32⟩
  | 92 => ⟨S32768x7x7x2, .f32⟩
  | 93 => ⟨S32768x7x7x2x1, .f32⟩
  | 94 => ⟨S32768x7x7x2, .f32⟩
  | 95 => ⟨S32768x7x7x2, .f32⟩
  | 96 => ⟨S32768x7x7x2, .f32⟩
  | 97 => ⟨S32768x7x7x2x1, .f32⟩
  | 98 => ⟨S32768x7x7x2, .f32⟩
  | 99 => ⟨S32768x7x7x2x1, .f32⟩
  | 100 => ⟨S32768x7x7x2, .f32⟩
  | 101 => ⟨S32768x7x7x2, .f32⟩
  | 102 => ⟨S32768x7x7x2x1, .f32⟩
  | 103 => ⟨S32768x7x7x2, .f32⟩
  | 104 => ⟨S32768x7x7x2x1, .f32⟩
  | 105 => ⟨S32768x7x7x2, .f32⟩
  | 106 => ⟨S32768x7x7x2, .f32⟩
  | 107 => ⟨S32768x7x7x2, .f32⟩
  | 108 => ⟨S32768x7x7x1x1, .f32⟩
  | 109 => ⟨S32768x7x7x1, .f32⟩
  | 110 => ⟨S32768x7x7x1x1, .f32⟩
  | 111 => ⟨S32768x7x7x1, .f32⟩
  | 112 => ⟨S32768x7x7x1, .f32⟩
  | 113 => ⟨S32768x7x7x1x1, .f32⟩
  | 114 => ⟨S32768x7x7x1, .f32⟩
  | 115 => ⟨S32768x7x7x1x1, .f32⟩
  | 116 => ⟨S32768x7x7x1, .f32⟩
  | 117 => ⟨S32768x7x7x1, .f32⟩
  | 118 => ⟨S32768x7x7x1, .f32⟩
  | 119 => ⟨S32768x7x7x2, .f32⟩
  | 120 => ⟨S32768x7x7x2, .f32⟩
  | 121 => ⟨S32768x7x7x2, .f32⟩
  | 122 => ⟨S32768x7x7x2, .f32⟩
  | 123 => ⟨S_, .f32⟩
  | 124 => ⟨S_, .f32⟩
  | 125 => ⟨S32768x7x7x2, .f32⟩
  | 126 => ⟨S32768x7x7x2, .f32⟩
  | 127 => ⟨S32768x7x7x1, .f32⟩
  | _ => ⟨S32768x7x7x11, .f32⟩

abbrev hbmTy0_1 (i : Nat) : BufTy := match i % 128 with
  | 0 => ⟨S32768x7x7, .f32⟩
  | 1 => ⟨S32768x7x7x1, .f32⟩
  | 2 => ⟨S32768x7x7, .f32⟩
  | 3 => ⟨S32768x7x7, .i1⟩
  | 4 => ⟨S32768x7x7, .i1⟩
  | 5 => ⟨S32768x7x7x1, .i1⟩
  | 6 => ⟨S32768x7x7x1, .i1⟩
  | 7 => ⟨S32768x7x7x2, .i1⟩
  | 8 => ⟨S_, .f32⟩
  | 9 => ⟨S32768x7x7, .f32⟩
  | 10 => ⟨S32768x7x7x1, .i1⟩
  | 11 => ⟨S32768x7x7x2, .i1⟩
  | 12 => ⟨S32768x7x7x2, .i1⟩
  | 13 => ⟨S32768x7x7x1, .i1⟩
  | 14 => ⟨S32768x7x7x2, .i1⟩
  | 15 => ⟨S32768x7x7x2, .i1⟩
  | 16 => ⟨S32768x7x7x2, .i1⟩
  | 17 => ⟨S32768x7x7x2x1, .f32⟩
  | 18 => ⟨S32768x7x7x2, .f32⟩
  | 19 => ⟨S32768x7x7x1, .f32⟩
  | 20 => ⟨S32768x7x7x2, .f32⟩
  | 21 => ⟨S32768x7x7x2, .f32⟩
  | 22 => ⟨S32768x7x7x2, .f32⟩
  | 23 => ⟨S_, .f32⟩
  | 24 => ⟨S_, .f32⟩
  | 25 => ⟨S32768x7x7x2, .f32⟩
  | 26 => ⟨S32768x7x7x2, .f32⟩
  | 27 => ⟨S_, .f32⟩
  | 28 => ⟨S_, .f32⟩
  | 29 => ⟨S32768x7x7x2, .f32⟩
  | 30 => ⟨S_, .f32⟩
  | 31 => ⟨S_, .f32⟩
  | 32 => ⟨S32768x7x7x2, .f32⟩
  | 33 => ⟨S32768x7x7x2, .f32⟩
  | 34 => ⟨S_, .f32⟩
  | 35 => ⟨S_, .f32⟩
  | 36 => ⟨S32768x7x7x2x2, .f32⟩
  | 37 => ⟨S32768x7x7x2x2, .f32⟩
  | 38 => ⟨S32768x7x7x2x2, .f32⟩
  | 39 => ⟨S32768x7x7x2x2, .f32⟩
  | 40 => ⟨S_, .f32⟩
  | 41 => ⟨S32768x7x7x2, .f32⟩
  | 42 => ⟨S32768x7x7x2x2, .f32⟩
  | 43 => ⟨S32768x7x7x2x2, .f32⟩
  | 44 => ⟨S32768x7x7x2x2, .f32⟩
  | 45 => ⟨S32768x7x7x2x2, .f32⟩
  | 46 => ⟨S32768x7x7x2x2, .f32⟩
  | 47 => ⟨S32768x7x7x2x2, .f32⟩
  | 48 => ⟨S_, .f32⟩
  | 49 => ⟨S32768x7x7x2, .f32⟩
  | 50 => ⟨S32768x7x7x2, .f32⟩
  | 51 => ⟨S_, .f32⟩
  | 52 => ⟨S_, .f32⟩
  | 53 => ⟨S32768x7x7x2, .f32⟩
  | 54 => ⟨S32768x7x7x2, .f32⟩
  | 55 => ⟨S_, .f32⟩
  | 56 => ⟨S_, .f32⟩
  | 57 => ⟨S32768x7x7x1, .f32⟩
  | 58 => ⟨S32768x7x7x1, .f32⟩
  | 59 => ⟨S32768x7x7x1, .f32⟩
  | 60 => ⟨S32768x7x7x1, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | _ => ⟨S32768x7x7x11, .f32⟩

abbrev hbmTy (i : Nat) : BufTy := match i / 128 with
  | 0 => hbmTy0_0 i
  | 1 => hbmTy0_1 i
  | _ => ⟨S32768x7x7x11, .f32⟩

abbrev bufTy : (tb : Table) → Fin (tcTables nBuf tb) → BufTy
  | .hbm, ⟨i, _⟩ => hbmTy i
  | _, _ => ⟨S32768x7x7x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_cst_10 : Ref sig .tc := ⟨.hbm, 123, rfl⟩
abbrev main_call1_v0 : Ref sig .tc := ⟨.hbm, 124, rfl⟩
abbrev main_call1_v1 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_11 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_cst_12 : Ref sig .tc := ⟨.hbm, 151, rfl⟩
abbrev main_call2_v0 : Ref sig .tc := ⟨.hbm, 152, rfl⟩
abbrev main_call2_v1 : Ref sig .tc := ⟨.hbm, 153, rfl⟩
abbrev main_v132 : Ref sig .tc := ⟨.hbm, 154, rfl⟩
abbrev main_cst_13 : Ref sig .tc := ⟨.hbm, 155, rfl⟩
abbrev main_v133 : Ref sig .tc := ⟨.hbm, 156, rfl⟩
abbrev main_v134 : Ref sig .tc := ⟨.hbm, 157, rfl⟩
abbrev main_cst_14 : Ref sig .tc := ⟨.hbm, 158, rfl⟩
abbrev main_call3_v0 : Ref sig .tc := ⟨.hbm, 159, rfl⟩
abbrev main_call3_v1 : Ref sig .tc := ⟨.hbm, 160, rfl⟩
abbrev main_v135 : Ref sig .tc := ⟨.hbm, 161, rfl⟩
abbrev main_cst_15 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_cst_16 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_17 : Ref sig .tc := ⟨.hbm, 176, rfl⟩
abbrev main_v148 : Ref sig .tc := ⟨.hbm, 177, rfl⟩
abbrev main_v149 : Ref sig .tc := ⟨.hbm, 178, rfl⟩
abbrev main_cst_18 : Ref sig .tc := ⟨.hbm, 179, rfl⟩
abbrev main_call4_v0 : Ref sig .tc := ⟨.hbm, 180, rfl⟩
abbrev main_call4_v1 : Ref sig .tc := ⟨.hbm, 181, rfl⟩
abbrev main_v150 : Ref sig .tc := ⟨.hbm, 182, rfl⟩
abbrev main_cst_19 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_cst_20 : Ref sig .tc := ⟨.hbm, 189, rfl⟩
abbrev main_v156 : Ref sig .tc := ⟨.hbm, 190, rfl⟩
abbrev main_cst_21 : Ref sig .tc := ⟨.hbm, 191, rfl⟩
abbrev main_v157 : Ref sig .tc := ⟨.hbm, 192, rfl⟩
abbrev main_v158 : Ref sig .tc := ⟨.hbm, 193, rfl⟩
abbrev main_cst_22 : Ref sig .tc := ⟨.hbm, 194, rfl⟩
abbrev main_v159 : Ref sig .tc := ⟨.hbm, 195, rfl⟩
abbrev main_v160 : Ref sig .tc := ⟨.hbm, 196, rfl⟩
abbrev main_cst_23 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_cst_24 : Ref sig .tc := ⟨.hbm, 201, rfl⟩
abbrev main_v164 : Ref sig .tc := ⟨.hbm, 202, rfl⟩

abbrev nD : Nat := 1
abbrev τ : Topo := Topo.v7x

variable {F : FTy → Type} [FloatOps F]

class Facts₀ : Prop where
  slices_S32768x7x7x11_S32768x7x7x1_0_0_0_4 : S32768x7x7x11.Slices ![0, 0, 0, 4] S32768x7x7x1
  shapeCasts_S32768x7x7x1_S32768x7x7 : S32768x7x7x1.ShapeCasts S32768x7x7
  bcast_S_S32768x7x7 : S_.BroadcastsInDim S32768x7x7 (![] : Fin 0 → Fin S32768x7x7.rank)
  slices_S32768x7x7x11_S32768x7x7x1_0_0_0_9 : S32768x7x7x11.Slices ![0, 0, 0, 9] S32768x7x7x1
  reducesTo_S32768x7x7_S_d0_1_2 : S32768x7x7.ReducesTo [0, 1, 2] S_
  h_S_ : 0 < S_.numel
  slices_S32768x7x7x11_S32768x7x7x10_0_0_0_0 : S32768x7x7x11.Slices ![0, 0, 0, 0] S32768x7x7x10
  shapeCasts_S32768x7x7x10_S32768x7x7x2x5 : S32768x7x7x10.ShapeCasts S32768x7x7x2x5
  slices_S32768x7x7x11_S32768x7x7x5_0_0_0_0 : S32768x7x7x11.Slices ![0, 0, 0, 0] S32768x7x7x5
  slices_S32768x7x7x2x5_S32768x7x7x2x2_0_0_0_0_0 : S32768x7x7x2x5.Slices ![0, 0, 0, 0, 0] S32768x7x7x2x2
  bcast_S_S32768x7x7x2x2 : S_.BroadcastsInDim S32768x7x7x2x2 (![] : Fin 0 → Fin S32768x7x7x2x2.rank)
  slices_S32768x7x7x2x5_S32768x7x7x2x2_0_0_0_0_2 : S32768x7x7x2x5.Slices ![0, 0, 0, 0, 2] S32768x7x7x2x2
  concatenates_S32768x7x7x2x2_S32768x7x7x2x2_S32768x7x7x2x4_d4 : Shape.Concatenates [S32768x7x7x2x2, S32768x7x7x2x2] S32768x7x7x2x4 4
  slices_S32768x7x7x5_S32768x7x7x2_0_0_0_0 : S32768x7x7x5.Slices ![0, 0, 0, 0] S32768x7x7x2
  bcast_S_S32768x7x7x2 : S_.BroadcastsInDim S32768x7x7x2 (![] : Fin 0 → Fin S32768x7x7x2.rank)
  slices_S32768x7x7x5_S32768x7x7x2_0_0_0_2 : S32768x7x7x5.Slices ![0, 0, 0, 2] S32768x7x7x2
  concatenates_S32768x7x7x2_S32768x7x7x2_S32768x7x7x4_d3 : Shape.Concatenates [S32768x7x7x2, S32768x7x7x2] S32768x7x7x4 3
  bcast_S32768x7x7x4_S32768x7x7x1x4_0_1_2_4 : S32768x7x7x4.BroadcastsInDim S32768x7x7x1x4 (![0, 1, 2, 4] : Fin 4 → Fin S32768x7x7x1x4.rank)
  slices_S32768x7x7x2x4_S32768x7x7x2x2_0_0_0_0_0 : S32768x7x7x2x4.Slices ![0, 0, 0, 0, 0] S32768x7x7x2x2
  slices_S32768x7x7x1x4_S32768x7x7x1x2_0_0_0_0_0 : S32768x7x7x1x4.Slices ![0, 0, 0, 0, 0] S32768x7x7x1x2
  bcast_S32768x7x7x1x2_S32768x7x7x2x2_0_1_2_3_4 : S32768x7x7x1x2.BroadcastsInDim S32768x7x7x2x2 (![0, 1, 2, 3, 4] : Fin 5 → Fin S32768x7x7x2x2.rank)
  slices_S32768x7x7x2x4_S32768x7x7x2x2_0_0_0_0_2 : S32768x7x7x2x4.Slices ![0, 0, 0, 0, 2] S32768x7x7x2x2
  slices_S32768x7x7x1x4_S32768x7x7x1x2_0_0_0_0_2 : S32768x7x7x1x4.Slices ![0, 0, 0, 0, 2] S32768x7x7x1x2
  slices_S32768x7x7x2x2_S32768x7x7x2x1_0_0_0_0_0 : S32768x7x7x2x2.Slices ![0, 0, 0, 0, 0] S32768x7x7x2x1
  shapeCasts_S32768x7x7x2x1_S32768x7x7x2 : S32768x7x7x2x1.ShapeCasts S32768x7x7x2
  slices_S32768x7x7x2x2_S32768x7x7x2x1_0_0_0_0_1 : S32768x7x7x2x2.Slices ![0, 0, 0, 0, 1] S32768x7x7x2x1
  slices_S32768x7x7x2x4_S32768x7x7x2x1_0_0_0_0_2 : S32768x7x7x2x4.Slices ![0, 0, 0, 0, 2] S32768x7x7x2x1
  slices_S32768x7x7x2x4_S32768x7x7x2x1_0_0_0_0_0 : S32768x7x7x2x4.Slices ![0, 0, 0, 0, 0] S32768x7x7x2x1
  slices_S32768x7x7x2x4_S32768x7x7x2x1_0_0_0_0_3 : S32768x7x7x2x4.Slices ![0, 0, 0, 0, 3] S32768x7x7x2x1
  slices_S32768x7x7x2x4_S32768x7x7x2x1_0_0_0_0_1 : S32768x7x7x2x4.Slices ![0, 0, 0, 0, 1] S32768x7x7x2x1
  slices_S32768x7x7x1x4_S32768x7x7x1x1_0_0_0_0_2 : S32768x7x7x1x4.Slices ![0, 0, 0, 0, 2] S32768x7x7x1x1
  shapeCasts_S32768x7x7x1x1_S32768x7x7x1 : S32768x7x7x1x1.ShapeCasts S32768x7x7x1
  slices_S32768x7x7x1x4_S32768x7x7x1x1_0_0_0_0_0 : S32768x7x7x1x4.Slices ![0, 0, 0, 0, 0] S32768x7x7x1x1
  slices_S32768x7x7x1x4_S32768x7x7x1x1_0_0_0_0_3 : S32768x7x7x1x4.Slices ![0, 0, 0, 0, 3] S32768x7x7x1x1
  slices_S32768x7x7x1x4_S32768x7x7x1x1_0_0_0_0_1 : S32768x7x7x1x4.Slices ![0, 0, 0, 0, 1] S32768x7x7x1x1
  bcast_S32768x7x7x1_S32768x7x7x2_0_1_2_3 : S32768x7x7x1.BroadcastsInDim S32768x7x7x2 (![0, 1, 2, 3] : Fin 4 → Fin S32768x7x7x2.rank)
  slices_S32768x7x7x2_S32768x7x7x1_0_0_0_0 : S32768x7x7x2.Slices ![0, 0, 0, 0] S32768x7x7x1
  slices_S32768x7x7x2_S32768x7x7x1_0_0_0_1 : S32768x7x7x2.Slices ![0, 0, 0, 1] S32768x7x7x1
  bcast_S32768x7x7_S32768x7x7x1_0_1_2 : S32768x7x7.BroadcastsInDim S32768x7x7x1 (![0, 1, 2] : Fin 3 → Fin S32768x7x7x1.rank)
  concatenates_S32768x7x7x1_S32768x7x7x1_S32768x7x7x2_d3 : Shape.Concatenates [S32768x7x7x1, S32768x7x7x1] S32768x7x7x2 3
  reducesTo_S32768x7x7x2_S32768x7x7_d3 : S32768x7x7x2.ReducesTo [3] S32768x7x7
  slices_S32768x7x7x2x5_S32768x7x7x2x1_0_0_0_0_4 : S32768x7x7x2x5.Slices ![0, 0, 0, 0, 4] S32768x7x7x2x1
  reducesTo_S32768x7x7x2_S_d0_1_2_3 : S32768x7x7x2.ReducesTo [0, 1, 2, 3] S_
  reducesTo_S32768x7x7x2x2_S32768x7x7x2_d4 : S32768x7x7x2x2.ReducesTo [4] S32768x7x7x2
  slices_S32768x7x7x11_S32768x7x7x1_0_0_0_10 : S32768x7x7x11.Slices ![0, 0, 0, 10] S32768x7x7x1
  reducesTo_S32768x7x7x1_S_d0_1_2_3 : S32768x7x7x1.ReducesTo [0, 1, 2, 3] S_

variable [Facts₀]

class Facts : Prop extends Facts₀ where

variable [Facts]
-- ==== Proof.Spec.lean ====
/-
  What both programs compute, cell by cell.

  A cell is one position (image, grid row, grid column). Its data are two rows of eleven numbers, the
  prediction `p` and the target `t`: two boxes (centre x, centre y, width, height, confidence) at entries
  0–4 and 5–9, and a class score at entry 10. A cell's loss has five parts: the localisation error of the
  box responsible for the cell's object, that box's confidence error against the larger overlap, the
  confidence of the box that is not responsible, the confidence error of a cell without an object, and the
  class error. The result is `(5·L + C + ½·N + ½·O + K) / 32768` of the five parts' sums over all cells.

  Everything is over the extended reals. No law used between the two programs needs finiteness: sums are
  regrouped, and the weights 5 and ½ are finite and not negative, so they distribute over any sum.
-/
import Idealize.ShloMosaic.PureOps.Ideal
import Idealize.ShloMosaic.PureOps.Ideal.Laws
import Idealize.ShloMosaic.Lib.ValueIdx

noncomputable section

namespace Cert.Yolo

open Idealize.ShloMosaic Idealize.ShloMosaic.ValueIdx

/-- The constants both programs spell: 64 (a cell's side), ½, 448 (the image's side), 5, 32768 (the images). -/
abbrev k64 : EReal := Ideal.ofBits .f32 0x42800000#32
abbrev khalf : EReal := Ideal.ofBits .f32 0x3F000000#32
abbrev k448 : EReal := Ideal.ofBits .f32 0x43E00000#32
abbrev k5 : EReal := Ideal.ofBits .f32 0x40A00000#32
abbrev kN : EReal := Ideal.ofBits .f32 0x47000000#32

/-- A box's low and high edge along one axis, from its centre and its extent there: centre·64 ∓ (½·extent)·448. -/
def lo (c e : EReal) : EReal := c * k64 - khalf * e * k448
def hi (c e : EReal) : EReal := c * k64 + khalf * e * k448

/-- Whether two boxes overlap: on each axis the larger low edge is below the smaller high edge. -/
def overlaps (px py pw ph tx ty tw th : EReal) : BitVec 1 :=
  Ideal.cmp .olt (max (lo px pw) (lo tx tw)) (min (hi px pw) (hi tx tw))
    &&& Ideal.cmp .olt (max (lo py ph) (lo ty th)) (min (hi py ph) (hi ty th))

/-- The area of two boxes' intersection (meaningful where they overlap). -/
def inter (px py pw ph tx ty tw th : EReal) : EReal :=
  (min (hi px pw) (hi tx tw) - max (lo px pw) (lo tx tw)) * (min (hi py ph) (hi ty th) - max (lo py ph) (lo ty th))

/-- A box's area. -/
def area (x y w h : EReal) : EReal := (hi x w - lo x w) * (hi y h - lo y h)

/-- Intersection over union of a predicted box and a target box; zero where they do not overlap. -/
def iou (px py pw ph tx ty tw th : EReal) : EReal :=
  Scalar.select (overlaps px py pw ph tx ty tw th)
    (Ideal.div (inter px py pw ph tx ty tw th)
      (area px py pw ph + area tx ty tw th - inter px py pw ph tx ty tw th))
    0

/-- Entry `e` of box `k` in a row of eleven: position `5k + e`. -/
def bx (k : Fin 2) (e : Fin 5) : Fin 11 := ⟨5 * k.val + e.val, by have := k.isLt; have := e.isLt; omega⟩

/-- The squared difference. -/
def sqd (a b : EReal) : EReal := (a - b) * (a - b)

section cell
variable (p t : Fin 11 → EReal)

/-- The overlap of predicted box `k` with the target's FIRST box (entries 0 … 3). -/
def iouBox (k : Fin 2) : EReal :=
  iou (p (bx k 0)) (p (bx k 1)) (p (bx k 2)) (p (bx k 3)) (t 0) (t 1) (t 2) (t 3)

/-- The cell holds an object: the target's first confidence is positive. -/
def hasObj : BitVec 1 := Ideal.cmp .ogt (t 4) 0

/-- Box 0's overlap is strictly the larger (a tie goes to box 1). -/
def wins : BitVec 1 := Ideal.cmp .ogt (iouBox p t 0) (iouBox p t 1)

/-- The larger of the two overlaps. -/
def bestIou : EReal := max (iouBox p t 0) (iouBox p t 1)

/-- Box `k` is the one chosen by the overlaps. -/
def chosen : Fin 2 → BitVec 1
  | 0 => wins p t
  | 1 => wins p t ^^^ 1#1

/-- Box `k` is responsible for the cell's object. -/
def resp (k : Fin 2) : BitVec 1 := hasObj t &&& chosen p t k

/-- The cell has an object and box `k` is NOT responsible for it: the other box is. -/
def other : Fin 2 → BitVec 1
  | 0 => resp p t 1
  | 1 => resp p t 0

/-- The squared localisation error of box `k`: centres directly, extents through their square roots. -/
def locSq (k : Fin 2) : EReal :=
  (sqd (p (bx k 0)) (t (bx k 0)) + sqd (p (bx k 1)) (t (bx k 1)))
    + (sqd (Ideal.sqrt (p (bx k 2))) (Ideal.sqrt (t (bx k 2))) + sqd (Ideal.sqrt (p (bx k 3))) (Ideal.sqrt (t (bx k 3))))

/-- The five parts of a cell's loss (the first three per box). -/
def locTerm (k : Fin 2) : EReal := Scalar.select (resp p t k) (locSq p t k) 0
def conTerm (k : Fin 2) : EReal := Scalar.select (resp p t k) (sqd (p (bx k 4)) (bestIou p t)) 0
def othTerm (k : Fin 2) : EReal := Scalar.select (other p t k) (p (bx k 4) * p (bx k 4)) 0
def nooTerm : EReal := Scalar.select (hasObj t ^^^ 1#1) (sqd (p 4) (t 4) + sqd (p 9) (t 9)) 0
def clsTerm : EReal := sqd (p 10) (t 10)

end cell

/-- The weighted total of the five parts over a family of cells (one block of rows, or all cells). -/
def total {R : Type} [Fintype R] (P T : R → Fin 11 → EReal) : EReal :=
  k5 * ((∑ r, locTerm (P r) (T r) 0) + ∑ r, locTerm (P r) (T r) 1)
    + ((∑ r, conTerm (P r) (T r) 0) + ∑ r, conTerm (P r) (T r) 1)
    + khalf * ((∑ r, othTerm (P r) (T r) 0) + ∑ r, othTerm (P r) (T r) 1)
    + khalf * (∑ r, nooTerm (P r) (T r))
    + ∑ r, clsTerm (P r) (T r)

/-- The whole argument arrays, and a cell's row of one. -/
abbrev Arr : Type := (⟨4, ![32768, 7, 7, 11]⟩ : Shape).Idx → EReal
def cellRow (x : Arr) (n : Fin 32768) (a b : Fin 7) : Fin 11 → EReal := fun ch => x (ix4 n a b ch)

end Cert.Yolo

end
-- ==== Proof.KernelBlock.lean ====
/-
  One grid point of the kernel: what its body adds to the running total, as a value.

  The body reads a block of 4096 rows of the predictions and of the targets and computes ONE number from
  them: the weighted total of the five parts of the loss over the block's rows. `blockVal` is that number as
  the body's own arithmetic composes it; `blockVal_eq` reads it, at the extended reals, as `Cert.Yolo.total`
  of the block's rows.
-/
import proofs.«100800_j66340064854039_1_alg».proof.Proof.Spec
import proofs.«100800_j66340064854039_1_alg».proof.Proof.Gen.KernelIdeal.Frame
import Idealize.ShloMosaic.Lib.Pipeline.Value
import Idealize.ShloMosaic.Lib.ValueLayout

noncomputable section

namespace Cert.KernelIdeal.Block

open Idealize.ShloMosaic Idealize.ShloMosaic.TcCoe Idealize.ShloMosaic.ValueIdx
open Cert.KernelIdeal Cert.KernelIdeal.Gen Cert.Yolo

variable {F : FTy → Type} [FloatOps F]

/-- The body's arithmetic on one pair of blocks: every intermediate value the body names, in its order, and the
    block's weighted total last. -/
def blockVal (x0 x1 : Vec F S1x4096x11 .f32) : FVec F S1x1 .f32 :=
  let v7 := k0_pay5 x0
  let v8 := k0_pay6 x0
  let v9 := k0_pay7 x0
  let v10 := k0_pay8 x0
  let v11 := k0_pay9 x0
  let v12 := k0_pay10 x0
  let v13 := k0_pay11 x0
  let v14 := k0_pay12 x1
  let v15 := k0_pay13 x1
  let v17 := k0_pay15 x1
  let v18 := k0_pay16 x1
  let v20 := k0_pay17 x1
  let v22 := k0_pay18 x1
  let v32 := k0_pay19 x0 x1
  let v38 := k0_pay21 x0
  let v39 := k0_pay22 x0
  let v40 := k0_pay23 x0
  let v41 := k0_pay24 x0
  let v57 := k0_pay36 v10 v11
  let v58 := k0_pay37 v10 v11
  let v59 := k0_pay38 v10 v11
  let v60 := k0_pay39 v10 v11
  let v71 := k0_pay46 v14 v15
  let v72 := k0_pay47 v14 v15
  let v73 := k0_pay48 v14 v15
  let v74 := k0_pay49 v14 v15
  let v81 := k0_pay54 v14 v15 v38 v39 v40 v41
  let v93 := k0_pay55 v14 v15 v38 v39 v40 v41
  let v94 := k0_pay56 (F := F)
  let v119 := k0_pay60 v22 v57 v58 v59 v60 v71 v72 v73 v74 v81 v93 v94
  let v121 := k0_pay61 v22 v57 v58 v59 v60 v71 v72 v73 v74 v81 v93 v94
  let v134 := k0_pay62 v9 v12 v22 v57 v58 v59 v60 v71 v72 v73 v74 v81 v93 v94
  let v139 := k0_pay63 v9 v22 v57 v58 v59 v60 v71 v72 v73 v74 v81 v93 v94
  let v144 := k0_pay64 v12 v22 v57 v58 v59 v60 v71 v72 v73 v74 v81 v93 v94
  k0_pay65 v7 v8 v10 v11 v13 v14 v15 v17 v18 v20 v32 v119 v121 v134 v139 v144

/-- Row `r` of a block, as a row of eleven. -/
def blockRow (x : Vec Ideal S1x4096x11 .f32) (r : Fin 4096) : Fin 11 → EReal := fun ch => x (ix3 0 r ch)

/-! ### Layout: a block's row, column by column -/

/-- The block without its unit axis reads the block at the same row and column. -/
private theorem pay3_at (x : Vec Ideal S1x4096x11 .f32) (r : Fin 4096) (c : Fin 11) :
    k0_pay3 x (ix2 r c) = x (ix3 0 r c) := by
  unfold k0_pay3
  exact shapeCast_1ab_ab_apply x _ r c

private theorem pay4_at (x : Vec Ideal S1x4096x11 .f32) (r : Fin 4096) (c : Fin 11) :
    k0_pay4 x (ix2 r c) = x (ix3 0 r c) := by
  unfold k0_pay4
  exact shapeCast_1ab_ab_apply x _ r c

/-- A sum down a column of 4096 entries, kept as a one-by-one array. -/
private theorem colSum_at (v : FVec Ideal S4096x1 .f32) (h : S4096x1.Reduces [0] S1) (hφ : FKind.Formats .f32)
    (hacc : (0x00000000#32 : BitVec 32) = FKind.add.neutral .f32 hφ) (hc : S1.ShapeCasts S1x1) :
    shapeCast S1x1 (multiReduction .add [0] S1 v 0x00000000#32 h hφ hacc) hc (ix2 0 0) = ∑ r : Fin 4096, v (ix2 r 0) := by
  refine (shapeCast_a_1a_apply _ hc 0 0).trans ?_
  refine (Ideal.multiReduction_add_single v 0x00000000#32 h hφ hacc (ix1 0)).trans ?_
  refine Finset.sum_congr rfl fun k _ => congrArg v ?_
  funext c
  match c with
  | ⟨0, _⟩ => rfl
  | ⟨1, _⟩ => rfl

/-- A sum along a row of two entries, kept as a column. -/
private theorem rowSum_at (v : FVec Ideal S4096x2 .f32) (h : S4096x2.Reduces [1] S4096) (hφ : FKind.Formats .f32)
    (hacc : (0x00000000#32 : BitVec 32) = FKind.add.neutral .f32 hφ) (hc : S4096.ShapeCasts S4096x1) (r : Fin 4096) :
    shapeCast S4096x1 (multiReduction .add [1] S4096 v 0x00000000#32 h hφ hacc) hc (ix2 r 0) = v (ix2 r 0) + v (ix2 r 1) := by
  refine (shapeCast_apply _ hc (ix2 r 0) (ix1 r) ?_).trans ?_
  · rw [Shape.rowMajor_val_one, Shape.rowMajor_val_two]
    show r.val = r.val * 1 + 0
    omega
  refine (Ideal.multiReduction_add_single v 0x00000000#32 h hφ hacc (ix1 r)).trans ?_
  refine (Fin.sum_univ_two _).trans ?_
  congr 1
  · refine congrArg v ?_
    funext c
    match c with
    | ⟨0, _⟩ => rfl
    | ⟨1, _⟩ => rfl
  · refine congrArg v ?_
    funext c
    match c with
    | ⟨0, _⟩ => rfl
    | ⟨1, _⟩ => rfl

/-! ### The sliced columns of a block, at a row -/

private theorem pay5_at0 (x : Vec Ideal S1x4096x11 .f32) (r : Fin 4096) :
    k0_pay5 x (ix2 r 0) = x (ix3 0 r 0) := by
  unfold k0_pay5
  exact (slice2_axis1_apply (m := 2) 0 (k0_pay3 x) _ r 0 0 rfl).trans (pay3_at x r 0)

private theorem pay5_at1 (x : Vec Ideal S1x4096x11 .f32) (r : Fin 4096) :
    k0_pay5 x (ix2 r 1) = x (ix3 0 r 1) := by
  unfold k0_pay5
  exact (slice2_axis1_apply (m := 2) 0 (k0_pay3 x) _ r 1 1 rfl).trans (pay3_at x r 1)

private theorem pay6_at0 (x : Vec Ideal S1x4096x11 .f32) (r : Fin 4096) :
    k0_pay6 x (ix2 r 0) = x (ix3 0 r 2) := by
  unfold k0_pay6
  exact (slice2_axis1_apply (m := 2) 2 (k0_pay3 x) _ r 0 2 rfl).trans (pay3_at x r 2)

private theorem pay6_at1 (x : Vec Ideal S1x4096x11 .f32) (r : Fin 4096) :
    k0_pay6 x (ix2 r 1) = x (ix3 0 r 3) := by
  unfold k0_pay6
  exact (slice2_axis1_apply (m := 2) 2 (k0_pay3 x) _ r 1 3 rfl).trans (pay3_at x r 3)

private theorem pay7_at (x : Vec Ideal S1x4096x11 .f32) (r : Fin 4096) :
    k0_pay7 x (ix2 r 0) = x (ix3 0 r 4) := by
  unfold k0_pay7
  exact (slice2_axis1_apply (m := 1) 4 (k0_pay3 x) _ r 0 4 rfl).trans (pay3_at x r 4)

private theorem pay8_at0 (x : Vec Ideal S1x4096x11 .f32) (r : Fin 4096) :
    k0_pay8 x (ix2 r 0) = x (ix3 0 r 5) := by
  unfold k0_pay8
  exact (slice2_axis1_apply (m := 2) 5 (k0_pay3 x) _ r 0 5 rfl).trans (pay3_at x r 5)

private theorem pay8_at1 (x : Vec Ideal S1x4096x11 .f32) (r : Fin 4096) :
    k0_pay8 x (ix2 r 1) = x (ix3 0 r 6) := by
  unfold k0_pay8
  exact (slice2_axis1_apply (m := 2) 5 (k0_pay3 x) _ r 1 6 rfl).trans (pay3_at x r 6)

private theorem pay9_at0 (x : Vec Ideal S1x4096x11 .f32) (r : Fin 4096) :
    k0_pay9 x (ix2 r 0) = x (ix3 0 r 7) := by
  unfold k0_pay9
  exact (slice2_axis1_apply (m := 2) 7 (k0_pay3 x) _ r 0 7 rfl).trans (pay3_at x r 7)

private theorem pay9_at1 (x : Vec Ideal S1x4096x11 .f32) (r : Fin 4096) :
    k0_pay9 x (ix2 r 1) = x (ix3 0 r 8) := by
  unfold k0_pay9
  exact (slice2_axis1_apply (m := 2) 7 (k0_pay3 x) _ r 1 8 rfl).trans (pay3_at x r 8)

private theorem pay10_at (x : Vec Ideal S1x4096x11 .f32) (r : Fin 4096) :
    k0_pay10 x (ix2 r 0) = x (ix3 0 r 9) := by
  unfold k0_pay10
  exact (slice2_axis1_apply (m := 1) 9 (k0_pay3 x) _ r 0 9 rfl).trans (pay3_at x r 9)

private theorem pay11_at (x : Vec Ideal S1x4096x11 .f32) (r : Fin 4096) :
    k0_pay11 x (ix2 r 0) = x (ix3 0 r 10) := by
  unfold k0_pay11
  exact (slice2_axis1_apply (m := 1) 10 (k0_pay3 x) _ r 0 10 rfl).trans (pay3_at x r 10)

private theorem pay12_at0 (x : Vec Ideal S1x4096x11 .f32) (r : Fin 4096) :
    k0_pay12 x (ix2 r 0) = x (ix3 0 r 0) := by
  unfold k0_pay12
  exact (slice2_axis1_apply (m := 2) 0 (k0_pay4 x) _ r 0 0 rfl).trans (pay4_at x r 0)

private theorem pay12_at1 (x : Vec Ideal S1x4096x11 .f32) (r : Fin 4096) :
    k0_pay12 x (ix2 r 1) = x (ix3 0 r 1) := by
  unfold k0_pay12
  exact (slice2_axis1_apply (m := 2) 0 (k0_pay4 x) _ r 1 1 rfl).trans (pay4_at x r 1)

private theorem pay13_at0 (x : Vec Ideal S1x4096x11 .f32) (r : Fin 4096) :
    k0_pay13 x (ix2 r 0) = x (ix3 0 r 2) := by
  unfold k0_pay13
  exact (slice2_axis1_apply (m := 2) 2 (k0_pay4 x) _ r 0 2 rfl).trans (pay4_at x r 2)

private theorem pay13_at1 (x : Vec Ideal S1x4096x11 .f32) (r : Fin 4096) :
    k0_pay13 x (ix2 r 1) = x (ix3 0 r 3) := by
  unfold k0_pay13
  exact (slice2_axis1_apply (m := 2) 2 (k0_pay4 x) _ r 1 3 rfl).trans (pay4_at x r 3)

private theorem pay14_at (x : Vec Ideal S1x4096x11 .f32) (r : Fin 4096) :
    k0_pay14 x (ix2 r 0) = x (ix3 0 r 4) := by
  unfold k0_pay14
  exact (slice2_axis1_apply (m := 1) 4 (k0_pay4 x) _ r 0 4 rfl).trans (pay4_at x r 4)

private theorem pay15_at0 (x : Vec Ideal S1x4096x11 .f32) (r : Fin 4096) :
    k0_pay15 x (ix2 r 0) = x (ix3 0 r 5) := by
  unfold k0_pay15
  exact (slice2_axis1_apply (m := 2) 5 (k0_pay4 x) _ r 0 5 rfl).trans (pay4_at x r 5)

private theorem pay15_at1 (x : Vec Ideal S1x4096x11 .f32) (r : Fin 4096) :
    k0_pay15 x (ix2 r 1) = x (ix3 0 r 6) := by
  unfold k0_pay15
  exact (slice2_axis1_apply (m := 2) 5 (k0_pay4 x) _ r 1 6 rfl).trans (pay4_at x r 6)

private theorem pay16_at0 (x : Vec Ideal S1x4096x11 .f32) (r : Fin 4096) :
    k0_pay16 x (ix2 r 0) = x (ix3 0 r 7) := by
  unfold k0_pay16
  exact (slice2_axis1_apply (m := 2) 7 (k0_pay4 x) _ r 0 7 rfl).trans (pay4_at x r 7)

private theorem pay16_at1 (x : Vec Ideal S1x4096x11 .f32) (r : Fin 4096) :
    k0_pay16 x (ix2 r 1) = x (ix3 0 r 8) := by
  unfold k0_pay16
  exact (slice2_axis1_apply (m := 2) 7 (k0_pay4 x) _ r 1 8 rfl).trans (pay4_at x r 8)

private theorem pay17_at (x : Vec Ideal S1x4096x11 .f32) (r : Fin 4096) :
    k0_pay17 x (ix2 r 0) = x (ix3 0 r 10) := by
  unfold k0_pay17
  exact (slice2_axis1_apply (m := 1) 10 (k0_pay4 x) _ r 0 10 rfl).trans (pay4_at x r 10)

/-! ### The corners of a box, at a row

A two-wide slice `c` holds a box's centre and a two-wide slice `e` its extents; the body forms `c·64` and `(½·e)·448`,
cuts each into its two columns and subtracts or adds them. -/

private theorem pay30_at (c : FVec Ideal S4096x2 .f32) (r : Fin 4096) (j : Fin 2) :
    k0_pay30 c (ix2 r j) = c (ix2 r j) * k64 := rfl

private theorem pay31_at (e : FVec Ideal S4096x2 .f32) (r : Fin 4096) (j : Fin 2) :
    k0_pay31 e (ix2 r j) = khalf * e (ix2 r j) * k448 := rfl

private theorem pay32_at (c : FVec Ideal S4096x2 .f32) (r : Fin 4096) :
    k0_pay32 c (ix2 r 0) = c (ix2 r 0) * k64 := by
  unfold k0_pay32
  exact (slice2_axis1_apply (m := 1) 0 (k0_pay30 c) _ r 0 0 rfl).trans (pay30_at c r 0)

private theorem pay33_at (c : FVec Ideal S4096x2 .f32) (r : Fin 4096) :
    k0_pay33 c (ix2 r 0) = c (ix2 r 1) * k64 := by
  unfold k0_pay33
  exact (slice2_axis1_apply (m := 1) 1 (k0_pay30 c) _ r 0 1 rfl).trans (pay30_at c r 1)

private theorem pay34_at (e : FVec Ideal S4096x2 .f32) (r : Fin 4096) :
    k0_pay34 e (ix2 r 0) = khalf * e (ix2 r 0) * k448 := by
  unfold k0_pay34
  exact (slice2_axis1_apply (m := 1) 0 (k0_pay31 e) _ r 0 0 rfl).trans (pay31_at e r 0)

private theorem pay35_at (e : FVec Ideal S4096x2 .f32) (r : Fin 4096) :
    k0_pay35 e (ix2 r 0) = khalf * e (ix2 r 1) * k448 := by
  unfold k0_pay35
  exact (slice2_axis1_apply (m := 1) 1 (k0_pay31 e) _ r 0 1 rfl).trans (pay31_at e r 1)

private theorem pay36_at (c e : FVec Ideal S4096x2 .f32) (r : Fin 4096) :
    k0_pay36 c e (ix2 r 0) = lo (c (ix2 r 0)) (e (ix2 r 0)) := by
  unfold k0_pay36
  show k0_pay32 c (ix2 r 0) - k0_pay34 e (ix2 r 0) = _
  rw [pay32_at, pay34_at]; rfl

private theorem pay37_at (c e : FVec Ideal S4096x2 .f32) (r : Fin 4096) :
    k0_pay37 c e (ix2 r 0) = lo (c (ix2 r 1)) (e (ix2 r 1)) := by
  unfold k0_pay37
  show k0_pay33 c (ix2 r 0) - k0_pay35 e (ix2 r 0) = _
  rw [pay33_at, pay35_at]; rfl

private theorem pay38_at (c e : FVec Ideal S4096x2 .f32) (r : Fin 4096) :
    k0_pay38 c e (ix2 r 0) = hi (c (ix2 r 0)) (e (ix2 r 0)) := by
  unfold k0_pay38
  show k0_pay32 c (ix2 r 0) + k0_pay34 e (ix2 r 0) = _
  rw [pay32_at, pay34_at]; rfl

private theorem pay39_at (c e : FVec Ideal S4096x2 .f32) (r : Fin 4096) :
    k0_pay39 c e (ix2 r 0) = hi (c (ix2 r 1)) (e (ix2 r 1)) := by
  unfold k0_pay39
  show k0_pay33 c (ix2 r 0) + k0_pay35 e (ix2 r 0) = _
  rw [pay33_at, pay35_at]; rfl

private theorem pay40_at (c : FVec Ideal S4096x2 .f32) (r : Fin 4096) (j : Fin 2) :
    k0_pay40 c (ix2 r j) = c (ix2 r j) * k64 := rfl

private theorem pay41_at (e : FVec Ideal S4096x2 .f32) (r : Fin 4096) (j : Fin 2) :
    k0_pay41 e (ix2 r j) = khalf * e (ix2 r j) * k448 := rfl

private theorem pay42_at (c : FVec Ideal S4096x2 .f32) (r : Fin 4096) :
    k0_pay42 c (ix2 r 0) = c (ix2 r 0) * k64 := by
  unfold k0_pay42
  exact (slice2_axis1_apply (m := 1) 0 (k0_pay40 c) _ r 0 0 rfl).trans (pay40_at c r 0)

private theorem pay43_at (c : FVec Ideal S4096x2 .f32) (r : Fin 4096) :
    k0_pay43 c (ix2 r 0) = c (ix2 r 1) * k64 := by
  unfold k0_pay43
  exact (slice2_axis1_apply (m := 1) 1 (k0_pay40 c) _ r 0 1 rfl).trans (pay40_at c r 1)

private theorem pay44_at (e : FVec Ideal S4096x2 .f32) (r : Fin 4096) :
    k0_pay44 e (ix2 r 0) = khalf * e (ix2 r 0) * k448 := by
  unfold k0_pay44
  exact (slice2_axis1_apply (m := 1) 0 (k0_pay41 e) _ r 0 0 rfl).trans (pay41_at e r 0)

private theorem pay45_at (e : FVec Ideal S4096x2 .f32) (r : Fin 4096) :
    k0_pay45 e (ix2 r 0) = khalf * e (ix2 r 1) * k448 := by
  unfold k0_pay45
  exact (slice2_axis1_apply (m := 1) 1 (k0_pay41 e) _ r 0 1 rfl).trans (pay41_at e r 1)

private theorem pay46_at (c e : FVec Ideal S4096x2 .f32) (r : Fin 4096) :
    k0_pay46 c e (ix2 r 0) = lo (c (ix2 r 0)) (e (ix2 r 0)) := by
  unfold k0_pay46
  show k0_pay42 c (ix2 r 0) - k0_pay44 e (ix2 r 0) = _
  rw [pay42_at, pay44_at]; rfl

private theorem pay47_at (c e : FVec Ideal S4096x2 .f32) (r : Fin 4096) :
    k0_pay47 c e (ix2 r 0) = lo (c (ix2 r 1)) (e (ix2 r 1)) := by
  unfold k0_pay47
  show k0_pay43 c (ix2 r 0) - k0_pay45 e (ix2 r 0) = _
  rw [pay43_at, pay45_at]; rfl

private theorem pay48_at (c e : FVec Ideal S4096x2 .f32) (r : Fin 4096) :
    k0_pay48 c e (ix2 r 0) = hi (c (ix2 r 0)) (e (ix2 r 0)) := by
  unfold k0_pay48
  show k0_pay42 c (ix2 r 0) + k0_pay44 e (ix2 r 0) = _
  rw [pay42_at, pay44_at]; rfl

private theorem pay49_at (c e : FVec Ideal S4096x2 .f32) (r : Fin 4096) :
    k0_pay49 c e (ix2 r 0) = hi (c (ix2 r 1)) (e (ix2 r 1)) := by
  unfold k0_pay49
  show k0_pay43 c (ix2 r 0) + k0_pay45 e (ix2 r 0) = _
  rw [pay43_at, pay45_at]; rfl

/-! The first predicted box's corners are formed from the block directly. -/

private theorem pay20_at (x : Vec Ideal S1x4096x11 .f32) (r : Fin 4096) (j : Fin 2) :
    k0_pay20 x (ix2 r j) = k0_pay5 x (ix2 r j) * k64 := rfl

private theorem pay21_at (x : Vec Ideal S1x4096x11 .f32) (r : Fin 4096) (j : Fin 2) :
    k0_pay21 x (ix2 r j) = khalf * k0_pay6 x (ix2 r j) * k448 := rfl

private theorem pay21_at1 (x : Vec Ideal S1x4096x11 .f32) (r : Fin 4096) :
    k0_pay21 x (ix2 r 1) = khalf * x (ix3 0 r 3) * k448 :=
  (pay21_at x r 1).trans (congrArg (fun z => khalf * z * k448) (pay6_at1 x r))

private theorem pay22_at (x : Vec Ideal S1x4096x11 .f32) (r : Fin 4096) :
    k0_pay22 x (ix2 r 0) = x (ix3 0 r 0) * k64 := by
  unfold k0_pay22
  exact ((slice2_axis1_apply (m := 1) 0 (k0_pay20 x) _ r 0 0 rfl).trans (pay20_at x r 0)).trans
    (congrArg (fun z => z * k64) (pay5_at0 x r))

private theorem pay23_at (x : Vec Ideal S1x4096x11 .f32) (r : Fin 4096) :
    k0_pay23 x (ix2 r 0) = x (ix3 0 r 1) * k64 := by
  unfold k0_pay23
  exact ((slice2_axis1_apply (m := 1) 1 (k0_pay20 x) _ r 0 1 rfl).trans (pay20_at x r 1)).trans
    (congrArg (fun z => z * k64) (pay5_at1 x r))

private theorem pay24_at (x : Vec Ideal S1x4096x11 .f32) (r : Fin 4096) :
    k0_pay24 x (ix2 r 0) = khalf * x (ix3 0 r 2) * k448 := by
  unfold k0_pay24
  exact ((slice2_axis1_apply (m := 1) 0 (k0_pay21 x) _ r 0 0 rfl).trans (pay21_at x r 0)).trans
    (congrArg (fun z => khalf * z * k448) (pay6_at0 x r))

private theorem pay25_at (v : FVec Ideal S4096x2 .f32) (r : Fin 4096) :
    k0_pay25 v (ix2 r 0) = v (ix2 r 1) := by
  unfold k0_pay25
  exact slice2_axis1_apply (m := 1) 1 v _ r 0 1 rfl

private theorem lo0x_at (x : Vec Ideal S1x4096x11 .f32) (r : Fin 4096) :
    k0_pay26 (k0_pay22 x) (k0_pay24 x) (ix2 r 0) = lo (x (ix3 0 r 0)) (x (ix3 0 r 2)) := by
  unfold k0_pay26
  show k0_pay22 x (ix2 r 0) - k0_pay24 x (ix2 r 0) = _
  rw [pay22_at, pay24_at]; rfl

private theorem lo0y_at (x : Vec Ideal S1x4096x11 .f32) (r : Fin 4096) :
    k0_pay27 (k0_pay21 x) (k0_pay23 x) (ix2 r 0) = lo (x (ix3 0 r 1)) (x (ix3 0 r 3)) := by
  unfold k0_pay27
  show k0_pay23 x (ix2 r 0) - k0_pay25 (k0_pay21 x) (ix2 r 0) = _
  rw [pay23_at, pay25_at, pay21_at1]; rfl

private theorem hi0x_at (x : Vec Ideal S1x4096x11 .f32) (r : Fin 4096) :
    k0_pay28 (k0_pay22 x) (k0_pay24 x) (ix2 r 0) = hi (x (ix3 0 r 0)) (x (ix3 0 r 2)) := by
  unfold k0_pay28
  show k0_pay22 x (ix2 r 0) + k0_pay24 x (ix2 r 0) = _
  rw [pay22_at, pay24_at]; rfl

private theorem hi0y_at (x : Vec Ideal S1x4096x11 .f32) (r : Fin 4096) :
    k0_pay29 (k0_pay21 x) (k0_pay23 x) (ix2 r 0) = hi (x (ix3 0 r 1)) (x (ix3 0 r 3)) := by
  unfold k0_pay29
  show k0_pay23 x (ix2 r 0) + k0_pay25 (k0_pay21 x) (ix2 r 0) = _
  rw [pay23_at, pay25_at, pay21_at1]; rfl

/-! ### The overlap of two boxes from their corners -/

/-- Intersection over union from the low edges `l₁ l₂` and high edges `h₁ h₂` of one box and `m₁ m₂`, `g₁ g₂` of the other
    (`z` where they do not overlap). -/
private def iouC (z l1 l2 h1 h2 m1 m2 g1 g2 : EReal) : EReal :=
  Scalar.select (Ideal.cmp .olt (max l1 m1) (min h1 g1) &&& Ideal.cmp .olt (max l2 m2) (min h2 g2))
    (Ideal.div ((min h1 g1 - max l1 m1) * (min h2 g2 - max l2 m2))
      ((h1 - l1) * (h2 - l2) + (g1 - m1) * (g2 - m2) - (min h1 g1 - max l1 m1) * (min h2 g2 - max l2 m2)))
    z

private theorem iou_eq_iouC (px py pw ph tx ty tw th : EReal) :
    iou px py pw ph tx ty tw th
      = iouC 0 (lo px pw) (lo py ph) (hi px pw) (hi py ph) (lo tx tw) (lo ty th) (hi tx tw) (hi ty th) := rfl

/-- The second predicted box's overlap, from the eight corner columns. -/
private theorem pay58_at (v57 v58 v59 v60 v71 v72 v73 v74 : FVec Ideal S4096x1 .f32) (r : Fin 4096) :
    k0_pay58 v57 v58 v59 v60 v71 v72 v73 v74 (ix2 r 0)
      = iouC 0 (v57 (ix2 r 0)) (v58 (ix2 r 0)) (v59 (ix2 r 0)) (v60 (ix2 r 0)) (v71 (ix2 r 0)) (v72 (ix2 r 0)) (v73 (ix2 r 0)) (v74 (ix2 r 0)) := by
  show iouC (Ideal.ofBits .f32 0x00000000#32) (v57 (ix2 r 0)) (v58 (ix2 r 0)) (v59 (ix2 r 0)) (v60 (ix2 r 0)) (v71 (ix2 r 0)) (v72 (ix2 r 0)) (v73 (ix2 r 0)) (v74 (ix2 r 0)) = _
  rw [Ideal.ofBits_zero_f32]

/-- The first predicted box's overlap, from its corner columns. -/
private theorem pay57_at (v14 v15 v38 : FVec Ideal S4096x2 .f32) (v39 v40 v41 : FVec Ideal S4096x1 .f32) (r : Fin 4096) :
    k0_pay57 (k0_pay54 v14 v15 v38 v39 v40 v41) (k0_pay55 v14 v15 v38 v39 v40 v41) (k0_pay56 (F := Ideal)) (ix2 r 0)
      = iouC 0 (k0_pay26 v39 v41 (ix2 r 0)) (k0_pay27 v38 v40 (ix2 r 0)) (k0_pay28 v39 v41 (ix2 r 0)) (k0_pay29 v38 v40 (ix2 r 0)) (k0_pay46 v14 v15 (ix2 r 0)) (k0_pay47 v14 v15 (ix2 r 0)) (k0_pay48 v14 v15 (ix2 r 0)) (k0_pay49 v14 v15 (ix2 r 0)) := by
  show iouC (Ideal.ofBits .f32 0x00000000#32) (k0_pay26 v39 v41 (ix2 r 0)) (k0_pay27 v38 v40 (ix2 r 0)) (k0_pay28 v39 v41 (ix2 r 0)) (k0_pay29 v38 v40 (ix2 r 0)) (k0_pay46 v14 v15 (ix2 r 0)) (k0_pay47 v14 v15 (ix2 r 0)) (k0_pay48 v14 v15 (ix2 r 0)) (k0_pay49 v14 v15 (ix2 r 0)) = _
  rw [Ideal.ofBits_zero_f32]

/-! ### The two overlaps and the masks, at a row of the block -/

section row
variable (x0 x1 : Vec Ideal S1x4096x11 .f32) (r : Fin 4096)

private theorem iou0_at :
    k0_pay57 (k0_pay54 (k0_pay12 x1) (k0_pay13 x1) (k0_pay21 x0) (k0_pay22 x0) (k0_pay23 x0) (k0_pay24 x0))
        (k0_pay55 (k0_pay12 x1) (k0_pay13 x1) (k0_pay21 x0) (k0_pay22 x0) (k0_pay23 x0) (k0_pay24 x0)) (k0_pay56 (F := Ideal)) (ix2 r 0)
      = iouBox (blockRow x0 r) (blockRow x1 r) 0 := by
  rw [pay57_at, lo0x_at, lo0y_at, hi0x_at, hi0y_at, pay46_at, pay47_at, pay48_at, pay49_at,
    pay12_at0, pay12_at1, pay13_at0, pay13_at1]
  rfl

private theorem iou1_at :
    k0_pay58 (k0_pay36 (k0_pay8 x0) (k0_pay9 x0)) (k0_pay37 (k0_pay8 x0) (k0_pay9 x0)) (k0_pay38 (k0_pay8 x0) (k0_pay9 x0))
        (k0_pay39 (k0_pay8 x0) (k0_pay9 x0)) (k0_pay46 (k0_pay12 x1) (k0_pay13 x1)) (k0_pay47 (k0_pay12 x1) (k0_pay13 x1))
        (k0_pay48 (k0_pay12 x1) (k0_pay13 x1)) (k0_pay49 (k0_pay12 x1) (k0_pay13 x1)) (ix2 r 0)
      = iouBox (blockRow x0 r) (blockRow x1 r) 1 := by
  rw [pay58_at, pay36_at, pay37_at, pay38_at, pay39_at, pay46_at, pay47_at, pay48_at, pay49_at,
    pay8_at0, pay8_at1, pay9_at0, pay9_at1, pay12_at0, pay12_at1, pay13_at0, pay13_at1]
  rfl

private theorem hasObj_at : k0_pay18 x1 (ix2 r 0) = hasObj (blockRow x1 r) := by
  show Ideal.cmp .ogt (k0_pay14 x1 (ix2 r 0)) (Ideal.ofBits .f32 0x00000000#32) = _
  rw [pay14_at, Ideal.ofBits_zero_f32]
  rfl

end row

/-! ### The sums: down a column of the block, and along a row of two -/

/-- The sum of a column over the block's rows, as the body takes it. -/
private def colSum (v : FVec Ideal S4096x1 .f32) : EReal :=
  shapeCast S1x1 (multiReduction .add [0] S1 v 0x00000000#32 reduces_S4096x1_S1 (.inl rfl) rfl) shapeCasts_S1_S1x1 (ix2 0 0)

/-- The squared distance of two two-wide slices, row by row, as the body takes it. -/
private def rowSq (a b : FVec Ideal S4096x2 .f32) : FVec Ideal S4096x1 .f32 :=
  shapeCast S4096x1 (multiReduction .add [1] S4096 (mulf (subf a b) (subf a b)) 0x00000000#32 reduces_S4096x2_S4096 (.inl rfl) rfl)
    shapeCasts_S4096_S4096x1

/-- The zero column. -/
private def zcol : FVec Ideal S4096x1 .f32 := broadcast S4096x1 (Scalar.ofBits (F := Ideal) .f32 0x00000000#32)

/-- The target's second confidence column (the body slices it where it is used). -/
private def col9 (x : Vec Ideal S1x4096x11 .f32) : FVec Ideal S4096x1 .f32 :=
  extractStridedSlice S4096x1 ![0, 9] (k0_pay4 x) slices_S4096x11_o0_9_S4096x1

private theorem colSum_eq (v : FVec Ideal S4096x1 .f32) : colSum v = ∑ r : Fin 4096, v (ix2 r 0) :=
  colSum_at v _ _ _ _

private theorem rowSq_at (a b : FVec Ideal S4096x2 .f32) (r : Fin 4096) :
    rowSq a b (ix2 r 0) = sqd (a (ix2 r 0)) (b (ix2 r 0)) + sqd (a (ix2 r 1)) (b (ix2 r 1)) :=
  rowSum_at _ _ _ _ _ r

private theorem zcol_at (r : Fin 4096) : zcol (ix2 r 0) = 0 := Ideal.ofBits_zero_f32

private theorem col9_at (x : Vec Ideal S1x4096x11 .f32) (r : Fin 4096) : col9 x (ix2 r 0) = x (ix3 0 r 9) := by
  unfold col9
  exact (slice2_axis1_apply (m := 1) 9 (k0_pay4 x) _ r 0 9 rfl).trans (pay4_at x r 9)

/-! ### The body's five sums, read as column sums -/

private theorem pay19_eq (x0 x1 : Vec Ideal S1x4096x11 .f32) :
    k0_pay19 x0 x1 (ix2 0 0)
      = colSum (select (xori (k0_pay18 x1) (constantI S4096x1 1 1#1))
          (addf (mulf (subf (k0_pay7 x0) (k0_pay14 x1)) (subf (k0_pay7 x0) (k0_pay14 x1)))
            (mulf (subf (k0_pay10 x0) (col9 x1)) (subf (k0_pay10 x0) (col9 x1)))) zcol) := rfl

private theorem pay62_eq (v9 v12 : FVec Ideal S4096x1 .f32) (v22 : IVec S4096x1 1) (v57 v58 v59 v60 v71 v72 v73 v74 : FVec Ideal S4096x1 .f32) (v81 : IVec S4096x1 1) (v93 v94 : FVec Ideal S4096x1 .f32) :
    k0_pay62 v9 v12 v22 v57 v58 v59 v60 v71 v72 v73 v74 v81 v93 v94 (ix2 0 0)
      = colSum (select (k0_pay60 v22 v57 v58 v59 v60 v71 v72 v73 v74 v81 v93 v94)
            (mulf (subf v9 (maximumf (k0_pay57 v81 v93 v94) (k0_pay58 v57 v58 v59 v60 v71 v72 v73 v74))) (subf v9 (maximumf (k0_pay57 v81 v93 v94) (k0_pay58 v57 v58 v59 v60 v71 v72 v73 v74)))) zcol)
        + colSum (select (k0_pay61 v22 v57 v58 v59 v60 v71 v72 v73 v74 v81 v93 v94)
            (mulf (subf v12 (maximumf (k0_pay57 v81 v93 v94) (k0_pay58 v57 v58 v59 v60 v71 v72 v73 v74))) (subf v12 (maximumf (k0_pay57 v81 v93 v94) (k0_pay58 v57 v58 v59 v60 v71 v72 v73 v74)))) zcol) := rfl

private theorem pay63_eq (v9 : FVec Ideal S4096x1 .f32) (v22 : IVec S4096x1 1) (v57 v58 v59 v60 v71 v72 v73 v74 : FVec Ideal S4096x1 .f32) (v81 : IVec S4096x1 1) (v93 v94 : FVec Ideal S4096x1 .f32) :
    k0_pay63 v9 v22 v57 v58 v59 v60 v71 v72 v73 v74 v81 v93 v94 (ix2 0 0) = colSum (select (k0_pay61 v22 v57 v58 v59 v60 v71 v72 v73 v74 v81 v93 v94) (mulf v9 v9) zcol) := rfl

private theorem pay64_eq (v12 : FVec Ideal S4096x1 .f32) (v22 : IVec S4096x1 1) (v57 v58 v59 v60 v71 v72 v73 v74 : FVec Ideal S4096x1 .f32) (v81 : IVec S4096x1 1) (v93 v94 : FVec Ideal S4096x1 .f32) :
    k0_pay64 v12 v22 v57 v58 v59 v60 v71 v72 v73 v74 v81 v93 v94 (ix2 0 0) = colSum (select (k0_pay60 v22 v57 v58 v59 v60 v71 v72 v73 v74 v81 v93 v94) (mulf v12 v12) zcol) := rfl

private theorem pay65_eq (v7 v8 v10 v11 : FVec Ideal S4096x2 .f32) (v13 : FVec Ideal S4096x1 .f32)
    (v14 v15 v17 v18 : FVec Ideal S4096x2 .f32) (v20 : FVec Ideal S4096x1 .f32) (v32 : FVec Ideal S1x1 .f32)
    (v119 v121 : IVec S4096x1 1) (v134 v139 v144 : FVec Ideal S1x1 .f32) :
    k0_pay65 v7 v8 v10 v11 v13 v14 v15 v17 v18 v20 v32 v119 v121 v134 v139 v144 (ix2 0 0)
      = k5 * (colSum (select v119 (addf (rowSq v7 v14) (rowSq (sqrt v8) (sqrt v15))) zcol)
            + colSum (select v121 (addf (rowSq v10 v17) (rowSq (sqrt v11) (sqrt v18))) zcol))
          + v134 (ix2 0 0) + khalf * (v139 (ix2 0 0) + v144 (ix2 0 0)) + khalf * v32 (ix2 0 0)
          + colSum (mulf (subf v13 v20) (subf v13 v20)) := rfl

/-! ### The masks and the larger overlap, at a row -/

section masks
variable (v22 : IVec S4096x1 1) (v57 v58 v59 v60 v71 v72 v73 v74 : FVec Ideal S4096x1 .f32) (v81 : IVec S4096x1 1) (v93 v94 : FVec Ideal S4096x1 .f32) (r : Fin 4096) (p t : Fin 11 → EReal)
  (h22 : v22 (ix2 r 0) = hasObj t) (h0 : k0_pay57 v81 v93 v94 (ix2 r 0) = iouBox p t 0) (h1 : k0_pay58 v57 v58 v59 v60 v71 v72 v73 v74 (ix2 r 0) = iouBox p t 1)
include h0 h1

private theorem best_at : maximumf (k0_pay57 v81 v93 v94) (k0_pay58 v57 v58 v59 v60 v71 v72 v73 v74) (ix2 r 0) = bestIou p t := by
  show max (k0_pay57 v81 v93 v94 (ix2 r 0)) (k0_pay58 v57 v58 v59 v60 v71 v72 v73 v74 (ix2 r 0)) = _
  rw [h0, h1]; rfl

include h22

private theorem resp0_at : k0_pay60 v22 v57 v58 v59 v60 v71 v72 v73 v74 v81 v93 v94 (ix2 r 0) = resp p t 0 := by
  show v22 (ix2 r 0) &&& Ideal.cmp .ogt (k0_pay57 v81 v93 v94 (ix2 r 0)) (k0_pay58 v57 v58 v59 v60 v71 v72 v73 v74 (ix2 r 0)) = _
  rw [h22, h0, h1]; rfl

private theorem resp1_at : k0_pay61 v22 v57 v58 v59 v60 v71 v72 v73 v74 v81 v93 v94 (ix2 r 0) = resp p t 1 := by
  show v22 (ix2 r 0) &&& (Ideal.cmp .ogt (k0_pay57 v81 v93 v94 (ix2 r 0)) (k0_pay58 v57 v58 v59 v60 v71 v72 v73 v74 (ix2 r 0)) ^^^ 1#1) = _
  rw [h22, h0, h1]; rfl

end masks

/-! ### Each of the body's sums is the sum of the corresponding part of the loss over the rows -/

section sums
variable (p t : Fin 4096 → Fin 11 → EReal)

private theorem locSum_eq (k : Fin 2) (m : IVec S4096x1 1) (a b c d : FVec Ideal S4096x2 .f32)
    (hm : ∀ r, m (ix2 r 0) = resp (p r) (t r) k)
    (ha0 : ∀ r, a (ix2 r 0) = p r (bx k 0)) (ha1 : ∀ r, a (ix2 r 1) = p r (bx k 1))
    (hb0 : ∀ r, b (ix2 r 0) = t r (bx k 0)) (hb1 : ∀ r, b (ix2 r 1) = t r (bx k 1))
    (hc0 : ∀ r, c (ix2 r 0) = p r (bx k 2)) (hc1 : ∀ r, c (ix2 r 1) = p r (bx k 3))
    (hd0 : ∀ r, d (ix2 r 0) = t r (bx k 2)) (hd1 : ∀ r, d (ix2 r 1) = t r (bx k 3)) :
    colSum (select m (addf (rowSq a b) (rowSq (sqrt c) (sqrt d))) zcol) = ∑ r, locTerm (p r) (t r) k := by
  rw [colSum_eq]
  refine Finset.sum_congr rfl fun r _ => ?_
  show Scalar.select (m (ix2 r 0)) (rowSq a b (ix2 r 0) + rowSq (sqrt c) (sqrt d) (ix2 r 0)) (zcol (ix2 r 0)) = _
  rw [hm, rowSq_at, rowSq_at, zcol_at]
  show Scalar.select (resp (p r) (t r) k)
    (sqd (a (ix2 r 0)) (b (ix2 r 0)) + sqd (a (ix2 r 1)) (b (ix2 r 1))
      + (sqd (Ideal.sqrt (c (ix2 r 0))) (Ideal.sqrt (d (ix2 r 0))) + sqd (Ideal.sqrt (c (ix2 r 1))) (Ideal.sqrt (d (ix2 r 1))))) 0 = _
  rw [ha0, ha1, hb0, hb1, hc0, hc1, hd0, hd1]
  rfl

private theorem conSum_eq (k : Fin 2) (m : IVec S4096x1 1) (c best : FVec Ideal S4096x1 .f32)
    (hm : ∀ r, m (ix2 r 0) = resp (p r) (t r) k) (hc : ∀ r, c (ix2 r 0) = p r (bx k 4))
    (hbest : ∀ r, best (ix2 r 0) = bestIou (p r) (t r)) :
    colSum (select m (mulf (subf c best) (subf c best)) zcol) = ∑ r, conTerm (p r) (t r) k := by
  rw [colSum_eq]
  refine Finset.sum_congr rfl fun r _ => ?_
  show Scalar.select (m (ix2 r 0)) (sqd (c (ix2 r 0)) (best (ix2 r 0))) (zcol (ix2 r 0)) = _
  rw [hm, hc, hbest, zcol_at]
  rfl

private theorem othSum_eq (k : Fin 2) (m : IVec S4096x1 1) (c : FVec Ideal S4096x1 .f32)
    (hm : ∀ r, m (ix2 r 0) = other (p r) (t r) k) (hc : ∀ r, c (ix2 r 0) = p r (bx k 4)) :
    colSum (select m (mulf c c) zcol) = ∑ r, othTerm (p r) (t r) k := by
  rw [colSum_eq]
  refine Finset.sum_congr rfl fun r _ => ?_
  show Scalar.select (m (ix2 r 0)) (c (ix2 r 0) * c (ix2 r 0)) (zcol (ix2 r 0)) = _
  rw [hm, hc, zcol_at]
  rfl

private theorem nooSum_eq (m : IVec S4096x1 1) (a b c d : FVec Ideal S4096x1 .f32)
    (hm : ∀ r, m (ix2 r 0) = hasObj (t r)) (ha : ∀ r, a (ix2 r 0) = p r 4) (hb : ∀ r, b (ix2 r 0) = t r 4)
    (hc : ∀ r, c (ix2 r 0) = p r 9) (hd : ∀ r, d (ix2 r 0) = t r 9) :
    colSum (select (xori m (constantI S4096x1 1 1#1)) (addf (mulf (subf a b) (subf a b)) (mulf (subf c d) (subf c d))) zcol)
      = ∑ r, nooTerm (p r) (t r) := by
  rw [colSum_eq]
  refine Finset.sum_congr rfl fun r _ => ?_
  show Scalar.select (m (ix2 r 0) ^^^ 1#1) (sqd (a (ix2 r 0)) (b (ix2 r 0)) + sqd (c (ix2 r 0)) (d (ix2 r 0))) (zcol (ix2 r 0)) = _
  rw [hm, ha, hb, hc, hd, zcol_at]
  rfl

private theorem clsSum_eq (a b : FVec Ideal S4096x1 .f32)
    (ha : ∀ r, a (ix2 r 0) = p r 10) (hb : ∀ r, b (ix2 r 0) = t r 10) :
    colSum (mulf (subf a b) (subf a b)) = ∑ r, clsTerm (p r) (t r) := by
  rw [colSum_eq]
  refine Finset.sum_congr rfl fun r _ => ?_
  show sqd (a (ix2 r 0)) (b (ix2 r 0)) = _
  rw [ha, hb]
  rfl

end sums

/-- At the extended reals the body's number is the weighted total of the five parts over the block's rows. -/
theorem blockVal_eq (x0 x1 : Vec Ideal S1x4096x11 .f32) :
    blockVal (F := Ideal) x0 x1 (ix2 0 0) = total (blockRow x0) (blockRow x1) := by
  have hobj : ∀ r : Fin 4096, k0_pay18 x1 (ix2 r 0) = hasObj (blockRow x1 r) := hasObj_at x1
  have hi0 := iou0_at x0 x1
  have hi1 := iou1_at x0 x1
  have hr0 := fun r : Fin 4096 => resp0_at _ _ _ _ _ _ _ _ _ _ _ _ r _ _ (hobj r) (hi0 r) (hi1 r)
  have hr1 := fun r : Fin 4096 => resp1_at _ _ _ _ _ _ _ _ _ _ _ _ r _ _ (hobj r) (hi0 r) (hi1 r)
  have hbest := fun r : Fin 4096 => best_at _ _ _ _ _ _ _ _ _ _ _ r _ _ (hi0 r) (hi1 r)
  unfold blockVal
  rw [pay65_eq, pay62_eq, pay63_eq, pay64_eq, pay19_eq]
  rw [locSum_eq (blockRow x0) (blockRow x1) 0 _ _ _ _ _ hr0 (pay5_at0 x0) (pay5_at1 x0) (pay12_at0 x1) (pay12_at1 x1)
      (pay6_at0 x0) (pay6_at1 x0) (pay13_at0 x1) (pay13_at1 x1),
    locSum_eq (blockRow x0) (blockRow x1) 1 _ _ _ _ _ hr1 (pay8_at0 x0) (pay8_at1 x0) (pay15_at0 x1) (pay15_at1 x1)
      (pay9_at0 x0) (pay9_at1 x0) (pay16_at0 x1) (pay16_at1 x1),
    conSum_eq (blockRow x0) (blockRow x1) 0 _ _ _ hr0 (pay7_at x0) hbest,
    conSum_eq (blockRow x0) (blockRow x1) 1 _ _ _ hr1 (pay10_at x0) hbest,
    othSum_eq (blockRow x0) (blockRow x1) 0 _ _ hr1 (pay7_at x0),
    othSum_eq (blockRow x0) (blockRow x1) 1 _ _ hr0 (pay10_at x0),
    nooSum_eq (blockRow x0) (blockRow x1) _ _ _ _ _ hobj (pay7_at x0) (pay14_at x1) (pay10_at x0) (col9_at x1),
    clsSum_eq (blockRow x0) (blockRow x1) _ _ (pay11_at x0) (pay17_at x1)]
  rfl

end Cert.KernelIdeal.Block

end
-- ==== Proof.KernelValue.lean ====
/-
  The kernel's result array, as a value.

  The grid has two rows of 196 points. At each point the body adds the block's weighted total to the one number
  its output window holds, the first point of a row resetting that number to zero first; the window is written
  back after a row's last point. So entry `g` of the result array ends holding the sum of row `g`'s 196 block
  totals: by induction along a row for the running number, then the two write-backs cover the array.
-/
import proofs.«100800_j66340064854039_1_alg».proof.Proof.KernelBlock
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Block Cert.Yolo

variable {F : FTy → Type} [FloatOps F]

theorem hz3 : (![0, 0, 0] : Fin 3 → Nat) = fun _ => 0 := funext fun a => by fin_cases a <;> rfl

/-- A point that is not the first of its row of the grid: the body leaves, in the output's buffer holding `xo`,
    `xo` plus the block's number. -/
theorem out_B (c : Dev nD) (i : grid0.Coords) (a2 : Memref sig .tc .vmem S1x4096x11 .f32) (h2 : a2.IsWhole)
    (a3 : Memref sig .tc .vmem S1x4096x11 .f32) (h3 : a3.IsWhole) (a4 : Memref sig .tc .vmem S1x1x1 .f32) (h4 : a4.IsWhole)
    (hc : ¬cond0_0 i) (x0 x1 : Vec F S1x4096x11 .f32) (xo : Vec F S1x1x1 .f32) :
    out0_B_2 c i a2 h2 a3 h3 a4 h4 hc x0 x1 xo = k0_pay1 (blockVal x0 x1) xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S1x4096x11) hz3, View.ld_unit_zero (S := S1x1x1) hz3]
  rfl

/-- The first point of a row of the grid: the body stores zero, reads it back, and leaves zero plus the block's number. -/
theorem out_A (c : Dev nD) (i : grid0.Coords) (a2 : Memref sig .tc .vmem S1x4096x11 .f32) (h2 : a2.IsWhole)
    (a3 : Memref sig .tc .vmem S1x4096x11 .f32) (h3 : a3.IsWhole) (a4 : Memref sig .tc .vmem S1x1x1 .f32) (h4 : a4.IsWhole)
    (hc : cond0_0 i) (x0 x1 : Vec F S1x4096x11 .f32) :
    out0_A_2 c i a2 h2 a3 h3 a4 h4 hc x0 x1 = k0_pay1 (blockVal x0 x1) (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, View.ld_unit_zero (S := S1x4096x11) hz3, View.ld_unit_zero (S := S1x1x1) hz3]
  rfl

/-! ## The running total, at the extended reals -/

section ideal
variable (m : (ℓ : Loc nD τ sig) → Buf (Elt Ideal) ℓ) (ρ : Dev nD → PrngReg)

/-- The store's value at its one position: what the buffer held plus the block's number. -/
theorem pay1_apply (v190 : FVec Ideal S1x1 .f32) (v191 : Vec Ideal S1x1x1 .f32) :
    k0_pay1 v190 v191 (ix3 0 0 0) = v191 (ix3 0 0 0) + v190 (ix2 0 0) := by
  unfold k0_pay1
  refine (shapeCast_apply _ shapeCasts_S1x1_S1x1x1 (ix3 0 0 0) (ix2 0 0) (by decide)).trans ?_
  show shapeCast S1x1 v191 shapeCasts_S1x1x1_S1x1 (ix2 0 0) + v190 (ix2 0 0) = _
  rw [shapeCast_apply v191 shapeCasts_S1x1x1_S1x1 (ix2 0 0) (ix3 0 0 0) (by decide)]

/-- The reset stores zero. -/
theorem pay2_apply : k0_pay2 (F := Ideal) (ix3 0 0 0) = 0 := by
  unfold k0_pay2
  refine (shapeCast_apply _ shapeCasts_S1x1_S1x1x1 (ix3 0 0 0) (ix2 0 0) (by decide)).trans ?_
  show Ideal.ofBits .f32 0x00000000#32 = 0
  exact Ideal.ofBits_zero_f32

/-- The two input blocks at grid point `t`, at their literal type. -/
abbrev pblk (c : Dev nD) (t : Fin cfg0.N) : Vec Ideal S1x4096x11 .f32 := iblk m c 0 t
abbrev tblk (c : Dev nD) (t : Fin cfg0.N) : Vec Ideal S1x4096x11 .f32 := iblk m c 1 t

/-- The weighted total of the block at grid point `n` (zero past the grid). -/
def blockTotal (c : Dev nD) (n : ℕ) : EReal :=
  if h : n < cfg0.N then total (blockRow (pblk m c ⟨n, h⟩)) (blockRow (tblk m c ⟨n, h⟩)) else 0

theorem blockTotal_of_lt (c : Dev nD) (n : ℕ) (h : n < cfg0.N) :
    blockTotal m c n = total (blockRow (pblk m c ⟨n, h⟩)) (blockRow (tblk m c ⟨n, h⟩)) := dif_pos h

/-- What the output's buffer holds after point `196·g + i` of row `g` of the grid: the blocks' totals of the row up
    to that point, added up — by induction along the row, the first point resetting the buffer. -/
theorem acc_eq (c : Dev nD) (g : ℕ) : ∀ (i : ℕ) (h : 196 * g + i < cfg0.N), i < 196 →
    outsAt0 m c (196 * g + i) h (ix3 0 0 0) = ∑ j ∈ Finset.range (i + 1), blockTotal m c (196 * g + j)
  | 0, h, _ => by
    have h0 : (⟨196 * g + 0, h⟩ : Fin cfg0.N).val % 196 = 0 := by show (196 * g + 0) % 196 = 0; omega
    have e := outsAt0_A m c ⟨196 * g + 0, h⟩ h0
    rw [show outsAt0 m c (196 * g + 0) h = _ from e, out_A, pay1_apply, pay2_apply, zero_add, blockVal_eq,
      Finset.sum_range_one, blockTotal_of_lt m c _ h]
  | i + 1, h, hi => by
    have h0 : ¬(⟨196 * g + (i + 1), h⟩ : Fin cfg0.N).val % 196 = 0 := by show ¬(196 * g + (i + 1)) % 196 = 0; omega
    have e := outsAt0_B m c ⟨196 * g + (i + 1), h⟩ h0
    rw [show outsAt0 m c (196 * g + (i + 1)) h = _ from e, out_B, pay1_apply, blockVal_eq,
      Finset.sum_range_succ _ (i + 1), blockTotal_of_lt m c _ h]
    congr 1
    exact acc_eq c g i (by omega) (by omega)

/-- The same, for a point given by its position `i` in row `g` of the grid. -/
theorem acc_at (c : Dev nD) (n : ℕ) (h : n < cfg0.N) (g i : ℕ) (e : n = 196 * g + i) (hi : i < 196) :
    outsAt0 m c n h (ix3 0 0 0) = ∑ j ∈ Finset.range (i + 1), blockTotal m c (196 * g + j) := by
  subst e; exact acc_eq m c g i h hi

/-- What row `g` of the grid adds up: its 196 blocks' totals. -/
def rowTotal (c : Dev nD) (g : ℕ) : EReal := ∑ j ∈ Finset.range 196, blockTotal m c (196 * g + j)

/-- The kernel's result array: its entry `g` holds row `g`'s total. -/
def outArr (c : Dev nD) : Buf (Elt Ideal) ((c : Thread nD τ).loc main_v2) := fun y => rowTotal m c (y 0).val

/-- The output window's block index follows the row of the grid. -/
theorem out_index : ∀ t : Fin cfg0.N, win0_2.index t 0 = t.val / 196 ∧ win0_2.index t 1 = 0 ∧ win0_2.index t 2 = 0 :=
  (by decide +kernel : ∀ t : Fin grid0.N, win0_2.index t 0 = t.val / 196 ∧ win0_2.index t 1 = 0 ∧ win0_2.index t 2 = 0)

/-- A block of one entry has one position. -/
theorem idx111 (z : S1x1x1.Idx) : z = ix3 0 0 0 := funext fun a => match a with
  | ⟨0, _⟩ => Fin.ext (by have h : (z 0).val < 1 := (z 0).isLt; show (z 0).val = 0; omega)
  | ⟨1, _⟩ => Fin.ext (by have h : (z 1).val < 1 := (z 1).isLt; show (z 1).val = 0; omega)
  | ⟨2, _⟩ => Fin.ext (by have h : (z 2).val < 1 := (z 2).isLt; show (z 2).val = 0; omega)

/-- The write-back after a row's last point writes that row's total into the row's entry. -/
theorem flushed_eq (c : Dev nD) (t : Fin cfg0.N) (hf : (cfg0.win 2).flush t = true) :
    (dats m 0 c).flushed 2 t = ((cfg0.win 2).blk t).view.read (Elt Ideal) (outArr m c) := by
  have h195 : t.val % 196 = 195 := (flush0_2 t).mp hf
  have hN : t.val < 392 := lt_of_lt_of_eq t.isLt (show cfg0.N = 392 from N_0)
  show (cfg0.win 2).cut (grid0.coords t) ((dats m 0 c).after 2 t) = _
  rw [after0_2]
  funext y
  rw [View.read_apply]
  show outsAt0 m c t.val t.isLt ((cfg0.win 2).xinj (grid0.coords t) y) = outArr m c (((cfg0.win 2).blk t).view.emb y)
  rw [idx111 ((cfg0.win 2).xinj (grid0.coords t) y), acc_at m c t.val t.isLt (t.val / 196) 195 (by omega) (by omega)]
  unfold outArr rowTotal
  have hy : (y 0).val < 1 := (y 0).isLt
  have e0 : ((((cfg0.win 2).blk t).view.emb y) 0).val = t.val / 196 := by
    show win0_2.index t 0 * 1 + 1 * (y 0).val = _
    rw [(out_index t).1]; omega
  rw [e0]

theorem out_xsize : ∀ t : Fin cfg0.N, win0_2.xsize (grid0.coords t) 0 = 1 ∧ win0_2.xsize (grid0.coords t) 1 = 1 ∧ win0_2.xsize (grid0.coords t) 2 = 1 :=
  (by decide +kernel : ∀ t : Fin grid0.N, win0_2.xsize (grid0.coords t) 0 = 1 ∧ win0_2.xsize (grid0.coords t) 1 = 1 ∧ win0_2.xsize (grid0.coords t) 2 = 1)

/-- So the result array ends holding the two rows' totals: entry `g` is written after point `196·g + 195`. -/
theorem final_out (c : Dev nD) : (dats m 0 c).arrAt 2 cfg0.N = outArr m c :=
  (dats m 0 c).arrAt_eq_of_cover 2 (outArr m c) (flushed_eq m c) fun i => by
    have h0 : (i 0 : Nat) < 2 := (i 0).isLt
    have h1 : (i 1 : Nat) < 1 := (i 1).isLt
    have h2 : (i 2 : Nat) < 1 := (i 2).isLt
    obtain ⟨t, ht⟩ : ∃ t : Fin cfg0.N, t.val = 196 * (i 0 : Nat) + 195 :=
      ⟨⟨196 * (i 0 : Nat) + 195, by rw [show cfg0.N = 392 from N_0]; omega⟩, rfl⟩
    refine ⟨t, (flush0_2 t).mpr (by omega), ?_⟩
    show i ∈ ((View.whole main_v2).slice (win0_2.rect t)).set
    rw [View.set_slice_whole, Rect.mem_set_unit]
    intro a
    match a with
    | ⟨0, _⟩ =>
      show win0_2.index t 0 * win0_2.size 0 ≤ (i 0 : Nat) ∧ (i 0 : Nat) < win0_2.index t 0 * win0_2.size 0 + win0_2.xsize (grid0.coords t) 0
      rw [(out_index t).1, (out_xsize t).1, show win0_2.size 0 = 1 from rfl]; omega
    | ⟨1, _⟩ =>
      show win0_2.index t 1 * win0_2.size 1 ≤ (i 1 : Nat) ∧ (i 1 : Nat) < win0_2.index t 1 * win0_2.size 1 + win0_2.xsize (grid0.coords t) 1
      rw [(out_index t).2.1, (out_xsize t).2.1, show win0_2.size 1 = 1 from rfl]; omega
    | ⟨2, _⟩ =>
      show win0_2.index t 2 * win0_2.size 2 ≤ (i 2 : Nat) ∧ (i 2 : Nat) < win0_2.index t 2 * win0_2.size 2 + win0_2.xsize (grid0.coords t) 2
      rw [(out_index t).2.2, (out_xsize t).2.2, show win0_2.size 2 = 1 from rfl]; omega

end ideal

end Cert.KernelIdeal.Hand
end
-- ==== Proof.Consts.lean ====
/-
  The float constants whose VALUE the proof needs, as the extended reals their words denote: the weights 5 and ½
  (only that they are finite and not negative: that is what lets them distribute over a sum), and the word of
  minus infinity from which the reference takes a maximum. Every other constant of the two programs is the same
  word on both sides and is never evaluated.
-/
import Idealize.ShloMosaic.PureOps.Ideal

noncomputable section

namespace Cert.Yolo.Consts

open Idealize.ShloMosaic

/-- The word `5.0` denotes the real 5. -/
theorem ofBits_five : Ideal.ofBits .f32 0x40A00000#32 = ((5 : ℝ) : EReal) := by
  simp [Ideal.ofBits, Ideal.ieee, -EReal.coe_mul]; norm_num

/-- The word `0.5` denotes the real ½. -/
theorem ofBits_half : Ideal.ofBits .f32 0x3F000000#32 = ((1 / 2 : ℝ) : EReal) := by
  simp [Ideal.ofBits, Ideal.ieee, -EReal.coe_mul]; norm_num

/-- The word of minus infinity denotes the bottom of the extended reals. -/
theorem ofBits_negInf : Ideal.ofBits .f32 0xFF800000#32 = (⊥ : EReal) := by
  simp [Ideal.ofBits, Ideal.ieee]

end Cert.Yolo.Consts

end
-- ==== Proof.LibBlockSum.lean ====
/- Sums over consecutive blocks, and a running sum as a finite sum.

   A sum over B blocks of R consecutive positions each is the sum over all B · R positions; a sequence that starts at
   `0 + c 0` and adds `c (n + 1)` at each step is, after step n, the sum of `c` over the first n + 1 steps. Both hold in
   any commutative additive monoid (the extended reals are one: regrouping a sum needs no finiteness). -/
import Mathlib.Algebra.BigOperators.Group.Finset.Basic
import Mathlib.Algebra.BigOperators.Fin
import Mathlib.Data.Fintype.BigOperators

namespace Cert.BlockSum

open scoped BigOperators

/-- Position `r` of block `t`, among all `N = B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- The sum over the blocks of the sums over a block's positions is the sum over all positions. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

/-- The block that holds position `n`, and `n`'s place in it. -/
theorem pos_div_mod {B R N : Nat} (hN : B * R = N) (hR : 0 < R) (n : Fin N) :
    ∃ (t : Fin B) (r : Fin R), n = pos hN t r ∧ t.val = n.val / R ∧ r.val = n.val % R := by
  have hn : n.val / R < B := by
    rw [Nat.div_lt_iff_lt_mul hR, hN]
    exact n.isLt
  refine ⟨⟨n.val / R, hn⟩, ⟨n.val % R, Nat.mod_lt _ hR⟩, ?_, rfl, rfl⟩
  apply Fin.ext
  show n.val = R * (n.val / R) + n.val % R
  exact (Nat.div_add_mod n.val R).symm

/-- A running sum from `0 + c 0`, adding `c (n + 1)` at step n + 1, is the sum over the first n + 1 steps. -/
theorem running_sum {M : Type*} [AddCommMonoid M] (c acc : ℕ → M) (h0 : acc 0 = 0 + c 0)
    (hs : ∀ n, acc (n + 1) = acc n + c (n + 1)) (n : ℕ) : acc n = ∑ t ∈ Finset.range (n + 1), c t := by
  induction n with
  | zero =>
    show acc 0 = ∑ t ∈ Finset.range 1, c t
    rw [h0, zero_add, Finset.sum_range_one]
  | succ n ih => rw [hs, ih, Finset.sum_range_succ c (n + 1)]

/-- The same sum over `Fin`: the first B steps as a sum over `Fin B`. -/
theorem sum_range_eq_sum_fin {M : Type*} [AddCommMonoid M] (B : ℕ) (c : ℕ → M) :
    ∑ t ∈ Finset.range B, c t = ∑ t : Fin B, c t.val :=
  Finset.sum_range c

end Cert.BlockSum
-- ==== Proof.Algebra.lean ====
/-
  The algebra between the two programs, over the extended reals.

  The kernel adds up, block by block, the weighted total `5·L + C + ½·N + ½·O + K` of each block's five partial
  sums; the reference weights the five sums over ALL cells once. The two agree because the weights are finite and
  not negative, so each distributes over a sum of any extended reals (infinite ones included), and because a sum
  may be regrouped and re-indexed freely. Nothing here looks inside the five parts.
-/
import proofs.«100800_j66340064854039_1_alg».proof.Proof.Spec
import proofs.«100800_j66340064854039_1_alg».proof.Proof.Consts
import proofs.«100800_j66340064854039_1_alg».proof.Proof.LibBlockSum
import Mathlib.Data.EReal.Operations
import Mathlib.Algebra.BigOperators.Fin
import Mathlib.Data.Fintype.BigOperators

noncomputable section

namespace Cert.Yolo

open Idealize.ShloMosaic
open scoped BigOperators

/-- A finite weight that is not negative distributes over a finite sum of extended reals. -/
theorem mul_sum_of_nonneg {ι : Type*} (c : EReal) (h0 : 0 ≤ c) (ht : c ≠ ⊤) (s : Finset ι) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

theorem k5_nonneg : (0 : EReal) ≤ k5 := by
  show (0 : EReal) ≤ Ideal.ofBits .f32 0x40A00000#32
  rw [Consts.ofBits_five]; exact_mod_cast (by norm_num : (0 : ℝ) ≤ 5)
theorem k5_ne_top : k5 ≠ ⊤ := by
  show Ideal.ofBits .f32 0x40A00000#32 ≠ ⊤
  rw [Consts.ofBits_five]; exact EReal.coe_ne_top _
theorem khalf_nonneg : (0 : EReal) ≤ khalf := by
  show (0 : EReal) ≤ Ideal.ofBits .f32 0x3F000000#32
  rw [Consts.ofBits_half]; exact_mod_cast (by norm_num : (0 : ℝ) ≤ 1 / 2)
theorem khalf_ne_top : khalf ≠ ⊤ := by
  show Ideal.ofBits .f32 0x3F000000#32 ≠ ⊤
  rw [Consts.ofBits_half]; exact EReal.coe_ne_top _

/-- The blocks' weighted totals add up to the weighted total over all the blocks' rows. -/
theorem sum_total {ι R : Type} [Fintype ι] [Fintype R] (P T : ι → R → Fin 11 → EReal) :
    ∑ t : ι, total (P t) (T t) = total (fun x : ι × R => P x.1 x.2) (fun x : ι × R => T x.1 x.2) := by
  unfold total
  simp only [Finset.sum_add_distrib, ← mul_sum_of_nonneg k5 k5_nonneg k5_ne_top,
    ← mul_sum_of_nonneg khalf khalf_nonneg khalf_ne_top, Fintype.sum_prod_type]

/-- The weighted total does not depend on how the cells are indexed. -/
theorem total_equiv {R R' : Type} [Fintype R] [Fintype R'] (e : R' ≃ R) (P T : R → Fin 11 → EReal) :
    total (fun r' => P (e r')) (fun r' => T (e r')) = total P T := by
  unfold total
  simp only [Equiv.sum_comp e (fun r => locTerm (P r) (T r) 0), Equiv.sum_comp e (fun r => locTerm (P r) (T r) 1),
    Equiv.sum_comp e (fun r => conTerm (P r) (T r) 0), Equiv.sum_comp e (fun r => conTerm (P r) (T r) 1),
    Equiv.sum_comp e (fun r => othTerm (P r) (T r) 0), Equiv.sum_comp e (fun r => othTerm (P r) (T r) 1),
    Equiv.sum_comp e (fun r => nooTerm (P r) (T r)), Equiv.sum_comp e (fun r => clsTerm (P r) (T r))]

/-- The cells, as positions (image, grid row, grid column), and the cells' rows of an argument array. -/
abbrev Cell : Type := (⟨3, ![32768, 7, 7]⟩ : Shape).Idx
def cells (x : Arr) : Cell → Fin 11 → EReal := fun j => cellRow x (j 0) (j 1) (j 2)

end Cert.Yolo

end
-- ==== Proof.KernelRun.lean ====
/-
  The kernel runs, and its result is a number of the argument arrays.

  After the region the host adds the two entries of the result array from zero and divides by the number of
  images; the result array's entries are the two rows' totals (the module before this one), so the kernel's
  result is `(0 + (row 0 + row 1)) / 32768`, and the argument arrays end as they began.
-/
import proofs.«100800_j66340064854039_1_alg».proof.Proof.KernelValue
import proofs.«100800_j66340064854039_1_alg».proof.Proof.Algebra
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Block Cert.Yolo

variable (m : (ℓ : Loc nD τ sig) → Buf (Elt Ideal) ℓ) (ρ : Dev nD → PrngReg)

/-- The kernel's number: the two rows' totals added from zero, divided by the number of images. -/
def kernelResult (c : Dev nD) : EReal := Ideal.div (0 + ∑ y : S2x1x1.Idx, rowTotal m c (y 0).val) kN

/-- The host operations after the region: the sum of the result array from zero, divided by the number of images. -/
theorem tail_eq (c : Dev nD) :
    Pipeline.afterTail₀ cfgs (dats m) 0 (V0 m) [hostOps1] c main_v4 = fun _ => kernelResult m c := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v2) = outArr m c :=
    (Pipeline.withArrays_arr spec0 launch0.win.arr_inj c _ _ 2).trans (final_out m c)
  rw [hw]
  funext i
  show Ideal.div (Host.reduceAdd (F := Ideal) (outArr m c : (⟨S2x1x1, .f32⟩ : BufTy).Contents (Elt Ideal)) (constant S_ .f32 0x00000000#32) reducesTo_S2x1x1_S_d0_1_2 h_S_ i) (Ideal.ofBits .f32 0x47000000#32) = _
  unfold kernelResult
  congr 1
  have hs : ∀ y0 : (⟨S2x1x1, .f32⟩ : BufTy).Contents (Elt Ideal),
      Host.reduceAdd (F := Ideal) y0 (constant S_ .f32 0x00000000#32) reducesTo_S2x1x1_S_d0_1_2 h_S_ i
        = (constant (F := Ideal) S_ .f32 0x00000000#32) (Shape.Idx.first h_S_) + ∑ j : S2x1x1.Idx, y0 j := by
    intro y0
    simp only [Host.reduceAdd, Ideal.hostReduceAdd_def]
    exact Ideal.hostReduceAdd_total reducesTo_S2x1x1_S_d0_1_2 (fun b => b.elim0) y0 _ i
  rw [hs]
  show Ideal.ofBits .f32 0x00000000#32 + ∑ j : S2x1x1.Idx, rowTotal m c (j 0).val = _
  rw [Ideal.ofBits_zero_f32]

/-- The kernel runs, its result holds `kernelResult`, and its arguments are unchanged. -/
theorem run : θ_run defs (onTc (τ := τ) (main (F := Ideal))) ⟨m, fun _ => 0, ρ⟩ fun r => ∀ c : Dev nD,
      r.2.mem ((c.tc : Thread nD τ).loc main_v4) = (fun _ => kernelResult m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand
end
-- ==== Proof.KernelTotal.lean ====
/-
  The kernel's result is the weighted total over ALL cells of the argument arrays.

  The region finds the argument arrays regrouped as two halves of 802816 rows; the block at grid point `t` is rows
  `4096·t … 4096·t + 4095` of all 1605632 rows, and row `J` is the cell (J / 49, J / 7 mod 7, J mod 7). So the 392
  block totals are the weighted totals of consecutive stretches of cells; they add up to the weighted total over all
  cells (the weights distribute over the sums: Proof/Algebra.lean), whatever the order in which the cells are listed.
-/
import proofs.«100800_j66340064854039_1_alg».proof.Proof.KernelValue
import proofs.«100800_j66340064854039_1_alg».proof.Proof.Algebra
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Block Cert.Yolo

variable (m : (ℓ : Loc nD τ sig) → Buf (Elt Ideal) ℓ)

/-- The region finds the predictions and the targets regrouped as two halves of 802816 rows each. -/
theorem V_v0 (c : Dev nD) : (V m c main_v0 : S2x802816x11.Idx → EReal)
    = shapeCast S2x802816x11 (m ((c : Thread nD τ).loc main_arg0)) shapeCasts_S32768x7x7x11_S2x802816x11 := by
  show StableHlo.after hostOps0 (fun b => m (c, b)) (Proc.devRef .tc main_v0) = _
  after_results; rfl
theorem V_v1 (c : Dev nD) : (V m c main_v1 : S2x802816x11.Idx → EReal)
    = shapeCast S2x802816x11 (m ((c : Thread nD τ).loc main_arg1)) shapeCasts_S32768x7x7x11_S2x802816x11 := by
  show StableHlo.after hostOps0 (fun b => m (c, b)) (Proc.devRef .tc main_v1) = _
  after_results; rfl

/-- The input windows' block index at grid point `t`: the row of the grid, the position in it. -/
theorem in_index0 : ∀ t : Fin cfg0.N, win0_0.index t 0 = t.val / 196 ∧ win0_0.index t 1 = t.val % 196 ∧ win0_0.index t 2 = 0 :=
  (by decide +kernel : ∀ t : Fin grid0.N, win0_0.index t 0 = t.val / 196 ∧ win0_0.index t 1 = t.val % 196 ∧ win0_0.index t 2 = 0)
theorem in_index1 : ∀ t : Fin cfg0.N, win0_1.index t 0 = t.val / 196 ∧ win0_1.index t 1 = t.val % 196 ∧ win0_1.index t 2 = 0 :=
  (by decide +kernel : ∀ t : Fin grid0.N, win0_1.index t 0 = t.val / 196 ∧ win0_1.index t 1 = t.val % 196 ∧ win0_1.index t 2 = 0)

/-- Cell number `J` (image, grid row, grid column in row-major order), as a row of an argument array. -/
def rowAt (x : Arr) (J : ℕ) (hJ : J < 1605632) : Fin 11 → EReal :=
  cellRow x ⟨J / 49, by omega⟩ ⟨J / 7 % 7, by omega⟩ ⟨J % 7, by omega⟩

/-- Row `r` of the predictions' block at grid point `t` is cell `4096·t + r` of the predictions. -/
theorem pblk_row (c : Dev nD) (t : Fin cfg0.N) (r : Fin 4096) (hJ : 4096 * t.val + r.val < 1605632) :
    blockRow (pblk m c t) r = rowAt (m ((c : Thread nD τ).loc main_arg0)) (4096 * t.val + r.val) hJ := by
  have hN : t.val < 392 := lt_of_lt_of_eq t.isLt (show cfg0.N = 392 from N_0)
  have hr : r.val < 4096 := r.isLt
  funext ch
  have hch : ch.val < 11 := ch.isLt
  unfold blockRow pblk iblk rowAt cellRow
  rw [View.read_apply]
  show V m c main_v0 (((cfg0.win 0).blk t).view.emb (ix3 0 r ch)) = _
  rw [V_v0]
  refine shapeCast_apply _ shapeCasts_S32768x7x7x11_S2x802816x11 _ _ ?_
  rw [Shape.rowMajor_val_four, Shape.rowMajor_val_three]
  show (((4096 * t.val + r.val) / 49 * 7 + (4096 * t.val + r.val) / 7 % 7) * 7 + (4096 * t.val + r.val) % 7) * 11 + ch.val
    = ((win0_0.index t 0 * 1 + 1 * 0) * 802816 + (win0_0.index t 1 * 4096 + 1 * r.val)) * 11 + (win0_0.index t 2 * 11 + 1 * ch.val)
  rw [(in_index0 t).1, (in_index0 t).2.1, (in_index0 t).2.2]
  omega

/-- The same for the targets. -/
theorem tblk_row (c : Dev nD) (t : Fin cfg0.N) (r : Fin 4096) (hJ : 4096 * t.val + r.val < 1605632) :
    blockRow (tblk m c t) r = rowAt (m ((c : Thread nD τ).loc main_arg1)) (4096 * t.val + r.val) hJ := by
  have hN : t.val < 392 := lt_of_lt_of_eq t.isLt (show cfg0.N = 392 from N_0)
  have hr : r.val < 4096 := r.isLt
  funext ch
  have hch : ch.val < 11 := ch.isLt
  unfold blockRow tblk iblk rowAt cellRow
  rw [View.read_apply]
  show V m c main_v1 (((cfg0.win 1).blk t).view.emb (ix3 0 r ch)) = _
  rw [V_v1]
  refine shapeCast_apply _ shapeCasts_S32768x7x7x11_S2x802816x11 _ _ ?_
  rw [Shape.rowMajor_val_four, Shape.rowMajor_val_three]
  show (((4096 * t.val + r.val) / 49 * 7 + (4096 * t.val + r.val) / 7 % 7) * 7 + (4096 * t.val + r.val) % 7) * 11 + ch.val
    = ((win0_1.index t 0 * 1 + 1 * 0) * 802816 + (win0_1.index t 1 * 4096 + 1 * r.val)) * 11 + (win0_1.index t 2 * 11 + 1 * ch.val)
  rw [(in_index1 t).1, (in_index1 t).2.1, (in_index1 t).2.2]
  omega

/-- The block total at grid point `t`, over the cells `4096·t … 4096·t + 4095` of the argument arrays. -/
theorem blockTotal_fin (c : Dev nD) (t : Fin 392) :
    blockTotal m c t.val
      = total (fun r : Fin 4096 => rowAt (m ((c : Thread nD τ).loc main_arg0)) (4096 * t.val + r.val) (by have := t.isLt; have := r.isLt; omega))
          (fun r : Fin 4096 => rowAt (m ((c : Thread nD τ).loc main_arg1)) (4096 * t.val + r.val) (by have := t.isLt; have := r.isLt; omega)) := by
  have h : t.val < cfg0.N := by rw [show cfg0.N = 392 from N_0]; exact t.isLt
  rw [blockTotal_of_lt m c _ h]
  congr 1
  · funext r; exact pblk_row m c ⟨t.val, h⟩ r _
  · funext r; exact tblk_row m c ⟨t.val, h⟩ r _

/-- The result array's two positions. -/
def e211 : Fin 2 ≃ S2x1x1.Idx where
  toFun g := ix3 g 0 0
  invFun y := y 0
  left_inv g := rfl
  right_inv y := funext fun a => match a with
    | ⟨0, _⟩ => rfl
    | ⟨1, _⟩ => Fin.ext (by have h : (y 1).val < 1 := (y 1).isLt; show 0 = (y 1).val; omega)
    | ⟨2, _⟩ => Fin.ext (by have h : (y 2).val < 1 := (y 2).isLt; show 0 = (y 2).val; omega)

theorem sum_rows (f : ℕ → EReal) : ∑ y : S2x1x1.Idx, f (y 0).val = ∑ g : Fin 2, f g.val :=
  (Equiv.sum_comp e211 (fun y : S2x1x1.Idx => f (y 0).val)).symm

theorem numel_cell : 392 * 4096 = (⟨3, ![32768, 7, 7]⟩ : Shape).numel := by decide

/-- Cell number `4096·t + r`, as a position. -/
def eCell : Fin 392 × Fin 4096 ≃ Cell :=
  finProdFinEquiv.trans ((finCongr numel_cell).trans (⟨3, ![32768, 7, 7]⟩ : Shape).rowMajor.symm)

theorem cells_eCell (x : Arr) (p : Fin 392 × Fin 4096) (hJ : 4096 * p.1.val + p.2.val < 1605632) :
    cells x (eCell p) = rowAt x (4096 * p.1.val + p.2.val) hJ := by
  have e : (⟨3, ![32768, 7, 7]⟩ : Shape).rowMajor (eCell p) = finCongr numel_cell (finProdFinEquiv p) :=
    (⟨3, ![32768, 7, 7]⟩ : Shape).rowMajor.apply_symm_apply _
  have hy : ((⟨3, ![32768, 7, 7]⟩ : Shape).rowMajor (eCell p)).val = p.2.val + 4096 * p.1.val := by rw [e]; rfl
  rw [Shape.rowMajor_val_three] at hy
  have h1 : ((eCell p) 1).val < 7 := ((eCell p) 1).isLt
  have h2 : ((eCell p) 2).val < 7 := ((eCell p) 2).isLt
  have hy' : (((eCell p) 0).val * 7 + ((eCell p) 1).val) * 7 + ((eCell p) 2).val = p.2.val + 4096 * p.1.val := hy
  unfold cells rowAt
  congr 1
  · exact Fin.ext (by show ((eCell p) 0).val = (4096 * p.1.val + p.2.val) / 49; omega)
  · exact Fin.ext (by show ((eCell p) 1).val = (4096 * p.1.val + p.2.val) / 7 % 7; omega)
  · exact Fin.ext (by show ((eCell p) 2).val = (4096 * p.1.val + p.2.val) % 7; omega)

/-- The two rows' totals add up to the weighted total over all the cells of the argument arrays. -/
theorem kernel_total (c : Dev nD) :
    0 + ∑ y : S2x1x1.Idx, rowTotal m c (y 0).val
      = total (cells (m ((c : Thread nD τ).loc main_arg0))) (cells (m ((c : Thread nD τ).loc main_arg1))) := by
  rw [zero_add, sum_rows (rowTotal m c)]
  unfold rowTotal
  simp only [Finset.sum_range]
  have hb : ∑ g : Fin 2, ∑ j : Fin 196, blockTotal m c (196 * g.val + j.val) = ∑ t : Fin 392, blockTotal m c t.val :=
    BlockSum.sum_blocks (B := 2) (R := 196) (N := 392) rfl (fun n : Fin 392 => blockTotal m c n.val)
  rw [hb]
  simp only [blockTotal_fin]
  rw [sum_total]
  rw [← total_equiv eCell (cells (m ((c : Thread nD τ).loc main_arg0))) (cells (m ((c : Thread nD τ).loc main_arg1)))]
  congr 1
  · funext p; exact (cells_eCell _ p _).symm
  · funext p; exact (cells_eCell _ p _).symm

end Cert.KernelIdeal.Hand
end
-- ==== Proof.RefBoxes.lean ====
/-
  The reference's boxes. It regroups the first ten entries of a prediction row, and of a target row, as two
  boxes of five, and turns a box (centre, extent) into corners (low x, low y, high x, high y): entry `5k + e`
  of the row is entry `e` of box `k`, and a corner is `centre·64 ∓ ½·(extent·448)`, which is `lo` / `hi` by
  the associativity of the product.
-/
import proofs.«100800_j66340064854039_1_alg».proof.Proof.Spec
import proofs.«100800_j66340064854039_1_alg».proof.Proof.RefRead
import Idealize.ShloMosaic.Lib.Pipeline.Value

noncomputable section

namespace Cert.Yolo.Ref

open Idealize.ShloMosaic Idealize.ShloMosaic.TcCoe Idealize.ShloMosaic.ValueIdx
open Cert.ReferenceIdeal Cert.ReferenceIdeal.Read Cert.Yolo

/-- The reference's argument arrays at the extended reals. -/
abbrev RArr : Type := (⟨S32768x7x7x11, .f32⟩ : BufTy).Contents (Elt Ideal)

variable (x0 x1 : RArr) (n : Fin 32768) (a b : Fin 7)

/-- The predictions regrouped: entry `e` of box `k` is entry `5k + e` of the cell's row. -/
theorem pred_box (k : Fin 2) (e : Fin 5) :
    val_main_v21 (F := Ideal) x0 (ix5 n a b k e) = cellRow x0 n a b (bx k e) := by
  rw [val_main_v21_apply, val_main_v20_apply]
  show x0 (idx_main_v20 (idx_main_v21 _)) = x0 (ix4 n a b _)
  refine congrArg x0 (funext fun d => Fin.ext ?_)
  have hn := n.isLt; have ha := a.isLt; have hb := b.isLt; have hk := k.isLt; have he := e.isLt
  match d with
  | ⟨0, _⟩ => show ((((n.val * 7 + a.val) * 7 + b.val) * 2 + k.val) * 5 + e.val) / 490 = n.val; omega
  | ⟨1, _⟩ => show ((((n.val * 7 + a.val) * 7 + b.val) * 2 + k.val) * 5 + e.val) / 70 % 7 = a.val; omega
  | ⟨2, _⟩ => show ((((n.val * 7 + a.val) * 7 + b.val) * 2 + k.val) * 5 + e.val) / 10 % 7 = b.val; omega
  | ⟨3, _⟩ => show ((((n.val * 7 + a.val) * 7 + b.val) * 2 + k.val) * 5 + e.val) % 10 = 5 * k.val + e.val; omega

/-- The targets regrouped the same way. -/
theorem targ_box (k : Fin 2) (e : Fin 5) :
    val_main_v23 (F := Ideal) x1 (ix5 n a b k e) = cellRow x1 n a b (bx k e) := by
  rw [val_main_v23_apply, val_main_v22_apply]
  show x1 (idx_main_v22 (idx_main_v23 _)) = x1 (ix4 n a b _)
  refine congrArg x1 (funext fun d => Fin.ext ?_)
  have hn := n.isLt; have ha := a.isLt; have hb := b.isLt; have hk := k.isLt; have he := e.isLt
  match d with
  | ⟨0, _⟩ => show ((((n.val * 7 + a.val) * 7 + b.val) * 2 + k.val) * 5 + e.val) / 490 = n.val; omega
  | ⟨1, _⟩ => show ((((n.val * 7 + a.val) * 7 + b.val) * 2 + k.val) * 5 + e.val) / 70 % 7 = a.val; omega
  | ⟨2, _⟩ => show ((((n.val * 7 + a.val) * 7 + b.val) * 2 + k.val) * 5 + e.val) / 10 % 7 = b.val; omega
  | ⟨3, _⟩ => show ((((n.val * 7 + a.val) * 7 + b.val) * 2 + k.val) * 5 + e.val) % 10 = 5 * k.val + e.val; omega

/-- The target's first box: the first five entries of the row. -/
theorem targ_first (e : Fin 5) :
    val_main_v24 (F := Ideal) x1 (ix4 n a b e) = cellRow x1 n a b (bx 0 e) := by
  rw [val_main_v24_apply]
  show x1 (idx_main_v24 _) = x1 (ix4 n a b _)
  refine congrArg x1 (funext fun d => Fin.ext ?_)
  match d with
  | ⟨0, _⟩ => rfl
  | ⟨1, _⟩ => rfl
  | ⟨2, _⟩ => rfl
  | ⟨3, _⟩ => show e.val = 5 * 0 + e.val; omega

/-! ### The predicted boxes' edges

  Along axis `d` (0: x, 1: y) box `k` has its centre at entry `d` and its extent at entry `2 + d`. -/

/-- Entry `d` of a box as an entry of five, and entry `2 + d`. -/
private abbrev cen (d : Fin 2) : Fin 5 := ⟨d.val, by have := d.isLt; omega⟩
private abbrev ext (d : Fin 2) : Fin 5 := ⟨2 + d.val, by have := d.isLt; omega⟩

/-- The centres, read out of the regrouped predictions. -/
private theorem v25_at (k d : Fin 2) :
    val_main_v25 (F := Ideal) x0 (ix5 n a b k d) = cellRow x0 n a b (bx k (cen d)) := by
  rw [val_main_v25_apply,
    show idx_main_v25 (ix5 n a b k d) = ix5 n a b k (cen d) from funext fun c => match c with
      | ⟨0, _⟩ => rfl | ⟨1, _⟩ => rfl | ⟨2, _⟩ => rfl | ⟨3, _⟩ => rfl | ⟨4, _⟩ => rfl]
  exact pred_box x0 n a b k (cen d)

/-- The extents, read out of the regrouped predictions. -/
private theorem v28_at (k d : Fin 2) :
    val_main_v28 (F := Ideal) x0 (ix5 n a b k d) = cellRow x0 n a b (bx k (ext d)) := by
  rw [val_main_v28_apply,
    show idx_main_v28 (ix5 n a b k d) = ix5 n a b k (ext d) from funext fun c => match c with
      | ⟨0, _⟩ => rfl | ⟨1, _⟩ => rfl | ⟨2, _⟩ => rfl | ⟨3, _⟩ => rfl | ⟨4, _⟩ => rfl]
  exact pred_box x0 n a b k (ext d)

/-- The centre in image units: centre · 64. -/
private theorem v27_at (k d : Fin 2) :
    val_main_v27 (F := Ideal) x0 (ix5 n a b k d) = cellRow x0 n a b (bx k (cen d)) * k64 := by
  rw [val_main_v27_apply, v25_at, val_main_v26_apply, val_main_cst_2_apply]
  rfl

/-- The extent in image units: extent · 448. -/
private theorem v30_at (k d : Fin 2) :
    val_main_v30 (F := Ideal) x0 (ix5 n a b k d) = cellRow x0 n a b (bx k (ext d)) * k448 := by
  rw [val_main_v30_apply, v28_at, val_main_v29_apply, val_main_cst_3_apply]
  rfl

/-- The low edge: centre · 64 − ½ · (extent · 448), regrouped as `lo`. -/
private theorem v33_at (k d : Fin 2) :
    val_main_v33 (F := Ideal) x0 (ix5 n a b k d)
      = lo (cellRow x0 n a b (bx k (cen d))) (cellRow x0 n a b (bx k (ext d))) := by
  rw [val_main_v33_apply, v27_at, val_main_v32_apply, val_main_v31_apply, val_main_cst_4_apply, v30_at]
  show _ * k64 - khalf * (_ * k448) = _ * k64 - khalf * _ * k448
  rw [mul_assoc]

/-- The high edge: centre · 64 + ½ · (extent · 448), regrouped as `hi`. -/
private theorem v36_at (k d : Fin 2) :
    val_main_v36 (F := Ideal) x0 (ix5 n a b k d)
      = hi (cellRow x0 n a b (bx k (cen d))) (cellRow x0 n a b (bx k (ext d))) := by
  rw [val_main_v36_apply, v27_at, val_main_v35_apply, val_main_v34_apply, val_main_cst_5_apply, v30_at]
  show _ * k64 + khalf * (_ * k448) = _ * k64 + khalf * _ * k448
  rw [mul_assoc]

/-- The four corners are the two low edges followed by the two high edges: positions 0, 1 are the low edges … -/
private theorem v37_low (k d : Fin 2) :
    val_main_v37 (F := Ideal) x0 (ix5 n a b k (⟨d.val, by have := d.isLt; omega⟩ : Fin 4))
      = val_main_v33 (F := Ideal) x0 (ix5 n a b k d) := by
  unfold val_main_v37
  refine concatenate_pair_apply_left (t := S32768x7x7x2x4) (s₁ := S32768x7x7x2x2) (s₂ := S32768x7x7x2x2) _ _ _ _ _ rfl (ix5 n a b k d) ?_
  intro c
  match c with
  | ⟨0, _⟩ => rfl
  | ⟨1, _⟩ => rfl
  | ⟨2, _⟩ => rfl
  | ⟨3, _⟩ => rfl
  | ⟨4, _⟩ => rfl

/-- … and positions 2, 3 the high edges. -/
private theorem v37_high (k d : Fin 2) :
    val_main_v37 (F := Ideal) x0 (ix5 n a b k (⟨2 + d.val, by have := d.isLt; omega⟩ : Fin 4))
      = val_main_v36 (F := Ideal) x0 (ix5 n a b k d) := by
  unfold val_main_v37
  refine concatenate_pair_apply_right (t := S32768x7x7x2x4) (s₁ := S32768x7x7x2x2) (s₂ := S32768x7x7x2x2) _ _ _ _ _ rfl rfl (ix5 n a b k d) ?_ ?_
  · intro c hc
    match c, hc with
    | ⟨0, _⟩, _ => rfl
    | ⟨1, _⟩, _ => rfl
    | ⟨2, _⟩, _ => rfl
    | ⟨3, _⟩, _ => rfl
    | ⟨4, _⟩, hc => exact absurd rfl hc
  · show d.val + 2 = 2 + d.val
    omega

/-- The corners of predicted box `k`: low x, low y, high x, high y. -/
theorem pred_corner0 (k : Fin 2) : val_main_v37 (F := Ideal) x0 (ix5 n a b k 0)
    = lo (cellRow x0 n a b (bx k 0)) (cellRow x0 n a b (bx k 2)) :=
  (v37_low x0 n a b k 0).trans (v33_at x0 n a b k 0)
theorem pred_corner1 (k : Fin 2) : val_main_v37 (F := Ideal) x0 (ix5 n a b k 1)
    = lo (cellRow x0 n a b (bx k 1)) (cellRow x0 n a b (bx k 3)) :=
  (v37_low x0 n a b k 1).trans (v33_at x0 n a b k 1)
theorem pred_corner2 (k : Fin 2) : val_main_v37 (F := Ideal) x0 (ix5 n a b k 2)
    = hi (cellRow x0 n a b (bx k 0)) (cellRow x0 n a b (bx k 2)) :=
  (v37_high x0 n a b k 0).trans (v36_at x0 n a b k 0)
theorem pred_corner3 (k : Fin 2) : val_main_v37 (F := Ideal) x0 (ix5 n a b k 3)
    = hi (cellRow x0 n a b (bx k 1)) (cellRow x0 n a b (bx k 3)) :=
  (v37_high x0 n a b k 1).trans (v36_at x0 n a b k 1)

/-! ### The target's first box, the same way over a row of five -/

private theorem v38_at (d : Fin 2) :
    val_main_v38 (F := Ideal) x1 (ix4 n a b d) = cellRow x1 n a b (bx 0 (cen d)) := by
  rw [val_main_v38_apply,
    show idx_main_v38 (ix4 n a b d) = ix4 n a b (cen d) from funext fun c => match c with
      | ⟨0, _⟩ => rfl | ⟨1, _⟩ => rfl | ⟨2, _⟩ => rfl | ⟨3, _⟩ => rfl]
  exact targ_first x1 n a b (cen d)

private theorem v41_at (d : Fin 2) :
    val_main_v41 (F := Ideal) x1 (ix4 n a b d) = cellRow x1 n a b (bx 0 (ext d)) := by
  rw [val_main_v41_apply,
    show idx_main_v41 (ix4 n a b d) = ix4 n a b (ext d) from funext fun c => match c with
      | ⟨0, _⟩ => rfl | ⟨1, _⟩ => rfl | ⟨2, _⟩ => rfl | ⟨3, _⟩ => rfl]
  exact targ_first x1 n a b (ext d)

private theorem v40_at (d : Fin 2) :
    val_main_v40 (F := Ideal) x1 (ix4 n a b d) = cellRow x1 n a b (bx 0 (cen d)) * k64 := by
  rw [val_main_v40_apply, v38_at, val_main_v39_apply, val_main_cst_6_apply]
  rfl

private theorem v43_at (d : Fin 2) :
    val_main_v43 (F := Ideal) x1 (ix4 n a b d) = cellRow x1 n a b (bx 0 (ext d)) * k448 := by
  rw [val_main_v43_apply, v41_at, val_main_v42_apply, val_main_cst_7_apply]
  rfl

private theorem v46_at (d : Fin 2) :
    val_main_v46 (F := Ideal) x1 (ix4 n a b d)
      = lo (cellRow x1 n a b (bx 0 (cen d))) (cellRow x1 n a b (bx 0 (ext d))) := by
  rw [val_main_v46_apply, v40_at, val_main_v45_apply, val_main_v44_apply, val_main_cst_8_apply, v43_at]
  show _ * k64 - khalf * (_ * k448) = _ * k64 - khalf * _ * k448
  rw [mul_assoc]

private theorem v49_at (d : Fin 2) :
    val_main_v49 (F := Ideal) x1 (ix4 n a b d)
      = hi (cellRow x1 n a b (bx 0 (cen d))) (cellRow x1 n a b (bx 0 (ext d))) := by
  rw [val_main_v49_apply, v40_at, val_main_v48_apply, val_main_v47_apply, val_main_cst_9_apply, v43_at]
  show _ * k64 + khalf * (_ * k448) = _ * k64 + khalf * _ * k448
  rw [mul_assoc]

private theorem v50_low (d : Fin 2) :
    val_main_v50 (F := Ideal) x1 (ix4 n a b (⟨d.val, by have := d.isLt; omega⟩ : Fin 4))
      = val_main_v46 (F := Ideal) x1 (ix4 n a b d) := by
  unfold val_main_v50
  refine concatenate_pair_apply_left (t := S32768x7x7x4) (s₁ := S32768x7x7x2) (s₂ := S32768x7x7x2) _ _ _ _ _ rfl (ix4 n a b d) ?_
  intro c
  match c with
  | ⟨0, _⟩ => rfl
  | ⟨1, _⟩ => rfl
  | ⟨2, _⟩ => rfl
  | ⟨3, _⟩ => rfl

private theorem v50_high (d : Fin 2) :
    val_main_v50 (F := Ideal) x1 (ix4 n a b (⟨2 + d.val, by have := d.isLt; omega⟩ : Fin 4))
      = val_main_v49 (F := Ideal) x1 (ix4 n a b d) := by
  unfold val_main_v50
  refine concatenate_pair_apply_right (t := S32768x7x7x4) (s₁ := S32768x7x7x2) (s₂ := S32768x7x7x2) _ _ _ _ _ rfl rfl (ix4 n a b d) ?_ ?_
  · intro c hc
    match c, hc with
    | ⟨0, _⟩, _ => rfl
    | ⟨1, _⟩, _ => rfl
    | ⟨2, _⟩, _ => rfl
    | ⟨3, _⟩, hc => exact absurd rfl hc
  · show d.val + 2 = 2 + d.val
    omega

/-- The corners laid out with a box axis of extent one: its one box reads the four corners. -/
private theorem v51_at (e : Fin 4) :
    val_main_v51 (F := Ideal) x1 (ix5 n a b 0 e) = val_main_v50 (F := Ideal) x1 (ix4 n a b e) := by
  rw [val_main_v51_apply]
  exact congrArg (val_main_v50 (F := Ideal) x1) (funext fun c => match c with
    | ⟨0, _⟩ => rfl | ⟨1, _⟩ => rfl | ⟨2, _⟩ => rfl | ⟨3, _⟩ => rfl)

/-- The corners of the target's first box (the array has one box per cell: its box axis has extent one). -/
theorem targ_corner0 : val_main_v51 (F := Ideal) x1 (ix5 n a b 0 0)
    = lo (cellRow x1 n a b 0) (cellRow x1 n a b 2) :=
  (v51_at x1 n a b 0).trans ((v50_low x1 n a b 0).trans (v46_at x1 n a b 0))
theorem targ_corner1 : val_main_v51 (F := Ideal) x1 (ix5 n a b 0 1)
    = lo (cellRow x1 n a b 1) (cellRow x1 n a b 3) :=
  (v51_at x1 n a b 1).trans ((v50_low x1 n a b 1).trans (v46_at x1 n a b 1))
theorem targ_corner2 : val_main_v51 (F := Ideal) x1 (ix5 n a b 0 2)
    = hi (cellRow x1 n a b 0) (cellRow x1 n a b 2) :=
  (v51_at x1 n a b 2).trans ((v50_high x1 n a b 0).trans (v49_at x1 n a b 0))
theorem targ_corner3 : val_main_v51 (F := Ideal) x1 (ix5 n a b 0 3)
    = hi (cellRow x1 n a b 1) (cellRow x1 n a b 3) :=
  (v51_at x1 n a b 3).trans ((v50_high x1 n a b 1).trans (v49_at x1 n a b 1))

end Cert.Yolo.Ref

end
-- ==== Proof.RefIou.lean ====
/-
  The reference's overlaps. From the corners of predicted box `k` and of the target's first box it takes
  the larger low edges and the smaller high edges, tests that they leave a rectangle, and divides that
  rectangle's area by the union's: `iouBox` of the cell's two rows.
-/
import proofs.«100800_j66340064854039_1_alg».proof.Proof.RefBoxes

noncomputable section

namespace Cert.Yolo.Ref

open Idealize.ShloMosaic Idealize.ShloMosaic.TcCoe Idealize.ShloMosaic.ValueIdx
open Cert.ReferenceIdeal Cert.ReferenceIdeal.Read Cert.Yolo

/-! ## Indices

An index is its coordinates. A slice shifts the last coordinate, a broadcast over the box axis forgets that
coordinate, and regrouping `[…, 2, 1]` as `[…, 2]` goes through the flat position
`((n·7 + a)·7 + b)·2 + k`, whose quotients and remainders give the coordinates back. -/

/-- Two rank-5 indices with the same coordinates are equal. -/
private theorem idx5_ext {n0 n1 n2 n3 n4 : Nat} {i j : (⟨5, ![n0, n1, n2, n3, n4]⟩ : Shape).Idx}
    (h0 : (i 0).val = (j 0).val) (h1 : (i 1).val = (j 1).val) (h2 : (i 2).val = (j 2).val)
    (h3 : (i 3).val = (j 3).val) (h4 : (i 4).val = (j 4).val) : i = j := by
  funext d
  match d with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

/-- Two rank-4 indices with the same coordinates are equal. -/
private theorem idx4_ext {n0 n1 n2 n3 : Nat} {i j : (⟨4, ![n0, n1, n2, n3]⟩ : Shape).Idx}
    (h0 : (i 0).val = (j 0).val) (h1 : (i 1).val = (j 1).val) (h2 : (i 2).val = (j 2).val)
    (h3 : (i 3).val = (j 3).val) : i = j := by
  funext d
  match d with
  | ⟨0, _⟩ => exact Fin.ext h0
  | ⟨1, _⟩ => exact Fin.ext h1
  | ⟨2, _⟩ => exact Fin.ext h2
  | ⟨3, _⟩ => exact Fin.ext h3

/-- The flat position of `(n, a, b, k)` in `[32768, 7, 7, 2]` gives its coordinates back. -/
private theorem flat2_0 (n : Fin 32768) (a b : Fin 7) (k : Fin 2) :
    (((n.val * 7 + a.val) * 7 + b.val) * 2 + k.val) / 98 = n.val := by
  have := a.isLt; have := b.isLt; have := k.isLt; omega
private theorem flat2_1 (n : Fin 32768) (a b : Fin 7) (k : Fin 2) :
    (((n.val * 7 + a.val) * 7 + b.val) * 2 + k.val) / 14 % 7 = a.val := by
  have := a.isLt; have := b.isLt; have := k.isLt; omega
private theorem flat2_2 (n : Fin 32768) (a b : Fin 7) (k : Fin 2) :
    (((n.val * 7 + a.val) * 7 + b.val) * 2 + k.val) / 2 % 7 = b.val := by
  have := a.isLt; have := b.isLt; have := k.isLt; omega
private theorem flat2_3 (n : Fin 32768) (a b : Fin 7) (k : Fin 2) :
    (((n.val * 7 + a.val) * 7 + b.val) * 2 + k.val) / 1 % 2 = k.val := by
  have := a.isLt; have := b.isLt; have := k.isLt; omega

/-- The same in `[32768, 7, 7, 1]`, whose last coordinate is zero. -/
private theorem flat1_0 (n : Fin 32768) (a b : Fin 7) (k : Fin 1) :
    (((n.val * 7 + a.val) * 7 + b.val) * 1 + k.val) / 49 = n.val := by
  have := a.isLt; have := b.isLt; have := k.isLt; omega
private theorem flat1_1 (n : Fin 32768) (a b : Fin 7) (k : Fin 1) :
    (((n.val * 7 + a.val) * 7 + b.val) * 1 + k.val) / 7 % 7 = a.val := by
  have := a.isLt; have := b.isLt; have := k.isLt; omega
private theorem flat1_2 (n : Fin 32768) (a b : Fin 7) (k : Fin 1) :
    (((n.val * 7 + a.val) * 7 + b.val) * 1 + k.val) / 1 % 7 = b.val := by
  have := a.isLt; have := b.isLt; have := k.isLt; omega

variable (x0 x1 : RArr) (n : Fin 32768) (a b : Fin 7)

/-! ## The low and the high edges of the intersection -/

/-- The predicted corners' low half is corners 0 and 1 … -/
private theorem s52_0 (k : Fin 2) :
    val_main_v52 (F := Ideal) x0 (ix5 n a b k 0) = val_main_v37 (F := Ideal) x0 (ix5 n a b k 0) := by
  rw [val_main_v52_apply]
  exact congrArg (val_main_v37 (F := Ideal) x0) (idx5_ext rfl rfl rfl rfl rfl)
private theorem s52_1 (k : Fin 2) :
    val_main_v52 (F := Ideal) x0 (ix5 n a b k 1) = val_main_v37 (F := Ideal) x0 (ix5 n a b k 1) := by
  rw [val_main_v52_apply]
  exact congrArg (val_main_v37 (F := Ideal) x0) (idx5_ext rfl rfl rfl rfl rfl)
/-- … and the high half corners 2 and 3. -/
private theorem s56_0 (k : Fin 2) :
    val_main_v56 (F := Ideal) x0 (ix5 n a b k 0) = val_main_v37 (F := Ideal) x0 (ix5 n a b k 2) := by
  rw [val_main_v56_apply]
  exact congrArg (val_main_v37 (F := Ideal) x0) (idx5_ext rfl rfl rfl rfl rfl)
private theorem s56_1 (k : Fin 2) :
    val_main_v56 (F := Ideal) x0 (ix5 n a b k 1) = val_main_v37 (F := Ideal) x0 (ix5 n a b k 3) := by
  rw [val_main_v56_apply]
  exact congrArg (val_main_v37 (F := Ideal) x0) (idx5_ext rfl rfl rfl rfl rfl)

/-- The target's corners, the same for both predicted boxes: low half … -/
private theorem s54_0 (k : Fin 2) :
    val_main_v54 (F := Ideal) x1 (ix5 n a b k 0) = val_main_v51 (F := Ideal) x1 (ix5 n a b 0 0) := by
  rw [val_main_v54_apply, val_main_v53_apply]
  exact congrArg (val_main_v51 (F := Ideal) x1) (idx5_ext rfl rfl rfl rfl rfl)
private theorem s54_1 (k : Fin 2) :
    val_main_v54 (F := Ideal) x1 (ix5 n a b k 1) = val_main_v51 (F := Ideal) x1 (ix5 n a b 0 1) := by
  rw [val_main_v54_apply, val_main_v53_apply]
  exact congrArg (val_main_v51 (F := Ideal) x1) (idx5_ext rfl rfl rfl rfl rfl)
/-- … and high half. -/
private theorem s58_0 (k : Fin 2) :
    val_main_v58 (F := Ideal) x1 (ix5 n a b k 0) = val_main_v51 (F := Ideal) x1 (ix5 n a b 0 2) := by
  rw [val_main_v58_apply, val_main_v57_apply]
  exact congrArg (val_main_v51 (F := Ideal) x1) (idx5_ext rfl rfl rfl rfl rfl)
private theorem s58_1 (k : Fin 2) :
    val_main_v58 (F := Ideal) x1 (ix5 n a b k 1) = val_main_v51 (F := Ideal) x1 (ix5 n a b 0 3) := by
  rw [val_main_v58_apply, val_main_v57_apply]
  exact congrArg (val_main_v51 (F := Ideal) x1) (idx5_ext rfl rfl rfl rfl rfl)

/-- The larger low edge along x … -/
private theorem lowx (k : Fin 2) : val_main_v55 (F := Ideal) x0 x1 (ix5 n a b k 0)
    = max (lo (cellRow x0 n a b (bx k 0)) (cellRow x0 n a b (bx k 2))) (lo (cellRow x1 n a b 0) (cellRow x1 n a b 2)) := by
  rw [val_main_v55_apply, s52_0, s54_0, pred_corner0, targ_corner0]
  rfl
/-- … and along y. -/
private theorem lowy (k : Fin 2) : val_main_v55 (F := Ideal) x0 x1 (ix5 n a b k 1)
    = max (lo (cellRow x0 n a b (bx k 1)) (cellRow x0 n a b (bx k 3))) (lo (cellRow x1 n a b 1) (cellRow x1 n a b 3)) := by
  rw [val_main_v55_apply, s52_1, s54_1, pred_corner1, targ_corner1]
  rfl
/-- The smaller high edge along x … -/
private theorem highx (k : Fin 2) : val_main_v59 (F := Ideal) x0 x1 (ix5 n a b k 0)
    = min (hi (cellRow x0 n a b (bx k 0)) (cellRow x0 n a b (bx k 2))) (hi (cellRow x1 n a b 0) (cellRow x1 n a b 2)) := by
  rw [val_main_v59_apply, s56_0, s58_0, pred_corner2, targ_corner2]
  rfl
/-- … and along y. -/
private theorem highy (k : Fin 2) : val_main_v59 (F := Ideal) x0 x1 (ix5 n a b k 1)
    = min (hi (cellRow x0 n a b (bx k 1)) (cellRow x0 n a b (bx k 3))) (hi (cellRow x1 n a b 1) (cellRow x1 n a b 3)) := by
  rw [val_main_v59_apply, s56_1, s58_1, pred_corner3, targ_corner3]
  rfl

/-! ## One edge taken out of a pair: a slice of one entry, regrouped without its unit axis -/

private theorem r61 (k : Fin 2) :
    val_main_v61 (F := Ideal) x0 x1 (ix4 n a b k) = val_main_v55 (F := Ideal) x0 x1 (ix5 n a b k 0) := by
  rw [val_main_v61_apply, val_main_v60_apply]
  exact congrArg (val_main_v55 (F := Ideal) x0 x1)
    (idx5_ext (flat2_0 n a b k) (flat2_1 n a b k) (flat2_2 n a b k) (flat2_3 n a b k) rfl)
private theorem r63 (k : Fin 2) :
    val_main_v63 (F := Ideal) x0 x1 (ix4 n a b k) = val_main_v59 (F := Ideal) x0 x1 (ix5 n a b k 0) := by
  rw [val_main_v63_apply, val_main_v62_apply]
  exact congrArg (val_main_v59 (F := Ideal) x0 x1)
    (idx5_ext (flat2_0 n a b k) (flat2_1 n a b k) (flat2_2 n a b k) (flat2_3 n a b k) rfl)
private theorem r66 (k : Fin 2) :
    val_main_v66 (F := Ideal) x0 x1 (ix4 n a b k) = val_main_v55 (F := Ideal) x0 x1 (ix5 n a b k 1) := by
  rw [val_main_v66_apply, val_main_v65_apply]
  exact congrArg (val_main_v55 (F := Ideal) x0 x1)
    (idx5_ext (flat2_0 n a b k) (flat2_1 n a b k) (flat2_2 n a b k) (flat2_3 n a b k) rfl)
private theorem r68 (k : Fin 2) :
    val_main_v68 (F := Ideal) x0 x1 (ix4 n a b k) = val_main_v59 (F := Ideal) x0 x1 (ix5 n a b k 1) := by
  rw [val_main_v68_apply, val_main_v67_apply]
  exact congrArg (val_main_v59 (F := Ideal) x0 x1)
    (idx5_ext (flat2_0 n a b k) (flat2_1 n a b k) (flat2_2 n a b k) (flat2_3 n a b k) rfl)
private theorem r72 (k : Fin 2) :
    val_main_v72 (F := Ideal) x0 x1 (ix4 n a b k) = val_main_v59 (F := Ideal) x0 x1 (ix5 n a b k 0) := by
  rw [val_main_v72_apply, val_main_v71_apply]
  exact congrArg (val_main_v59 (F := Ideal) x0 x1)
    (idx5_ext (flat2_0 n a b k) (flat2_1 n a b k) (flat2_2 n a b k) (flat2_3 n a b k) rfl)
private theorem r74 (k : Fin 2) :
    val_main_v74 (F := Ideal) x0 x1 (ix4 n a b k) = val_main_v55 (F := Ideal) x0 x1 (ix5 n a b k 0) := by
  rw [val_main_v74_apply, val_main_v73_apply]
  exact congrArg (val_main_v55 (F := Ideal) x0 x1)
    (idx5_ext (flat2_0 n a b k) (flat2_1 n a b k) (flat2_2 n a b k) (flat2_3 n a b k) rfl)
private theorem r77 (k : Fin 2) :
    val_main_v77 (F := Ideal) x0 x1 (ix4 n a b k) = val_main_v59 (F := Ideal) x0 x1 (ix5 n a b k 1) := by
  rw [val_main_v77_apply, val_main_v76_apply]
  exact congrArg (val_main_v59 (F := Ideal) x0 x1)
    (idx5_ext (flat2_0 n a b k) (flat2_1 n a b k) (flat2_2 n a b k) (flat2_3 n a b k) rfl)
private theorem r79 (k : Fin 2) :
    val_main_v79 (F := Ideal) x0 x1 (ix4 n a b k) = val_main_v55 (F := Ideal) x0 x1 (ix5 n a b k 1) := by
  rw [val_main_v79_apply, val_main_v78_apply]
  exact congrArg (val_main_v55 (F := Ideal) x0 x1)
    (idx5_ext (flat2_0 n a b k) (flat2_1 n a b k) (flat2_2 n a b k) (flat2_3 n a b k) rfl)

/-- The predicted box's own corners, one at a time. -/
private theorem r83 (k : Fin 2) :
    val_main_v83 (F := Ideal) x0 (ix4 n a b k) = val_main_v37 (F := Ideal) x0 (ix5 n a b k 2) := by
  rw [val_main_v83_apply, val_main_v82_apply]
  exact congrArg (val_main_v37 (F := Ideal) x0)
    (idx5_ext (flat2_0 n a b k) (flat2_1 n a b k) (flat2_2 n a b k) (flat2_3 n a b k) rfl)
private theorem r85 (k : Fin 2) :
    val_main_v85 (F := Ideal) x0 (ix4 n a b k) = val_main_v37 (F := Ideal) x0 (ix5 n a b k 0) := by
  rw [val_main_v85_apply, val_main_v84_apply]
  exact congrArg (val_main_v37 (F := Ideal) x0)
    (idx5_ext (flat2_0 n a b k) (flat2_1 n a b k) (flat2_2 n a b k) (flat2_3 n a b k) rfl)
private theorem r88 (k : Fin 2) :
    val_main_v88 (F := Ideal) x0 (ix4 n a b k) = val_main_v37 (F := Ideal) x0 (ix5 n a b k 3) := by
  rw [val_main_v88_apply, val_main_v87_apply]
  exact congrArg (val_main_v37 (F := Ideal) x0)
    (idx5_ext (flat2_0 n a b k) (flat2_1 n a b k) (flat2_2 n a b k) (flat2_3 n a b k) rfl)
private theorem r90 (k : Fin 2) :
    val_main_v90 (F := Ideal) x0 (ix4 n a b k) = val_main_v37 (F := Ideal) x0 (ix5 n a b k 1) := by
  rw [val_main_v90_apply, val_main_v89_apply]
  exact congrArg (val_main_v37 (F := Ideal) x0)
    (idx5_ext (flat2_0 n a b k) (flat2_1 n a b k) (flat2_2 n a b k) (flat2_3 n a b k) rfl)

/-- The target box's own corners, one at a time. -/
private theorem r94 :
    val_main_v94 (F := Ideal) x1 (ix4 n a b 0) = val_main_v51 (F := Ideal) x1 (ix5 n a b 0 2) := by
  rw [val_main_v94_apply, val_main_v93_apply]
  exact congrArg (val_main_v51 (F := Ideal) x1)
    (idx5_ext (flat1_0 n a b 0) (flat1_1 n a b 0) (flat1_2 n a b 0) rfl rfl)
private theorem r96 :
    val_main_v96 (F := Ideal) x1 (ix4 n a b 0) = val_main_v51 (F := Ideal) x1 (ix5 n a b 0 0) := by
  rw [val_main_v96_apply, val_main_v95_apply]
  exact congrArg (val_main_v51 (F := Ideal) x1)
    (idx5_ext (flat1_0 n a b 0) (flat1_1 n a b 0) (flat1_2 n a b 0) rfl rfl)
private theorem r99 :
    val_main_v99 (F := Ideal) x1 (ix4 n a b 0) = val_main_v51 (F := Ideal) x1 (ix5 n a b 0 3) := by
  rw [val_main_v99_apply, val_main_v98_apply]
  exact congrArg (val_main_v51 (F := Ideal) x1)
    (idx5_ext (flat1_0 n a b 0) (flat1_1 n a b 0) (flat1_2 n a b 0) rfl rfl)
private theorem r101 :
    val_main_v101 (F := Ideal) x1 (ix4 n a b 0) = val_main_v51 (F := Ideal) x1 (ix5 n a b 0 1) := by
  rw [val_main_v101_apply, val_main_v100_apply]
  exact congrArg (val_main_v51 (F := Ideal) x1)
    (idx5_ext (flat1_0 n a b 0) (flat1_1 n a b 0) (flat1_2 n a b 0) rfl rfl)

/-! ## The test, the three areas, and the quotient -/

/-- The two boxes overlap: on each axis the larger low edge is below the smaller high edge. -/
private theorem ovl (k : Fin 2) : val_main_v70 (F := Ideal) x0 x1 (ix4 n a b k)
    = overlaps (cellRow x0 n a b (bx k 0)) (cellRow x0 n a b (bx k 1)) (cellRow x0 n a b (bx k 2)) (cellRow x0 n a b (bx k 3))
        (cellRow x1 n a b 0) (cellRow x1 n a b 1) (cellRow x1 n a b 2) (cellRow x1 n a b 3) := by
  rw [val_main_v70_apply, val_main_v64_apply, val_main_v69_apply, r61, r63, r66, r68, lowx, highx, lowy, highy]
  rfl

/-- The intersection's area: the product of its two extents. -/
private theorem int_area (k : Fin 2) : val_main_v81 (F := Ideal) x0 x1 (ix4 n a b k)
    = inter (cellRow x0 n a b (bx k 0)) (cellRow x0 n a b (bx k 1)) (cellRow x0 n a b (bx k 2)) (cellRow x0 n a b (bx k 3))
        (cellRow x1 n a b 0) (cellRow x1 n a b 1) (cellRow x1 n a b 2) (cellRow x1 n a b 3) := by
  rw [val_main_v81_apply, val_main_v75_apply, val_main_v80_apply, r72, r74, r77, r79, lowx, highx, lowy, highy]
  rfl

/-- The predicted box's area. -/
private theorem pred_area (k : Fin 2) : val_main_v92 (F := Ideal) x0 (ix4 n a b k)
    = area (cellRow x0 n a b (bx k 0)) (cellRow x0 n a b (bx k 1)) (cellRow x0 n a b (bx k 2)) (cellRow x0 n a b (bx k 3)) := by
  rw [val_main_v92_apply, val_main_v86_apply, val_main_v91_apply, r83, r85, r88, r90,
    pred_corner2, pred_corner0, pred_corner3, pred_corner1]
  rfl

/-- The target box's area, the same for both predicted boxes. -/
private theorem targ_area (k : Fin 2) : val_main_v104 (F := Ideal) x1 (ix4 n a b k)
    = area (cellRow x1 n a b 0) (cellRow x1 n a b 1) (cellRow x1 n a b 2) (cellRow x1 n a b 3) := by
  rw [val_main_v104_apply,
    show idx_main_v104 (ix4 n a b k) = ix4 n a b 0 from idx4_ext rfl rfl rfl rfl,
    val_main_v103_apply, val_main_v97_apply, val_main_v102_apply, r94, r96, r99, r101,
    targ_corner2, targ_corner0, targ_corner3, targ_corner1]
  rfl

/-- The value taken where the boxes do not overlap is zero. -/
private theorem no_overlap_value (i : S32768x7x7x2.Idx) : val_main_call1_v1 (F := Ideal) i = (0 : EReal) := by
  rw [val_main_call1_v1_apply, val_main_call1_v0_apply, val_main_cst_10_apply]
  exact Ideal.ofBits_zero_f32

/-- The overlap of predicted box `k` with the target's first box, zero where they do not overlap. -/
theorem iou_eq (k : Fin 2) :
    val_main_v108 (F := Ideal) x0 x1 (ix4 n a b k) = iouBox (cellRow x0 n a b) (cellRow x1 n a b) k := by
  rw [val_main_v108_apply, val_main_v107_apply, val_main_v106_apply, val_main_v105_apply,
    ovl, int_area, pred_area, targ_area, no_overlap_value]
  rfl

end Cert.Yolo.Ref

end
-- ==== Proof.RefMasks.lean ====
/-
  The reference's choice of the responsible box, and the two sums that use it besides the localisation:
  the responsible box's confidence against the larger overlap, and the other box's confidence. Box 0 is
  chosen where its overlap is strictly larger; the complement of a one-bit mask is the mask xor 1, and the
  complement of the complement is the mask.
-/
import proofs.«100800_j66340064854039_1_alg».proof.Proof.RefIou
import proofs.«100800_j66340064854039_1_alg».proof.Proof.Consts

noncomputable section

namespace Cert.Yolo.Ref

open Idealize.ShloMosaic Idealize.ShloMosaic.TcCoe Idealize.ShloMosaic.ValueIdx
open Cert.ReferenceIdeal Cert.ReferenceIdeal.Read Cert.Yolo

variable (x0 x1 : RArr) (n : Fin 32768) (a b : Fin 7)

/-! ### Indices: a cell's position read back through the flattenings -/

/-- A cell's flat position, split again into image, row and column, is the cell. -/
private theorem cell_div (n : Fin 32768) (a b : Fin 7) :
    ((n.val * 7 + a.val) * 7 + b.val) / 49 = n.val ∧ ((n.val * 7 + a.val) * 7 + b.val) / 7 % 7 = a.val
      ∧ ((n.val * 7 + a.val) * 7 + b.val) / 1 % 7 = b.val := by
  have := a.isLt; have := b.isLt
  refine ⟨by omega, by omega, by omega⟩

/-- The same with the box axis inside. -/
private theorem box_div (n : Fin 32768) (a b : Fin 7) (k : Fin 2) :
    (((n.val * 7 + a.val) * 7 + b.val) * 2 + k.val) / 98 = n.val
      ∧ (((n.val * 7 + a.val) * 7 + b.val) * 2 + k.val) / 14 % 7 = a.val
      ∧ (((n.val * 7 + a.val) * 7 + b.val) * 2 + k.val) / 2 % 7 = b.val
      ∧ (((n.val * 7 + a.val) * 7 + b.val) * 2 + k.val) / 1 % 2 = k.val := by
  have := a.isLt; have := b.isLt; have := k.isLt
  refine ⟨by omega, by omega, by omega, by omega⟩

/-- The cell holds an object. -/
theorem hasObj_eq : val_main_v3 (F := Ideal) x1 (ix3 n a b) = hasObj (cellRow x1 n a b) := by
  rw [val_main_v3_apply, val_main_v1_apply, val_main_v0_apply, val_main_v2_apply, val_main_cst_apply]
  have hi : idx_main_v0 (idx_main_v1 (ix3 n a b)) = ix4 n a b 4 := funext fun d => Fin.ext (by
    obtain ⟨h0, h1, h2⟩ := cell_div n a b
    match d with
    | ⟨0, _⟩ => exact h0
    | ⟨1, _⟩ => exact h1
    | ⟨2, _⟩ => exact h2
    | ⟨3, _⟩ => rfl)
  rw [hi]
  show Ideal.cmp .ogt (x1 (ix4 n a b 4)) (Ideal.ofBits .f32 0x00000000#32) = Ideal.cmp .ogt (x1 (ix4 n a b 4)) 0
  rw [Ideal.ofBits_zero_f32]

/-! ### The two overlaps and the choice between them -/

/-- Box 0's overlap. -/
private theorem iou0_eq :
    val_main_v110 (F := Ideal) x0 x1 (ix3 n a b) = iouBox (cellRow x0 n a b) (cellRow x1 n a b) 0 := by
  rw [val_main_v110_apply, val_main_v109_apply]
  have hi : idx_main_v109 (idx_main_v110 (ix3 n a b)) = ix4 n a b 0 := funext fun d => Fin.ext (by
    obtain ⟨h0, h1, h2⟩ := cell_div n a b
    match d with
    | ⟨0, _⟩ => exact h0
    | ⟨1, _⟩ => exact h1
    | ⟨2, _⟩ => exact h2
    | ⟨3, _⟩ => rfl)
  rw [hi, iou_eq x0 x1 n a b 0]

/-- Box 1's overlap. -/
private theorem iou1_eq :
    val_main_v112 (F := Ideal) x0 x1 (ix3 n a b) = iouBox (cellRow x0 n a b) (cellRow x1 n a b) 1 := by
  rw [val_main_v112_apply, val_main_v111_apply]
  have hi : idx_main_v111 (idx_main_v112 (ix3 n a b)) = ix4 n a b 1 := funext fun d => Fin.ext (by
    obtain ⟨h0, h1, h2⟩ := cell_div n a b
    match d with
    | ⟨0, _⟩ => exact h0
    | ⟨1, _⟩ => exact h1
    | ⟨2, _⟩ => exact h2
    | ⟨3, _⟩ => rfl)
  rw [hi, iou_eq x0 x1 n a b 1]

/-- Box 0's overlap is strictly the larger. -/
private theorem wins_eq :
    val_main_v113 (F := Ideal) x0 x1 (ix3 n a b) = wins (cellRow x0 n a b) (cellRow x1 n a b) := by
  rw [val_main_v113_apply, iou0_eq, iou1_eq]
  rfl

/-- The first entry of the choice is the mask "box 0 wins". -/
private theorem chosen0_eq :
    val_main_v117 (F := Ideal) x0 x1 (ix4 n a b 0) = wins (cellRow x0 n a b) (cellRow x1 n a b) := by
  unfold val_main_v117
  refine (concatenate_pair_apply_left (t := S32768x7x7x2) (s₁ := S32768x7x7x1) (s₂ := S32768x7x7x1) 3 _ _ _
    (ix4 n a b 0) rfl (ix4 n a b 0) (fun d => by
      match d with
      | ⟨0, _⟩ => rfl
      | ⟨1, _⟩ => rfl
      | ⟨2, _⟩ => rfl
      | ⟨3, _⟩ => rfl)).trans ?_
  rw [val_main_v115_apply]
  have hi : idx_main_v115 (ix4 n a b (0 : Fin 1)) = ix3 n a b := funext fun d => Fin.ext (by
    match d with
    | ⟨0, _⟩ => rfl
    | ⟨1, _⟩ => rfl
    | ⟨2, _⟩ => rfl)
  rw [hi, wins_eq]

/-- The complement of a one-bit mask is the mask xor 1. -/
private theorem not_eq_xor_one (w : BitVec 1) : ~~~w = w ^^^ 1#1 := by
  revert w; decide

/-- The complement of the complement is the mask. -/
private theorem not_xor_one (w : BitVec 1) : ~~~(w ^^^ 1#1) = w := by
  revert w; decide

/-- The second entry of the choice is the complement. -/
private theorem chosen1_eq :
    val_main_v117 (F := Ideal) x0 x1 (ix4 n a b 1) = wins (cellRow x0 n a b) (cellRow x1 n a b) ^^^ 1#1 := by
  unfold val_main_v117
  refine (concatenate_pair_apply_right (t := S32768x7x7x2) (s₁ := S32768x7x7x1) (s₂ := S32768x7x7x1) 3 _ _ _
    (ix4 n a b 1) rfl rfl (ix4 n a b 0) (fun d hd => by
      match d with
      | ⟨0, _⟩ => rfl
      | ⟨1, _⟩ => rfl
      | ⟨2, _⟩ => rfl
      | ⟨3, _⟩ => exact absurd rfl hd) rfl).trans ?_
  rw [val_main_v116_apply]
  have hi : idx_main_v116 (ix4 n a b (0 : Fin 1)) = ix3 n a b := funext fun d => Fin.ext (by
    match d with
    | ⟨0, _⟩ => rfl
    | ⟨1, _⟩ => rfl
    | ⟨2, _⟩ => rfl)
  rw [hi, val_main_v114_apply, wins_eq, not_eq_xor_one]

/-- Entry `k` of the choice. -/
private theorem chosen_eq (k : Fin 2) :
    val_main_v117 (F := Ideal) x0 x1 (ix4 n a b k) = chosen (cellRow x0 n a b) (cellRow x1 n a b) k := by
  match k with
  | ⟨0, _⟩ => exact chosen0_eq x0 x1 n a b
  | ⟨1, _⟩ => exact chosen1_eq x0 x1 n a b

/-- The object mask spread over the box axis. -/
private theorem obj120_eq (k : Fin 2) :
    val_main_v120 (F := Ideal) x1 (ix4 n a b k) = hasObj (cellRow x1 n a b) := by
  rw [val_main_v120_apply, val_main_v119_apply]
  have hi : idx_main_v119 (idx_main_v120 (ix4 n a b k)) = ix3 n a b := funext fun d => Fin.ext (by
    match d with
    | ⟨0, _⟩ => rfl
    | ⟨1, _⟩ => rfl
    | ⟨2, _⟩ => rfl)
  rw [hi, hasObj_eq]

private theorem obj124_eq (k : Fin 2) :
    val_main_v124 (F := Ideal) x1 (ix4 n a b k) = hasObj (cellRow x1 n a b) := by
  rw [val_main_v124_apply, val_main_v122_apply]
  have hi : idx_main_v122 (idx_main_v124 (ix4 n a b k)) = ix3 n a b := funext fun d => Fin.ext (by
    match d with
    | ⟨0, _⟩ => rfl
    | ⟨1, _⟩ => rfl
    | ⟨2, _⟩ => rfl)
  rw [hi, hasObj_eq]

/-- Box `k` is responsible for the cell's object. -/
theorem resp_eq (k : Fin 2) :
    val_main_v121 (F := Ideal) x0 x1 (ix4 n a b k) = resp (cellRow x0 n a b) (cellRow x1 n a b) k := by
  rw [val_main_v121_apply, obj120_eq, chosen_eq]
  rfl

/-- Where box 0 is not the responsible one, box 1 is. -/
private theorem other0_eq :
    val_main_v125 (F := Ideal) x0 x1 (ix4 n a b 0) = other (cellRow x0 n a b) (cellRow x1 n a b) 0 := by
  rw [val_main_v125_apply, obj124_eq, val_main_v123_apply, chosen0_eq, not_eq_xor_one]
  rfl

/-- Where box 1 is not the responsible one, box 0 is. -/
private theorem other1_eq :
    val_main_v125 (F := Ideal) x0 x1 (ix4 n a b 1) = other (cellRow x0 n a b) (cellRow x1 n a b) 1 := by
  rw [val_main_v125_apply, obj124_eq, val_main_v123_apply, chosen1_eq, not_xor_one]
  rfl

/-- The cell holds an object and box `k` is not the responsible one. -/
theorem other_eq (k : Fin 2) :
    val_main_v125 (F := Ideal) x0 x1 (ix4 n a b k) = other (cellRow x0 n a b) (cellRow x1 n a b) k := by
  match k with
  | ⟨0, _⟩ => exact other0_eq x0 x1 n a b
  | ⟨1, _⟩ => exact other1_eq x0 x1 n a b

/-- A fold over a two-element axis, from its initial value. -/
private theorem fold_two {α : Type} (op : α → α → α) [Std.Commutative op] [Std.Associative op] (init : α)
    (m : Nat) (hm : m = 2) (f : Fin m → α) :
    (Finset.univ : Finset (Fin m)).fold op init f = op (f ⟨0, by omega⟩) (op (f ⟨1, by omega⟩) init) := by
  subst hm
  rw [show (Finset.univ : Finset (Fin 2)) = {0, 1} by decide, Finset.fold_insert (by decide), Finset.fold_singleton]
  rfl

/-- The larger overlap: the maximum over the box axis, taken from minus infinity. -/
theorem best_eq : val_main_v118 (F := Ideal) x0 x1 (ix3 n a b) = bestIou (cellRow x0 n a b) (cellRow x1 n a b) := by
  unfold val_main_v118
  have hR : S32768x7x7x2.Reduces [3] S32768x7x7 := by decide
  rw [Host.reduce_eq_fold_single FloatOps.maximumf _ _ _ hR _ (ix3 n a b),
    fold_two (FloatOps.maximumf (F := Ideal) (φ := .f32)) _ (S32768x7x7x2.size 3) rfl]
  show max (val_main_v108 (F := Ideal) x0 x1 (hR.lift (ix3 n a b) ⟨0, _⟩))
      (max (val_main_v108 (F := Ideal) x0 x1 (hR.lift (ix3 n a b) ⟨1, _⟩)) (Ideal.ofBits .f32 0xFF800000#32)) = _
  rw [Cert.Yolo.Consts.ofBits_negInf, max_bot_right]
  have l0 : hR.lift (ix3 n a b) ⟨0, by decide⟩ = ix4 n a b 0 := funext fun d => Fin.ext (by
    match d with
    | ⟨0, _⟩ => rfl
    | ⟨1, _⟩ => rfl
    | ⟨2, _⟩ => rfl
    | ⟨3, _⟩ => rfl)
  have l1 : hR.lift (ix3 n a b) ⟨1, by decide⟩ = ix4 n a b 1 := funext fun d => Fin.ext (by
    match d with
    | ⟨0, _⟩ => rfl
    | ⟨1, _⟩ => rfl
    | ⟨2, _⟩ => rfl
    | ⟨3, _⟩ => rfl)
  rw [l0, l1, iou_eq x0 x1 n a b 0, iou_eq x0 x1 n a b 1]
  rfl

/-- Box `k`'s predicted confidence. -/
theorem conf_eq (k : Fin 2) : val_main_v127 (F := Ideal) x0 (ix4 n a b k) = cellRow x0 n a b (bx k 4) := by
  rw [val_main_v127_apply, val_main_v126_apply]
  have hi : idx_main_v126 (idx_main_v127 (ix4 n a b k)) = ix5 n a b k 4 := funext fun d => Fin.ext (by
    obtain ⟨h0, h1, h2, h3⟩ := box_div n a b k
    match d with
    | ⟨0, _⟩ => exact h0
    | ⟨1, _⟩ => exact h1
    | ⟨2, _⟩ => exact h2
    | ⟨3, _⟩ => exact h3
    | ⟨4, _⟩ => rfl)
  rw [hi, pred_box x0 n a b k 4]

/-- The larger overlap spread over the box axis. -/
private theorem best129_eq (k : Fin 2) :
    val_main_v129 (F := Ideal) x0 x1 (ix4 n a b k) = bestIou (cellRow x0 n a b) (cellRow x1 n a b) := by
  rw [val_main_v129_apply, val_main_v128_apply]
  have hi : idx_main_v128 (idx_main_v129 (ix4 n a b k)) = ix3 n a b := funext fun d => Fin.ext (by
    match d with
    | ⟨0, _⟩ => rfl
    | ⟨1, _⟩ => rfl
    | ⟨2, _⟩ => rfl)
  rw [hi, best_eq]

/-- One cell's and box's term of the responsible boxes' confidence errors. -/
private theorem con_term_eq (k : Fin 2) :
    val_main_v132 (F := Ideal) x0 x1 (ix4 n a b k) = conTerm (cellRow x0 n a b) (cellRow x1 n a b) k := by
  rw [val_main_v132_apply, resp_eq, val_main_v131_apply, val_main_v130_apply, conf_eq, best129_eq,
    val_main_call2_v1_apply, val_main_call2_v0_apply, val_main_cst_12_apply]
  show Scalar.select _ _ (Ideal.ofBits .f32 0x00000000#32) = _
  rw [Ideal.ofBits_zero_f32]
  rfl

/-- One cell's and box's term of the other boxes' squared confidences. -/
private theorem oth_term_eq (k : Fin 2) :
    val_main_v135 (F := Ideal) x0 x1 (ix4 n a b k) = othTerm (cellRow x0 n a b) (cellRow x1 n a b) k := by
  rw [val_main_v135_apply, other_eq, val_main_v134_apply, conf_eq,
    val_main_call3_v1_apply, val_main_call3_v0_apply, val_main_cst_14_apply]
  show Scalar.select _ _ (Ideal.ofBits .f32 0x00000000#32) = _
  rw [Ideal.ofBits_zero_f32]
  rfl

/-- The sum of the responsible boxes' confidence errors. -/
theorem con_sum : val_main_v133 (F := Ideal) x0 x1 ix0
    = ∑ i : S32768x7x7x2.Idx, conTerm (cellRow x0 (i 0) (i 1) (i 2)) (cellRow x1 (i 0) (i 1) (i 2)) (i 3) := by
  rw [val_main_v133_apply, val_main_cst_13_apply]
  show Ideal.ofBits .f32 0x00000000#32 + _ = _
  rw [Ideal.ofBits_zero_f32, zero_add]
  refine Finset.sum_congr rfl fun i _ => ?_
  exact (congrArg (val_main_v132 (F := Ideal) x0 x1) (ValueIdx.eq_ix4 i)).trans
    (con_term_eq x0 x1 (i 0) (i 1) (i 2) (i 3))

/-- The sum of the other boxes' squared confidences. -/
theorem oth_sum : val_main_v136 (F := Ideal) x0 x1 ix0
    = ∑ i : S32768x7x7x2.Idx, othTerm (cellRow x0 (i 0) (i 1) (i 2)) (cellRow x1 (i 0) (i 1) (i 2)) (i 3) := by
  rw [val_main_v136_apply, val_main_cst_15_apply]
  show Ideal.ofBits .f32 0x00000000#32 + _ = _
  rw [Ideal.ofBits_zero_f32, zero_add]
  refine Finset.sum_congr rfl fun i _ => ?_
  exact (congrArg (val_main_v135 (F := Ideal) x0 x1) (ValueIdx.eq_ix4 i)).trans
    (oth_term_eq x0 x1 (i 0) (i 1) (i 2) (i 3))

end Cert.Yolo.Ref

end
-- ==== Proof.RefLoc.lean ====
/-
  Three of the reference's five sums. The localisation sum: for each box, the squared differences of the centres
  and of the square roots of the extents, each pair summed over its two entries from zero, kept where the box is
  responsible. The two sums that do not look at the boxes: the confidence error of the cells with no object, and
  the class error of every cell.
-/
import proofs.«100800_j66340064854039_1_alg».proof.Proof.RefMasks

noncomputable section

namespace Cert.Yolo.Ref

open Idealize.ShloMosaic Idealize.ShloMosaic.TcCoe Idealize.ShloMosaic.ValueIdx
open Cert.ReferenceIdeal Cert.ReferenceIdeal.Read Cert.Yolo

variable (x0 x1 : RArr) (n : Fin 32768) (a b : Fin 7)

/-! ## The localisation error of one box

A box's five entries are cut into the centre (entries 0, 1) and the extent (entries 2, 3); each pair's squared
differences are summed over the pair. -/

/-- Entry `e` of the centre pair of box `k` is entry `e` of the box (predictions). -/
private theorem idx_centre_pred (k e : Fin 2) (e5 : Fin 5) (h : e5.val = e.val) :
    idx_main_v137 (idx_main_v141 (ix4 n a b k) e) = ix5 n a b k e5 :=
  funext fun d => Fin.ext (by
    match d with
    | ⟨0, _⟩ => rfl
    | ⟨1, _⟩ => rfl
    | ⟨2, _⟩ => rfl
    | ⟨3, _⟩ => rfl
    | ⟨4, _⟩ => exact h.symm)

/-- The same for the targets. -/
private theorem idx_centre_targ (k e : Fin 2) (e5 : Fin 5) (h : e5.val = e.val) :
    idx_main_v138 (idx_main_v141 (ix4 n a b k) e) = ix5 n a b k e5 :=
  funext fun d => Fin.ext (by
    match d with
    | ⟨0, _⟩ => rfl
    | ⟨1, _⟩ => rfl
    | ⟨2, _⟩ => rfl
    | ⟨3, _⟩ => rfl
    | ⟨4, _⟩ => exact h.symm)

/-- Entry `e` of the extent pair of box `k` is entry `2 + e` of the box (predictions). -/
private theorem idx_extent_pred (k e : Fin 2) (e5 : Fin 5) (h : e5.val = 2 + e.val) :
    idx_main_v142 (idx_main_v148 (ix4 n a b k) e) = ix5 n a b k e5 :=
  funext fun d => Fin.ext (by
    match d with
    | ⟨0, _⟩ => rfl
    | ⟨1, _⟩ => rfl
    | ⟨2, _⟩ => rfl
    | ⟨3, _⟩ => rfl
    | ⟨4, _⟩ => exact h.symm)

/-- The same for the targets. -/
private theorem idx_extent_targ (k e : Fin 2) (e5 : Fin 5) (h : e5.val = 2 + e.val) :
    idx_main_v144 (idx_main_v148 (ix4 n a b k) e) = ix5 n a b k e5 :=
  funext fun d => Fin.ext (by
    match d with
    | ⟨0, _⟩ => rfl
    | ⟨1, _⟩ => rfl
    | ⟨2, _⟩ => rfl
    | ⟨3, _⟩ => rfl
    | ⟨4, _⟩ => exact h.symm)

/-- One term of the centre pair's sum: the squared difference of the two rows at that entry of the box. -/
private theorem centre_sq (k e : Fin 2) (e5 : Fin 5) (h : e5.val = e.val) :
    val_main_v140 (F := Ideal) x0 x1 (idx_main_v141 (ix4 n a b k) e)
      = sqd (cellRow x0 n a b (bx k e5)) (cellRow x1 n a b (bx k e5)) := by
  rw [val_main_v140_apply, val_main_v139_apply, val_main_v137_apply, val_main_v138_apply,
    idx_centre_pred n a b k e e5 h, idx_centre_targ n a b k e e5 h, pred_box, targ_box]
  rfl

/-- One term of the extent pair's sum: the squared difference of the square roots. -/
private theorem extent_sq (k e : Fin 2) (e5 : Fin 5) (h : e5.val = 2 + e.val) :
    val_main_v147 (F := Ideal) x0 x1 (idx_main_v148 (ix4 n a b k) e)
      = sqd (Ideal.sqrt (cellRow x0 n a b (bx k e5))) (Ideal.sqrt (cellRow x1 n a b (bx k e5))) := by
  rw [val_main_v147_apply, val_main_v146_apply, val_main_v143_apply, val_main_v145_apply,
    val_main_v142_apply, val_main_v144_apply,
    idx_extent_pred n a b k e e5 h, idx_extent_targ n a b k e e5 h, pred_box, targ_box]
  rfl

/-- The centre pair's sum, from zero. -/
private theorem centre_sum (k : Fin 2) :
    val_main_v141 (F := Ideal) x0 x1 (ix4 n a b k)
      = sqd (cellRow x0 n a b (bx k 0)) (cellRow x1 n a b (bx k 0))
        + sqd (cellRow x0 n a b (bx k 1)) (cellRow x1 n a b (bx k 1)) := by
  rw [val_main_v141_apply, Fin.sum_univ_two, centre_sq x0 x1 n a b k 0 0 rfl, centre_sq x0 x1 n a b k 1 1 rfl,
    val_main_cst_16_apply]
  show Ideal.ofBits .f32 0x00000000#32 + _ = _
  rw [Ideal.ofBits_zero_f32, zero_add]

/-- The extent pair's sum, from zero. -/
private theorem extent_sum (k : Fin 2) :
    val_main_v148 (F := Ideal) x0 x1 (ix4 n a b k)
      = sqd (Ideal.sqrt (cellRow x0 n a b (bx k 2))) (Ideal.sqrt (cellRow x1 n a b (bx k 2)))
        + sqd (Ideal.sqrt (cellRow x0 n a b (bx k 3))) (Ideal.sqrt (cellRow x1 n a b (bx k 3))) := by
  rw [val_main_v148_apply, Fin.sum_univ_two, extent_sq x0 x1 n a b k 0 2 rfl, extent_sq x0 x1 n a b k 1 3 rfl,
    val_main_cst_17_apply]
  show Ideal.ofBits .f32 0x00000000#32 + _ = _
  rw [Ideal.ofBits_zero_f32, zero_add]

/-- The squared localisation error of box `k`. -/
theorem locSq_eq (k : Fin 2) :
    val_main_v149 (F := Ideal) x0 x1 (ix4 n a b k) = locSq (cellRow x0 n a b) (cellRow x1 n a b) k := by
  rw [val_main_v149_apply, centre_sum, extent_sum]
  rfl

/-- Kept where box `k` is responsible, zero elsewhere. -/
private theorem locTerm_eq (k : Fin 2) :
    val_main_v150 (F := Ideal) x0 x1 (ix4 n a b k) = locTerm (cellRow x0 n a b) (cellRow x1 n a b) k := by
  rw [val_main_v150_apply, resp_eq, locSq_eq, val_main_call4_v1_apply, val_main_call4_v0_apply, val_main_cst_18_apply]
  show Scalar.select _ _ (Ideal.ofBits .f32 0x00000000#32) = _
  rw [Ideal.ofBits_zero_f32]
  rfl

/-- The sum of the responsible boxes' localisation errors. -/
theorem loc_sum : val_main_v151 (F := Ideal) x0 x1 ix0
    = ∑ i : S32768x7x7x2.Idx, locTerm (cellRow x0 (i 0) (i 1) (i 2)) (cellRow x1 (i 0) (i 1) (i 2)) (i 3) := by
  rw [val_main_v151_apply, val_main_cst_19_apply]
  show Ideal.ofBits .f32 0x00000000#32 + _ = _
  rw [Ideal.ofBits_zero_f32, zero_add]
  exact Finset.sum_congr rfl fun i _ =>
    (congrArg (val_main_v150 (F := Ideal) x0 x1) (eq_ix4 i)).trans (locTerm_eq x0 x1 (i 0) (i 1) (i 2) (i 3))

/-! ## The cells without an object

Both confidences (entries 4 and 9) are read through a flattening of the cell's index to three coordinates, which gives
the same three coordinates back: a row-major position below 7·7 per image divides and reduces to them. -/

/-- The first confidence of the predictions sits at entry 4 of the cell's row. -/
private theorem idx_conf0_pred : idx_main_v5 (idx_main_v6 (ix3 n a b)) = ix4 n a b (4 : Fin 11) :=
  funext fun d => Fin.ext (by
    have ha := a.isLt
    have hb := b.isLt
    match d with
    | ⟨0, _⟩ => show ((n.val * 7 + a.val) * 7 + b.val) / 49 = n.val; omega
    | ⟨1, _⟩ => show ((n.val * 7 + a.val) * 7 + b.val) / 7 % 7 = a.val; omega
    | ⟨2, _⟩ => show ((n.val * 7 + a.val) * 7 + b.val) / 1 % 7 = b.val; omega
    | ⟨3, _⟩ => rfl)

/-- The first confidence of the targets, likewise. -/
private theorem idx_conf0_targ : idx_main_v7 (idx_main_v8 (ix3 n a b)) = ix4 n a b (4 : Fin 11) :=
  funext fun d => Fin.ext (by
    have ha := a.isLt
    have hb := b.isLt
    match d with
    | ⟨0, _⟩ => show ((n.val * 7 + a.val) * 7 + b.val) / 49 = n.val; omega
    | ⟨1, _⟩ => show ((n.val * 7 + a.val) * 7 + b.val) / 7 % 7 = a.val; omega
    | ⟨2, _⟩ => show ((n.val * 7 + a.val) * 7 + b.val) / 1 % 7 = b.val; omega
    | ⟨3, _⟩ => rfl)

/-- The second confidence of the predictions sits at entry 9. -/
private theorem idx_conf1_pred : idx_main_v11 (idx_main_v12 (ix3 n a b)) = ix4 n a b (9 : Fin 11) :=
  funext fun d => Fin.ext (by
    have ha := a.isLt
    have hb := b.isLt
    match d with
    | ⟨0, _⟩ => show ((n.val * 7 + a.val) * 7 + b.val) / 49 = n.val; omega
    | ⟨1, _⟩ => show ((n.val * 7 + a.val) * 7 + b.val) / 7 % 7 = a.val; omega
    | ⟨2, _⟩ => show ((n.val * 7 + a.val) * 7 + b.val) / 1 % 7 = b.val; omega
    | ⟨3, _⟩ => rfl)

/-- The second confidence of the targets, likewise. -/
private theorem idx_conf1_targ : idx_main_v13 (idx_main_v14 (ix3 n a b)) = ix4 n a b (9 : Fin 11) :=
  funext fun d => Fin.ext (by
    have ha := a.isLt
    have hb := b.isLt
    match d with
    | ⟨0, _⟩ => show ((n.val * 7 + a.val) * 7 + b.val) / 49 = n.val; omega
    | ⟨1, _⟩ => show ((n.val * 7 + a.val) * 7 + b.val) / 7 % 7 = a.val; omega
    | ⟨2, _⟩ => show ((n.val * 7 + a.val) * 7 + b.val) / 1 % 7 = b.val; omega
    | ⟨3, _⟩ => rfl)

private theorem conf0_pred : val_main_v6 (F := Ideal) x0 (ix3 n a b) = cellRow x0 n a b 4 := by
  rw [val_main_v6_apply, val_main_v5_apply, idx_conf0_pred n a b]
  rfl

private theorem conf0_targ : val_main_v8 (F := Ideal) x1 (ix3 n a b) = cellRow x1 n a b 4 := by
  rw [val_main_v8_apply, val_main_v7_apply, idx_conf0_targ n a b]
  rfl

private theorem conf1_pred : val_main_v12 (F := Ideal) x0 (ix3 n a b) = cellRow x0 n a b 9 := by
  rw [val_main_v12_apply, val_main_v11_apply, idx_conf1_pred n a b]
  rfl

private theorem conf1_targ : val_main_v14 (F := Ideal) x1 (ix3 n a b) = cellRow x1 n a b 9 := by
  rw [val_main_v14_apply, val_main_v13_apply, idx_conf1_targ n a b]
  rfl

/-- On one bit, the complement is the exclusive or with one. -/
private theorem not_eq_xor_one : ∀ c : BitVec 1, ~~~c = c ^^^ 1#1 := by decide

/-- Both confidence errors of a cell, kept where the cell has no object. -/
private theorem nooTerm_eq :
    val_main_v18 (F := Ideal) x0 x1 (ix3 n a b) = nooTerm (cellRow x0 n a b) (cellRow x1 n a b) := by
  rw [val_main_v18_apply, val_main_v4_apply, hasObj_eq, not_eq_xor_one, val_main_v17_apply, val_main_v10_apply,
    val_main_v16_apply, val_main_v9_apply, val_main_v15_apply, conf0_pred, conf0_targ, conf1_pred, conf1_targ,
    val_main_call0_v1_apply, val_main_call0_v0_apply, val_main_cst_0_apply]
  show Scalar.select _ _ (Ideal.ofBits .f32 0x00000000#32) = _
  rw [Ideal.ofBits_zero_f32]
  rfl

/-- The sum over the cells without an object of both boxes' confidence errors. -/
theorem noo_sum : val_main_v19 (F := Ideal) x0 x1 ix0
    = ∑ i : S32768x7x7.Idx, nooTerm (cellRow x0 (i 0) (i 1) (i 2)) (cellRow x1 (i 0) (i 1) (i 2)) := by
  rw [val_main_v19_apply, val_main_cst_1_apply]
  show Ideal.ofBits .f32 0x00000000#32 + _ = _
  rw [Ideal.ofBits_zero_f32, zero_add]
  exact Finset.sum_congr rfl fun i _ =>
    (congrArg (val_main_v18 (F := Ideal) x0 x1) (eq_ix3 i)).trans (nooTerm_eq x0 x1 (i 0) (i 1) (i 2))

/-! ## The class error

The class score is entry 10, kept as a last axis of extent one. -/

private theorem idx_cls_pred (z : Fin 1) : idx_main_v152 (ix4 n a b z) = ix4 n a b (10 : Fin 11) :=
  funext fun d => Fin.ext (by
    have hz := z.isLt
    match d with
    | ⟨0, _⟩ => rfl
    | ⟨1, _⟩ => rfl
    | ⟨2, _⟩ => rfl
    | ⟨3, _⟩ => show 10 + z.val = 10; omega)

private theorem idx_cls_targ (z : Fin 1) : idx_main_v153 (ix4 n a b z) = ix4 n a b (10 : Fin 11) :=
  funext fun d => Fin.ext (by
    have hz := z.isLt
    match d with
    | ⟨0, _⟩ => rfl
    | ⟨1, _⟩ => rfl
    | ⟨2, _⟩ => rfl
    | ⟨3, _⟩ => show 10 + z.val = 10; omega)

/-- A cell's class error. -/
private theorem clsTerm_eq (z : Fin 1) :
    val_main_v155 (F := Ideal) x0 x1 (ix4 n a b z) = clsTerm (cellRow x0 n a b) (cellRow x1 n a b) := by
  rw [val_main_v155_apply, val_main_v154_apply, val_main_v152_apply, val_main_v153_apply,
    idx_cls_pred n a b z, idx_cls_targ n a b z]
  rfl

/-- The sum over all cells of the class error. -/
theorem cls_sum : val_main_v156 (F := Ideal) x0 x1 ix0
    = ∑ i : S32768x7x7x1.Idx, clsTerm (cellRow x0 (i 0) (i 1) (i 2)) (cellRow x1 (i 0) (i 1) (i 2)) := by
  rw [val_main_v156_apply, val_main_cst_20_apply]
  show Ideal.ofBits .f32 0x00000000#32 + _ = _
  rw [Ideal.ofBits_zero_f32, zero_add]
  exact Finset.sum_congr rfl fun i _ =>
    (congrArg (val_main_v155 (F := Ideal) x0 x1) (eq_ix4 i)).trans (clsTerm_eq x0 x1 (i 0) (i 1) (i 2) (i 3))

end Cert.Yolo.Ref

end
-- ==== Proof.RefTotal.lean ====
/-
  The reference's result, as a number of the argument arrays: the weighted total of the five parts over all
  cells, divided by the number of images. Its five sums run over the cells (and, for three of them, over the two
  boxes of a cell); a sum over cells and boxes is the sum over the cells of box 0's term plus that of box 1's.
-/
import proofs.«100800_j66340064854039_1_alg».proof.Proof.RefLoc
import proofs.«100800_j66340064854039_1_alg».proof.Proof.Algebra
import Idealize.ShloMosaic.PureOps.Reduce

noncomputable section

namespace Cert.Yolo.Ref

open Idealize.ShloMosaic Idealize.ShloMosaic.TcCoe Idealize.ShloMosaic.ValueIdx
open Cert.ReferenceIdeal Cert.ReferenceIdeal.Read Cert.Yolo

/-- A sum over cells and their two boxes, as the cells' sums of box 0's and of box 1's terms. -/
theorem sum_boxes (f : S32768x7x7x2.Idx → EReal) :
    ∑ i : S32768x7x7x2.Idx, f i
      = (∑ j : Cell, f (ix4 (j 0) (j 1) (j 2) 0)) + ∑ j : Cell, f (ix4 (j 0) (j 1) (j 2) 1) := by
  have hR : S32768x7x7x2.Reduces [3] S32768x7x7 := by decide
  rw [← Finset.sum_fiberwise Finset.univ hR.drop f, ← Finset.sum_add_distrib]
  refine Finset.sum_congr rfl fun j _ => ?_
  have hl : ∀ k : Fin 2, hR.lift j k = ix4 (j 0) (j 1) (j 2) k := fun k => funext fun a => match a with
    | ⟨0, _⟩ => Fin.ext rfl
    | ⟨1, _⟩ => Fin.ext rfl
    | ⟨2, _⟩ => Fin.ext rfl
    | ⟨3, _⟩ => Fin.ext rfl
  rw [hR.sum_filter_drop_single f j]
  exact (Fin.sum_univ_two (fun k : Fin 2 => f (hR.lift j k))).trans (congrArg₂ (· + ·) (congrArg f (hl 0)) (congrArg f (hl 1)))

/-- A sum over cells with a last axis of extent one is the sum over the cells. -/
theorem sum_unit (f : S32768x7x7x1.Idx → EReal) :
    ∑ i : S32768x7x7x1.Idx, f i = ∑ j : Cell, f (ix4 (j 0) (j 1) (j 2) 0) := by
  have hR : S32768x7x7x1.Reduces [3] S32768x7x7 := by decide
  rw [← Finset.sum_fiberwise Finset.univ hR.drop f]
  refine Finset.sum_congr rfl fun j _ => ?_
  have hl : ∀ k : Fin 1, hR.lift j k = ix4 (j 0) (j 1) (j 2) k := fun k => funext fun a => match a with
    | ⟨0, _⟩ => Fin.ext rfl
    | ⟨1, _⟩ => Fin.ext rfl
    | ⟨2, _⟩ => Fin.ext rfl
    | ⟨3, _⟩ => Fin.ext rfl
  rw [hR.sum_filter_drop_single f j]
  exact (Fin.sum_univ_one (fun k : Fin 1 => f (hR.lift j k))).trans (congrArg f (hl 0))

variable (x0 x1 : RArr)

/-- The reference's result. -/
theorem ref_value : val_main_v164 (F := Ideal) x0 x1 ix0 = Ideal.div (total (cells x0) (cells x1)) kN := by
  rw [val_main_v164_apply, val_main_v163_apply, val_main_v162_apply, val_main_v161_apply, val_main_v160_apply,
    val_main_v159_apply, val_main_v158_apply, val_main_v157_apply, val_main_cst_21_apply, val_main_cst_22_apply,
    val_main_cst_23_apply, val_main_cst_24_apply, loc_sum, con_sum, oth_sum, noo_sum, cls_sum,
    sum_boxes, sum_boxes, sum_boxes, sum_unit]
  rfl

end Cert.Yolo.Ref

end
-- ==== Proof.RefRun.lean ====
/-
  The reference program runs: from any memory with zero counters every weakly fair execution of its host
  operations terminates, the result holds the operations' composed value of the two argument arrays, and
  the arguments are unchanged.

  The program is a straight line of 201 operations in single-assignment form: each writes one buffer of its
  own, once, and reads only the arguments and buffers written before it. Hence a buffer's contents when the
  whole line has run are what its own operation wrote, and that is the operation's function of the FINAL
  contents of the buffers it reads (nothing later touches them). Going through the operations in program
  order, each buffer's final contents are therefore the stage value of the same name, a function of the two
  arguments' launch contents; the last one is the result.
-/
import proofs.«100800_j66340064854039_1_alg».proof.Proof.RefRead
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## Single assignment

Every operation of the reference writes one buffer of its own, once, and reads only buffers written before it.
So the contents a buffer has when the whole line has run are the contents it had just after its own operation,
and an operation's result is its function of the FINAL contents of the buffers it reads. -/

section SingleAssignment

variable {T : Topo} {sg : RefSig} {Vl : EltTy → Type}

/-- Operation by operation, the line `os` writes exactly the references `rs`, each a determined value. -/
def Aligned : List (HloOp T sg Vl) → List (Ref sg .tc) → Prop
  | [], [] => True
  | o :: os, r :: rs => (o.writes = {Proc.devRef .tc r} ∧ o.fresh = ∅) ∧ Aligned os rs
  | _, _ => False

/-- A reference the line does not write keeps its contents through it. -/
theorem after_keep : ∀ (os : List (HloOp T sg Vl)) (rs : List (Ref sg .tc)), Aligned os rs →
    ∀ (r : Ref sg .tc), r ∉ rs → ∀ V : Valuation T sg Vl, after os V (Proc.devRef .tc r) = V (Proc.devRef .tc r)
  | [], [], _, _, _, _ => rfl
  | [], _ :: _, h, _, _, _ => h.elim
  | _ :: _, [], h, _, _, _ => h.elim
  | o :: os, r' :: rs, h, r, hr, V => by
    rw [after_cons, after_keep os rs h.2 r (fun hm => hr (List.mem_cons_of_mem _ hm))]
    refine o.result_of_not_mem V ?_
    rw [h.1.1, Finset.mem_singleton]
    exact devRef_ne_of_ne (fun e => hr (e ▸ List.mem_cons_self))

/-- No operation of an aligned line leaves contents open. -/
theorem Aligned.fresh : ∀ (os : List (HloOp T sg Vl)) (rs : List (Ref sg .tc)), Aligned os rs → ∀ o ∈ os, o.fresh = ∅
  | [], [], _, _, ho => nomatch ho
  | [], _ :: _, h, _, _ => h.elim
  | _ :: _, [], h, _, _ => h.elim
  | o :: os, _ :: rs, h, o', ho => by
    rcases List.mem_cons.mp ho with rfl | ho
    · exact h.1.2
    · exact Aligned.fresh os rs h.2 o' ho

/-- Two aligned lines in a row are aligned. -/
theorem Aligned.append : ∀ (os : List (HloOp T sg Vl)) (rs : List (Ref sg .tc)) (os' : List (HloOp T sg Vl)) (rs' : List (Ref sg .tc)),
    Aligned os rs → Aligned os' rs' → Aligned (os ++ os') (rs ++ rs')
  | [], [], _, _, _, h' => h'
  | [], _ :: _, _, _, h, _ => h.elim
  | _ :: _, [], _, _, h, _ => h.elim
  | _ :: os, _ :: rs, os', rs', h, h' => ⟨h.1, Aligned.append os rs os' rs' h.2 h'⟩

/-- What is left of an aligned line after its first `k` operations is aligned. -/
theorem Aligned.drop : ∀ (k : Nat) (os : List (HloOp T sg Vl)) (rs : List (Ref sg .tc)), Aligned os rs → Aligned (os.drop k) (rs.drop k)
  | 0, _, _, h => h
  | _ + 1, [], [], h => h
  | _ + 1, [], _ :: _, h => h.elim
  | _ + 1, _ :: _, [], h => h.elim
  | k + 1, _ :: os, _ :: rs, h => Aligned.drop k os rs h.2

/-- The contents after two lines in a row. -/
theorem after_app : ∀ (l₁ l₂ : List (HloOp T sg Vl)) (V : Valuation T sg Vl), after (l₁ ++ l₂) V = after l₂ (after l₁ V)
  | [], _, _ => rfl
  | o :: l₁, l₂, V => after_app l₁ l₂ (o.result V)

/-- At the `k`-th operation `o` of an aligned line: a reference no LATER operation writes ends at `o`'s result from the
    contents before `o`; a reference neither `o` nor a later operation writes already has its final contents before `o`. -/
theorem after_at {os : List (HloOp T sg Vl)} {rs : List (Ref sg .tc)} (hA : Aligned os rs) {k : Nat} {o : HloOp T sg Vl}
    (hk : os[k]? = some o) (V : Valuation T sg Vl) :
    (∀ r : Ref sg .tc, r ∉ rs.drop (k + 1) →
        after os V (Proc.devRef .tc r) = o.result (after (os.take k) V) (Proc.devRef .tc r))
    ∧ (∀ r : Ref sg .tc, r ∉ rs.drop k → after (os.take k) V (Proc.devRef .tc r) = after os V (Proc.devRef .tc r)) := by
  have hd : os.drop k = o :: os.drop (k + 1) := by
    obtain ⟨hlt, he⟩ := List.getElem?_eq_some_iff.mp hk
    rw [← he]; exact List.drop_eq_getElem_cons hlt
  have hs : after os V = after (os.drop k) (after (os.take k) V) := by
    have := after_app (os.take k) (os.drop k) V
    rwa [List.take_append_drop] at this
  constructor
  · intro r hr
    rw [hs, hd, after_cons]
    exact after_keep _ _ (hA.drop (k + 1)) r hr _
  · intro r hr
    rw [hs]
    exact (after_keep _ _ (hA.drop k) r hr _).symm

variable {os : List (HloOp T sg Vl)} {rs : List (Ref sg .tc)}

/-- The final contents of a constant's buffer. -/
theorem fin_nullary (hA : Aligned os rs) (k : Nat) {y : Ref sg .tc} {v : y.ty.Contents Vl} {hy}
    (hk : os[k]? = some (nullary y v hy)) (hy' : y ∉ rs.drop (k + 1)) (V : Valuation T sg Vl) :
    after os V (Proc.devRef .tc y) = v := by
  rw [(after_at hA hk V).1 y hy', nullary_result]

/-- The final contents of a one-operand operation's result, from its operand's final contents. -/
theorem fin_unary (hA : Aligned os rs) (k : Nat) {x y : Ref sg .tc} {f : x.ty.Contents Vl → y.ty.Contents Vl} {hx hy}
    (hk : os[k]? = some (unary x y f hx hy)) (hy' : y ∉ rs.drop (k + 1)) (hx' : x ∉ rs.drop k) (V : Valuation T sg Vl) :
    after os V (Proc.devRef .tc y) = f (after os V (Proc.devRef .tc x)) := by
  obtain ⟨h1, h2⟩ := after_at hA hk V
  rw [h1 y hy', unary_result, h2 x hx']

/-- The same for a reshape. -/
theorem fin_reshape (hA : Aligned os rs) (k : Nat) {x y : Ref sg .tc} {he : x.ty.elt = y.ty.elt} {hn : x.ty.shape.ShapeCasts y.ty.shape} {hx hy}
    (hk : os[k]? = some (reshape x y he hn hx hy)) (hy' : y ∉ rs.drop (k + 1)) (hx' : x ∉ rs.drop k) (V : Valuation T sg Vl) :
    after os V (Proc.devRef .tc y) = fun i => he ▸ shapeCast y.ty.shape (after os V (Proc.devRef .tc x)) hn i := by
  obtain ⟨h1, h2⟩ := after_at hA hk V
  rw [h1 y hy', reshape_result, h2 x hx']

/-- The same for a two-operand operation. -/
theorem fin_binary (hA : Aligned os rs) (k : Nat) {a b y : Ref sg .tc} {f : a.ty.Contents Vl → b.ty.Contents Vl → y.ty.Contents Vl} {ha hb hy}
    (hk : os[k]? = some (binary a b y f ha hb hy)) (hy' : y ∉ rs.drop (k + 1)) (ha' : a ∉ rs.drop k) (hb' : b ∉ rs.drop k)
    (V : Valuation T sg Vl) :
    after os V (Proc.devRef .tc y) = f (after os V (Proc.devRef .tc a)) (after os V (Proc.devRef .tc b)) := by
  obtain ⟨h1, h2⟩ := after_at hA hk V
  rw [h1 y hy', binary_result, h2 a ha', h2 b hb']

/-- The same for a three-operand operation. -/
theorem fin_ternary (hA : Aligned os rs) (k : Nat) {c a b y : Ref sg .tc} {f : c.ty.Contents Vl → a.ty.Contents Vl → b.ty.Contents Vl → y.ty.Contents Vl} {hc ha hb hy}
    (hk : os[k]? = some (ternary c a b y f hc ha hb hy)) (hy' : y ∉ rs.drop (k + 1)) (hc' : c ∉ rs.drop k) (ha' : a ∉ rs.drop k)
    (hb' : b ∉ rs.drop k) (V : Valuation T sg Vl) :
    after os V (Proc.devRef .tc y)
      = f (after os V (Proc.devRef .tc c)) (after os V (Proc.devRef .tc a)) (after os V (Proc.devRef .tc b)) := by
  obtain ⟨h1, h2⟩ := after_at hA hk V
  rw [h1 y hy', ternary_result, h2 c hc', h2 a ha', h2 b hb']

end SingleAssignment

/-! ## The line of operations -/

/-- The operations of @main's window 0: operations 1 … 62 of the 201 (a called function's operations stand in its call's place). -/
abbrev ops0 : List (HloOp τ sig (Elt F)) :=
  [ unary main_arg1 main_v0 ((extractStridedSlice S32768x7x7x1 ![0, 0, 0, 4] · slices_S32768x7x7x11_S32768x7x7x1_0_0_0_4) : (⟨S32768x7x7x11, .f32⟩ : BufTy).Contents (Elt F) → (⟨S32768x7x7x1, .f32⟩ : BufTy).Contents (Elt F)),
    reshape main_v0 main_v1 rfl shapeCasts_S32768x7x7x1_S32768x7x7,
    nullary main_cst (constant S_ .f32 0x00000000#32),
    unary main_cst main_v2 (broadcastInDim S32768x7x7 ![] bcast_S_S32768x7x7 : (⟨S_, .f32⟩ : BufTy).Contents (Elt F) → (⟨S32768x7x7, .f32⟩ : BufTy).Contents (Elt F)),
    binary main_v1 main_v2 main_v3 (cmpf .ogt : (⟨S32768x7x7, .f32⟩ : BufTy).Contents (Elt F) → (⟨S32768x7x7, .f32⟩ : BufTy).Contents (Elt F) → (⟨S32768x7x7, .i1⟩ : BufTy).Contents (Elt F)),
    unary main_v3 main_v4 (noti : (⟨S32768x7x7, .i1⟩ : BufTy).Contents (Elt F) → (⟨S32768x7x7, .i1⟩ : BufTy).Contents (Elt F)),
    unary main_arg0 main_v5 ((extractStridedSlice S32768x7x7x1 ![0, 0, 0, 4] · slices_S32768x7x7x11_S32768x7x7x1_0_0_0_4) : (⟨S32768x7x7x11, .f32⟩ : BufTy).Contents (Elt F) → (⟨S32768x7x7x1, .f32⟩ : BufTy).Contents (Elt F)),
    reshape main_v5 main_v6 rfl shapeCasts_S32768x7x7x1_S32768x7x7,
    unary main_arg1 main_v7 ((extractStridedSlice S32768x7x7x1 ![0, 0, 0, 4] · slices_S32768x7x7x11_S32768x7x7x1_0_0_0_4) : (⟨S32768x7x7x11, .f32⟩ : BufTy).Contents (Elt F) → (⟨S32768x7x7x1, .f32⟩ : BufTy).Contents (Elt F)),
    reshape main_v7 main_v8 rfl shapeCasts_S32768x7x7x1_S32768x7x7,
    binary main_v6 main_v8 main_v9 (subf : (⟨S32768x7x7, .f32⟩ : BufTy).Contents (Elt F) → (⟨S32768x7x7, .f32⟩ : BufTy).Contents (Elt F) → (⟨S32768x7x7, .f32⟩ : BufTy).Contents (Elt F)),
    binary main_v9 main_v9 main_v10 (mulf : (⟨S32768x7x7, .f32⟩ : BufTy).Contents (Elt F) → (⟨S32768x7x7, .f32⟩ : BufTy).Contents (Elt F) → (⟨S32768x7x7, .f32⟩ : BufTy).Contents (Elt F)),
    unary main_arg0 main_v11 ((extractStridedSlice S32768x7x7x1 ![0, 0, 0, 9] · slices_S32768x7x7x11_S32768x7x7x1_0_0_0_9) : (⟨S32768x7x7x11, .f32⟩ : BufTy).Contents (Elt F) → (⟨S32768x7x7x1, .f32⟩ : BufTy).Contents (Elt F)),
    reshape main_v11 main_v12 rfl shapeCasts_S32768x7x7x1_S32768x7x7,
    unary main_arg1 main_v13 ((extractStridedSlice S32768x7x7x1 ![0, 0, 0, 9] · slices_S32768x7x7x11_S32768x7x7x1_0_0_0_9) : (⟨S32768x7x7x11, .f32⟩ : BufTy).Contents (Elt F) → (⟨S32768x7x7x1, .f32⟩ : BufTy).Contents (Elt F)),
    reshape main_v13 main_v14 rfl shapeCasts_S32768x7x7x1_S32768x7x7,
    binary main_v12 main_v14 main_v15 (subf : (⟨S32768x7x7, .f32⟩ : BufTy).Contents (Elt F) → (⟨S32768x7x7, .f32⟩ : BufTy).Contents (Elt F) → (⟨S32768x7x7, .f32⟩ : BufTy).Contents (Elt F)),
    binary main_v15 main_v15 main_v16 (mulf : (⟨S32768x7x7, .f32⟩ : BufTy).Contents (Elt F) → (⟨S32768x7x7, .f32⟩ : BufTy).Contents (Elt F) → (⟨S32768x7x7, .f32⟩ : BufTy).Contents (Elt F)),
    binary main_v10 main_v16 main_v17 (addf : (⟨S32768x7x7, .f32⟩ : BufTy).Contents (Elt F) → (⟨S32768x7x7, .f32⟩ : BufTy).Contents (Elt F) → (⟨S32768x7x7, .f32⟩ : BufTy).Contents (Elt F)),
    nullary main_cst_0 (constant S_ .f32 0x00000000#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S32768x7x7, .f32⟩) main_call0_v1) (broadcastInDim S32768x7x7 ![] bcast_S_S32768x7x7),
    TRef.ternary (TRef.of (T := ⟨S32768x7x7, .i1⟩) main_v4) (TRef.of (T := ⟨S32768x7x7, .f32⟩) main_v17) (TRef.of (T := ⟨S32768x7x7, .f32⟩) main_call0_v1) (TRef.of (T := ⟨S32768x7x7, .f32⟩) main_v18) select,
    nullary main_cst_1 (constant S_ .f32 0x00000000#32),
    binary main_v18 main_cst_1 main_v19 ((fun x v => Host.reduceAdd x v reducesTo_S32768x7x7_S_d0_1_2 h_S_) : (⟨S32768x7x7, .f32⟩ : BufTy).Contents (Elt F) → (⟨S_, .f32⟩ : BufTy).Contents (Elt F) → (⟨S_, .f32⟩ : BufTy).Contents (Elt F)),
    unary main_arg0 main_v20 ((extractStridedSlice S32768x7x7x10 ![0, 0, 0, 0] · slices_S32768x7x7x11_S32768x7x7x10_0_0_0_0) : (⟨S32768x7x7x11, .f32⟩ : BufTy).Contents (Elt F) → (⟨S32768x7x7x10, .f32⟩ : BufTy).Contents (Elt F)),
    reshape main_v20 main_v21 rfl shapeCasts_S32768x7x7x10_S32768x7x7x2x5,
    unary main_arg1 main_v22 ((extractStridedSlice S32768x7x7x10 ![0, 0, 0, 0] · slices_S32768x7x7x11_S32768x7x7x10_0_0_0_0) : (⟨S32768x7x7x11, .f32⟩ : BufTy).Contents (Elt F) → (⟨S32768x7x7x10, .f32⟩ : BufTy).Contents (Elt F)),
    reshape main_v22 main_v23 rfl shapeCasts_S32768x7x7x10_S32768x7x7x2x5,
    unary main_arg1 main_v24 ((extractStridedSlice S32768x7x7x5 ![0, 0, 0, 0] · slices_S32768x7x7x11_S32768x7x7x5_0_0_0_0) : (⟨S32768x7x7x11, .f32⟩ : BufTy).Contents (Elt F) → (⟨S32768x7x7x5, .f32⟩ : BufTy).Contents (Elt F)),
    unary main_v21 main_v25 ((extractStridedSlice S32768x7x7x2x2 ![0, 0, 0, 0, 0] · slices_S32768x7x7x2x5_S32768x7x7x2x2_0_0_0_0_0) : (⟨S32768x7x7x2x5, .f32⟩ : BufTy).Contents (Elt F) → (⟨S32768x7x7x2x2, .f32⟩ : BufTy).Contents (Elt F)),
    nullary main_cst_2 (constant S_ .f32 0x42800000#32),
    unary main_cst_2 main_v26 (broadcastInDim S32768x7x7x2x2 ![] bcast_S_S32768x7x7x2x2 : (⟨S_, .f32⟩ : BufTy).Contents (Elt F) → (⟨S32768x7x7x2x2, .f32⟩ : BufTy).Contents (Elt F)),
    binary main_v25 main_v26 main_v27 (mulf : (⟨S32768x7x7x2x2, .f32⟩ : BufTy).Contents (Elt F) → (⟨S32768x7x7x2x2, .f32⟩ : BufTy).Contents (Elt F) → (⟨S32768x7x7x2x2, .f32⟩ : BufTy).Contents (Elt F)),
    unary main_v21 main_v28 ((extractStridedSlice S32768x7x7x2x2 ![0, 0, 0, 0, 2] · slices_S32768x7x7x2x5_S32768x7x7x2x2_0_0_0_0_2) : (⟨S32768x7x7x2x5, .f32⟩ : BufTy).Contents (Elt F) → (⟨S32768x7x7x2x2, .f32⟩ : BufTy).Contents (Elt F)),
    nullary main_cst_3 (constant S_ .f32 0x43E00000#32),
    unary main_cst_3 main_v29 (broadcastInDim S32768x7x7x2x2 ![] bcast_S_S32768x7x7x2x2 : (⟨S_, .f32⟩ : BufTy).Contents (Elt F) → (⟨S32768x7x7x2x2, .f32⟩ : BufTy).Contents (Elt F)),
    binary main_v28 main_v29 main_v30 (mulf : (⟨S32768x7x7x2x2, .f32⟩ : BufTy).Contents (Elt F) → (⟨S32768x7x7x2x2, .f32⟩ : BufTy).Contents (Elt F) → (⟨S32768x7x7x2x2, .f32⟩ : BufTy).Contents (Elt F)),
    nullary main_cst_4 (constant S_ .f32 0x3F000000#32),
    unary main_cst_4 main_v31 (broadcastInDim S32768x7x7x2x2 ![] bcast_S_S32768x7x7x2x2 : (⟨S_, .f32⟩ : BufTy).Contents (Elt F) → (⟨S32768x7x7x2x2, .f32⟩ : BufTy).Contents (Elt F)),
    binary main_v31 main_v30 main_v32 (mulf : (⟨S32768x7x7x2x2, .f32⟩ : BufTy).Contents (Elt F) → (⟨S32768x7x7x2x2, .f32⟩ : BufTy).Contents (Elt F) → (⟨S32768x7x7x2x2, .f32⟩ : BufTy).Contents (Elt F)),
    binary main_v27 main_v32 main_v33 (subf : (⟨S32768x7x7x2x2, .f32⟩ : BufTy).Contents (Elt F) → (⟨S32768x7x7x2x2, .f32⟩ : BufTy).Contents (Elt F) → (⟨S32768x7x7x2x2, .f32⟩ : BufTy).Contents (Elt F)),
    nullary main_cst_5 (constant S_ .f32 0x3F000000#32),
    unary main_cst_5 main_v34 (broadcastInDim S32768x7x7x2x2 ![] bcast_S_S32768x7x7x2x2 : (⟨S_, .f32⟩ : BufTy).Contents (Elt F) → (⟨S32768x7x7x2x2, .f32⟩ : BufTy).Contents (Elt F)),
    binary main_v34 main_v30 main_v35 (mulf : (⟨S32768x7x7x2x2, .f32⟩ : BufTy).Contents (Elt F) → (⟨S32768x7x7x2x2, .f32⟩ : BufTy).Contents (Elt F) → (⟨S32768x7x7x2x2, .f32⟩ : BufTy).Contents (Elt F)),
    binary main_v27 main_v35 main_v36 (addf : (⟨S32768x7x7x2x2, .f32⟩ : BufTy).Contents (Elt F) → (⟨S32768x7x7x2x2, .f32⟩ : BufTy).Contents (Elt F) → (⟨S32768x7x7x2x2, .f32⟩ : BufTy).Contents (Elt F)),
    binary main_v33 main_v36 main_v37 ((fun a b => concatenate S32768x7x7x2x4 4 [⟨S32768x7x7x2x2, a⟩, ⟨S32768x7x7x2x2, b⟩] concatenates_S32768x7x7x2x2_S32768x7x7x2x2_S32768x7x7x2x4_d4) : (⟨S32768x7x7x2x2, .f32⟩ : BufTy).Contents (Elt F) → (⟨S32768x7x7x2x2, .f32⟩ : BufTy).Contents (Elt F) → (⟨S32768x7x7x2x4, .f32⟩ : BufTy).Contents (Elt F)),
    unary main_v24 main_v38 ((extractStridedSlice S32768x7x7x2 ![0, 0, 0, 0] · slices_S32768x7x7x5_S32768x7x7x2_0_0_0_0) : (⟨S32768x7x7x5, .f32⟩ : BufTy).Contents (Elt F) → (⟨S32768x7x7x2, .f32⟩ : BufTy).Contents (Elt F)),
    nullary main_cst_6 (constant S_ .f32 0x42800000#32),
    unary main_cst_6 main_v39 (broadcastInDim S32768x7x7x2 ![] bcast_S_S32768x7x7x2 : (⟨S_, .f32⟩ : BufTy).Contents (Elt F) → (⟨S32768x7x7x2, .f32⟩ : BufTy).Contents (Elt F)),
    binary main_v38 main_v39 main_v40 (mulf : (⟨S32768x7x7x2, .f32⟩ : BufTy).Contents (Elt F) → (⟨S32768x7x7x2, .f32⟩ : BufTy).Contents (Elt F) → (⟨S32768x7x7x2, .f32⟩ : BufTy).Contents (Elt F)),
    unary main_v24 main_v41 ((extractStridedSlice S32768x7x7x2 ![0, 0, 0, 2] · slices_S32768x7x7x5_S32768x7x7x2_0_0_0_2) : (⟨S32768x7x7x5, .f32⟩ : BufTy).Contents (Elt F) → (⟨S32768x7x7x2, .f32⟩ : BufTy).Contents (Elt F)),
    nullary main_cst_7 (constant S_ .f32 0x43E00000#32),
    unary main_cst_7 main_v42 (broadcastInDim S32768x7x7x2 ![] bcast_S_S32768x7x7x2 : (⟨S_, .f32⟩ : BufTy).Contents (Elt F) → (⟨S32768x7x7x2, .f32⟩ : BufTy).Contents (Elt F)),
    binary main_v41 main_v42 main_v43 (mulf : (⟨S32768x7x7x2, .f32⟩ : BufTy).Contents (Elt F) → (⟨S32768x7x7x2, .f32⟩ : BufTy).Contents (Elt F) → (⟨S32768x7x7x2, .f32⟩ : BufTy).Contents (Elt F)),
    nullary main_cst_8 (constant S_ .f32 0x3F000000#32),
    unary main_cst_8 main_v44 (broadcastInDim S32768x7x7x2 ![] bcast_S_S32768x7x7x2 : (⟨S_, .f32⟩ : BufTy).Contents (Elt F) → (⟨S32768x7x7x2, .f32⟩ : BufTy).Contents (Elt F)),
    binary main_v44 main_v43 main_v45 (mulf : (⟨S32768x7x7x2, .f32⟩ : BufTy).Contents (Elt F) → (⟨S32768x7x7x2, .f32⟩ : BufTy).Contents (Elt F) → (⟨S32768x7x7x2, .f32⟩ : BufTy).Contents (Elt F)),
    binary main_v40 main_v45 main_v46 (subf : (⟨S32768x7x7x2, .f32⟩ : BufTy).Contents (Elt F) → (⟨S32768x7x7x2, .f32⟩ : BufTy).Contents (Elt F) → (⟨S32768x7x7x2, .f32⟩ : BufTy).Contents (Elt F)),
    nullary main_cst_9 (constant S_ .f32 0x3F000000#32),
    unary main_cst_9 main_v47 (broadcastInDim S32768x7x7x2 ![] bcast_S_S32768x7x7x2 : (⟨S_, .f32⟩ : BufTy).Contents (Elt F) → (⟨S32768x7x7x2, .f32⟩ : BufTy).Contents (Elt F)),
    binary main_v47 main_v43 main_v48 (mulf : (⟨S32768x7x7x2, .f32⟩ : BufTy).Contents (Elt F) → (⟨S32768x7x7x2, .f32⟩ : BufTy).Contents (Elt F) → (⟨S32768x7x7x2, .f32⟩ : BufTy).Contents (Elt F)) ]

/-- The buffers they write, in order. -/
abbrev W0 : List (Ref sig .tc) := [main_v0, main_v1, main_cst, main_v2, main_v3, main_v4, main_v5, main_v6, main_v7, main_v8, main_v9, main_v10, main_v11, main_v12, main_v13, main_v14, main_v15, main_v16, main_v17, main_cst_0, main_call0_v0, main_call0_v1, main_v18, main_cst_1, main_v19, main_v20, main_v21, main_v22, main_v23, main_v24, main_v25, main_cst_2, main_v26, main_v27, main_v28, main_cst_3, main_v29, main_v30, main_cst_4, main_v31, main_v32, main_v33, main_cst_5, main_v34, main_v35, main_v36, main_v37, main_v38, main_cst_6, main_v39, main_v40, main_v41, main_cst_7, main_v42, main_v43, main_cst_8, main_v44, main_v45, main_v46, main_cst_9, main_v47, main_v48]

/-- The operations of @main's window 1: operations 63 … 122 of the 201 (a called function's operations stand in its call's place). -/
abbrev ops1 : List (HloOp τ sig (Elt F)) :=
  [ binary main_v40 main_v48 main_v49 (addf : (⟨S32768x7x7x2, .f32⟩ : BufTy).Contents (Elt F) → (⟨S32768x7x7x2, .f32⟩ : BufTy).Contents (Elt F) → (⟨S32768x7x7x2, .f32⟩ : BufTy).Contents (Elt F)),
    binary main_v46 main_v49 main_v50 ((fun a b => concatenate S32768x7x7x4 3 [⟨S32768x7x7x2, a⟩, ⟨S32768x7x7x2, b⟩] concatenates_S32768x7x7x2_S32768x7x7x2_S32768x7x7x4_d3) : (⟨S32768x7x7x2, .f32⟩ : BufTy).Contents (Elt F) → (⟨S32768x7x7x2, .f32⟩ : BufTy).Contents (Elt F) → (⟨S32768x7x7x4, .f32⟩ : BufTy).Contents (Elt F)),
    unary main_v50 main_v51 (broadcastInDim S32768x7x7x1x4 ![0, 1, 2, 4] bcast_S32768x7x7x4_S32768x7x7x1x4_0_1_2_4 : (⟨S32768x7x7x4, .f32⟩ : BufTy).Contents (Elt F) → (⟨S32768x7x7x1x4, .f32⟩ : BufTy).Contents (Elt F)),
    unary main_v37 main_v52 ((extractStridedSlice S32768x7x7x2x2 ![0, 0, 0, 0, 0] · slices_S32768x7x7x2x4_S32768x7x7x2x2_0_0_0_0_0) : (⟨S32768x7x7x2x4, .f32⟩ : BufTy).Contents (Elt F) → (⟨S32768x7x7x2x2, .f32⟩ : BufTy).Contents (Elt F)),
    unary main_v51 main_v53 ((extractStridedSlice S32768x7x7x1x2 ![0, 0, 0, 0, 0] · slices_S32768x7x7x1x4_S32768x7x7x1x2_0_0_0_0_0) : (⟨S32768x7x7x1x4, .f32⟩ : BufTy).Contents (Elt F) → (⟨S32768x7x7x1x2, .f32⟩ : BufTy).Contents (Elt F)),
    unary main_v53 main_v54 (broadcastInDim S32768x7x7x2x2 ![0, 1, 2, 3, 4] bcast_S32768x7x7x1x2_S32768x7x7x2x2_0_1_2_3_4 : (⟨S32768x7x7x1x2, .f32⟩ : BufTy).Contents (Elt F) → (⟨S32768x7x7x2x2, .f32⟩ : BufTy).Contents (Elt F)),
    binary main_v52 main_v54 main_v55 (maximumf : (⟨S32768x7x7x2x2, .f32⟩ : BufTy).Contents (Elt F) → (⟨S32768x7x7x2x2, .f32⟩ : BufTy).Contents (Elt F) → (⟨S32768x7x7x2x2, .f32⟩ : BufTy).Contents (Elt F)),
    unary main_v37 main_v56 ((extractStridedSlice S32768x7x7x2x2 ![0, 0, 0, 0, 2] · slices_S32768x7x7x2x4_S32768x7x7x2x2_0_0_0_0_2) : (⟨S32768x7x7x2x4, .f32⟩ : BufTy).Contents (Elt F) → (⟨S32768x7x7x2x2, .f32⟩ : BufTy).Contents (Elt F)),
    unary main_v51 main_v57 ((extractStridedSlice S32768x7x7x1x2 ![0, 0, 0, 0, 2] · slices_S32768x7x7x1x4_S32768x7x7x1x2_0_0_0_0_2) : (⟨S32768x7x7x1x4, .f32⟩ : BufTy).Contents (Elt F) → (⟨S32768x7x7x1x2, .f32⟩ : BufTy).Contents (Elt F)),
    unary main_v57 main_v58 (broadcastInDim S32768x7x7x2x2 ![0, 1, 2, 3, 4] bcast_S32768x7x7x1x2_S32768x7x7x2x2_0_1_2_3_4 : (⟨S32768x7x7x1x2, .f32⟩ : BufTy).Contents (Elt F) → (⟨S32768x7x7x2x2, .f32⟩ : BufTy).Contents (Elt F)),
    binary main_v56 main_v58 main_v59 (minimumf : (⟨S32768x7x7x2x2, .f32⟩ : BufTy).Contents (Elt F) → (⟨S32768x7x7x2x2, .f32⟩ : BufTy).Contents (Elt F) → (⟨S32768x7x7x2x2, .f32⟩ : BufTy).Contents (Elt F)),
    unary main_v55 main_v60 ((extractStridedSlice S32768x7x7x2x1 ![0, 0, 0, 0, 0] · slices_S32768x7x7x2x2_S32768x7x7x2x1_0_0_0_0_0) : (⟨S32768x7x7x2x2, .f32⟩ : BufTy).Contents (Elt F) → (⟨S32768x7x7x2x1, .f32⟩ : BufTy).Contents (Elt F)),
    reshape main_v60 main_v61 rfl shapeCasts_S32768x7x7x2x1_S32768x7x7x2,
    unary main_v59 main_v62 ((extractStridedSlice S32768x7x7x2x1 ![0, 0, 0, 0, 0] · slices_S32768x7x7x2x2_S32768x7x7x2x1_0_0_0_0_0) : (⟨S32768x7x7x2x2, .f32⟩ : BufTy).Contents (Elt F) → (⟨S32768x7x7x2x1, .f32⟩ : BufTy).Contents (Elt F)),
    reshape main_v62 main_v63 rfl shapeCasts_S32768x7x7x2x1_S32768x7x7x2,
    binary main_v61 main_v63 main_v64 (cmpf .olt : (⟨S32768x7x7x2, .f32⟩ : BufTy).Contents (Elt F) → (⟨S32768x7x7x2, .f32⟩ : BufTy).Contents (Elt F) → (⟨S32768x7x7x2, .i1⟩ : BufTy).Contents (Elt F)),
    unary main_v55 main_v65 ((extractStridedSlice S32768x7x7x2x1 ![0, 0, 0, 0, 1] · slices_S32768x7x7x2x2_S32768x7x7x2x1_0_0_0_0_1) : (⟨S32768x7x7x2x2, .f32⟩ : BufTy).Contents (Elt F) → (⟨S32768x7x7x2x1, .f32⟩ : BufTy).Contents (Elt F)),
    reshape main_v65 main_v66 rfl shapeCasts_S32768x7x7x2x1_S32768x7x7x2,
    unary main_v59 main_v67 ((extractStridedSlice S32768x7x7x2x1 ![0, 0, 0, 0, 1] · slices_S32768x7x7x2x2_S32768x7x7x2x1_0_0_0_0_1) : (⟨S32768x7x7x2x2, .f32⟩ : BufTy).Contents (Elt F) → (⟨S32768x7x7x2x1, .f32⟩ : BufTy).Contents (Elt F)),
    reshape main_v67 main_v68 rfl shapeCasts_S32768x7x7x2x1_S32768x7x7x2,
    binary main_v66 main_v68 main_v69 (cmpf .olt : (⟨S32768x7x7x2, .f32⟩ : BufTy).Contents (Elt F) → (⟨S32768x7x7x2, .f32⟩ : BufTy).Contents (Elt F) → (⟨S32768x7x7x2, .i1⟩ : BufTy).Contents (Elt F)),
    binary main_v64 main_v69 main_v70 (andi : (⟨S32768x7x7x2, .i1⟩ : BufTy).Contents (Elt F) → (⟨S32768x7x7x2, .i1⟩ : BufTy).Contents (Elt F) → (⟨S32768x7x7x2, .i1⟩ : BufTy).Contents (Elt F)),
    unary main_v59 main_v71 ((extractStridedSlice S32768x7x7x2x1 ![0, 0, 0, 0, 0] · slices_S32768x7x7x2x2_S32768x7x7x2x1_0_0_0_0_0) : (⟨S32768x7x7x2x2, .f32⟩ : BufTy).Contents (Elt F) → (⟨S32768x7x7x2x1, .f32⟩ : BufTy).Contents (Elt F)),
    reshape main_v71 main_v72 rfl shapeCasts_S32768x7x7x2x1_S32768x7x7x2,
    unary main_v55 main_v73 ((extractStridedSlice S32768x7x7x2x1 ![0, 0, 0, 0, 0] · slices_S32768x7x7x2x2_S32768x7x7x2x1_0_0_0_0_0) : (⟨S32768x7x7x2x2, .f32⟩ : BufTy).Contents (Elt F) → (⟨S32768x7x7x2x1, .f32⟩ : BufTy).Contents (Elt F)),
    reshape main_v73 main_v74 rfl shapeCasts_S32768x7x7x2x1_S32768x7x7x2,
    binary main_v72 main_v74 main_v75 (subf : (⟨S32768x7x7x2, .f32⟩ : BufTy).Contents (Elt F) → (⟨S32768x7x7x2, .f32⟩ : BufTy).Contents (Elt F) → (⟨S32768x7x7x2, .f32⟩ : BufTy).Contents (Elt F)),
    unary main_v59 main_v76 ((extractStridedSlice S32768x7x7x2x1 ![0, 0, 0, 0, 1] · slices_S32768x7x7x2x2_S32768x7x7x2x1_0_0_0_0_1) : (⟨S32768x7x7x2x2, .f32⟩ : BufTy).Contents (Elt F) → (⟨S32768x7x7x2x1, .f32⟩ : BufTy).Contents (Elt F)),
    reshape main_v76 main_v77 rfl shapeCasts_S32768x7x7x2x1_S32768x7x7x2,
    unary main_v55 main_v78 ((extractStridedSlice S32768x7x7x2x1 ![0, 0, 0, 0, 1] · slices_S32768x7x7x2x2_S32768x7x7x2x1_0_0_0_0_1) : (⟨S32768x7x7x2x2, .f32⟩ : BufTy).Contents (Elt F) → (⟨S32768x7x7x2x1, .f32⟩ : BufTy).Contents (Elt F)),
    reshape main_v78 main_v79 rfl shapeCasts_S32768x7x7x2x1_S32768x7x7x2,
    binary main_v77 main_v79 main_v80 (subf : (⟨S32768x7x7x2, .f32⟩ : BufTy).Contents (Elt F) → (⟨S32768x7x7x2, .f32⟩ : BufTy).Contents (Elt F) → (⟨S32768x7x7x2, .f32⟩ : BufTy).Contents (Elt F)),
    binary main_v75 main_v80 main_v81 (mulf : (⟨S32768x7x7x2, .f32⟩ : BufTy).Contents (Elt F) → (⟨S32768x7x7x2, .f32⟩ : BufTy).Contents (Elt F) → (⟨S32768x7x7x2, .f32⟩ : BufTy).Contents (Elt F)),
    unary main_v37 main_v82 ((extractStridedSlice S32768x7x7x2x1 ![0, 0, 0, 0, 2] · slices_S32768x7x7x2x4_S32768x7x7x2x1_0_0_0_0_2) : (⟨S32768x7x7x2x4, .f32⟩ : BufTy).Contents (Elt F) → (⟨S32768x7x7x2x1, .f32⟩ : BufTy).Contents (Elt F)),
    reshape main_v82 main_v83 rfl shapeCasts_S32768x7x7x2x1_S32768x7x7x2,
    unary main_v37 main_v84 ((extractStridedSlice S32768x7x7x2x1 ![0, 0, 0, 0, 0] · slices_S32768x7x7x2x4_S32768x7x7x2x1_0_0_0_0_0) : (⟨S32768x7x7x2x4, .f32⟩ : BufTy).Contents (Elt F) → (⟨S32768x7x7x2x1, .f32⟩ : BufTy).Contents (Elt F)),
    reshape main_v84 main_v85 rfl shapeCasts_S32768x7x7x2x1_S32768x7x7x2,
    binary main_v83 main_v85 main_v86 (subf : (⟨S32768x7x7x2, .f32⟩ : BufTy).Contents (Elt F) → (⟨S32768x7x7x2, .f32⟩ : BufTy).Contents (Elt F) → (⟨S32768x7x7x2, .f32⟩ : BufTy).Contents (Elt F)),
    unary main_v37 main_v87 ((extractStridedSlice S32768x7x7x2x1 ![0, 0, 0, 0, 3] · slices_S32768x7x7x2x4_S32768x7x7x2x1_0_0_0_0_3) : (⟨S32768x7x7x2x4, .f32⟩ : BufTy).Contents (Elt F) → (⟨S32768x7x7x2x1, .f32⟩ : BufTy).Contents (Elt F)),
    reshape main_v87 main_v88 rfl shapeCasts_S32768x7x7x2x1_S32768x7x7x2,
    unary main_v37 main_v89 ((extractStridedSlice S32768x7x7x2x1 ![0, 0, 0, 0, 1] · slices_S32768x7x7x2x4_S32768x7x7x2x1_0_0_0_0_1) : (⟨S32768x7x7x2x4, .f32⟩ : BufTy).Contents (Elt F) → (⟨S32768x7x7x2x1, .f32⟩ : BufTy).Contents (Elt F)),
    reshape main_v89 main_v90 rfl shapeCasts_S32768x7x7x2x1_S32768x7x7x2,
    binary main_v88 main_v90 main_v91 (subf : (⟨S32768x7x7x2, .f32⟩ : BufTy).Contents (Elt F) → (⟨S32768x7x7x2, .f32⟩ : BufTy).Contents (Elt F) → (⟨S32768x7x7x2, .f32⟩ : BufTy).Contents (Elt F)),
    binary main_v86 main_v91 main_v92 (mulf : (⟨S32768x7x7x2, .f32⟩ : BufTy).Contents (Elt F) → (⟨S32768x7x7x2, .f32⟩ : BufTy).Contents (Elt F) → (⟨S32768x7x7x2, .f32⟩ : BufTy).Contents (Elt F)),
    unary main_v51 main_v93 ((extractStridedSlice S32768x7x7x1x1 ![0, 0, 0, 0, 2] · slices_S32768x7x7x1x4_S32768x7x7x1x1_0_0_0_0_2) : (⟨S32768x7x7x1x4, .f32⟩ : BufTy).Contents (Elt F) → (⟨S32768x7x7x1x1, .f32⟩ : BufTy).Contents (Elt F)),
    reshape main_v93 main_v94 rfl shapeCasts_S32768x7x7x1x1_S32768x7x7x1,
    unary main_v51 main_v95 ((extractStridedSlice S32768x7x7x1x1 ![0, 0, 0, 0, 0] · slices_S32768x7x7x1x4_S32768x7x7x1x1_0_0_0_0_0) : (⟨S32768x7x7x1x4, .f32⟩ : BufTy).Contents (Elt F) → (⟨S32768x7x7x1x1, .f32⟩ : BufTy).Contents (Elt F)),
    reshape main_v95 main_v96 rfl shapeCasts_S32768x7x7x1x1_S32768x7x7x1,
    binary main_v94 main_v96 main_v97 (subf : (⟨S32768x7x7x1, .f32⟩ : BufTy).Contents (Elt F) → (⟨S32768x7x7x1, .f32⟩ : BufTy).Contents (Elt F) → (⟨S32768x7x7x1, .f32⟩ : BufTy).Contents (Elt F)),
    unary main_v51 main_v98 ((extractStridedSlice S32768x7x7x1x1 ![0, 0, 0, 0, 3] · slices_S32768x7x7x1x4_S32768x7x7x1x1_0_0_0_0_3) : (⟨S32768x7x7x1x4, .f32⟩ : BufTy).Contents (Elt F) → (⟨S32768x7x7x1x1, .f32⟩ : BufTy).Contents (Elt F)),
    reshape main_v98 main_v99 rfl shapeCasts_S32768x7x7x1x1_S32768x7x7x1,
    unary main_v51 main_v100 ((extractStridedSlice S32768x7x7x1x1 ![0, 0, 0, 0, 1] · slices_S32768x7x7x1x4_S32768x7x7x1x1_0_0_0_0_1) : (⟨S32768x7x7x1x4, .f32⟩ : BufTy).Contents (Elt F) → (⟨S32768x7x7x1x1, .f32⟩ : BufTy).Contents (Elt F)),
    reshape main_v100 main_v101 rfl shapeCasts_S32768x7x7x1x1_S32768x7x7x1,
    binary main_v99 main_v101 main_v102 (subf : (⟨S32768x7x7x1, .f32⟩ : BufTy).Contents (Elt F) → (⟨S32768x7x7x1, .f32⟩ : BufTy).Contents (Elt F) → (⟨S32768x7x7x1, .f32⟩ : BufTy).Contents (Elt F)),
    binary main_v97 main_v102 main_v103 (mulf : (⟨S32768x7x7x1, .f32⟩ : BufTy).Contents (Elt F) → (⟨S32768x7x7x1, .f32⟩ : BufTy).Contents (Elt F) → (⟨S32768x7x7x1, .f32⟩ : BufTy).Contents (Elt F)),
    unary main_v103 main_v104 (broadcastInDim S32768x7x7x2 ![0, 1, 2, 3] bcast_S32768x7x7x1_S32768x7x7x2_0_1_2_3 : (⟨S32768x7x7x1, .f32⟩ : BufTy).Contents (Elt F) → (⟨S32768x7x7x2, .f32⟩ : BufTy).Contents (Elt F)),
    binary main_v92 main_v104 main_v105 (addf : (⟨S32768x7x7x2, .f32⟩ : BufTy).Contents (Elt F) → (⟨S32768x7x7x2, .f32⟩ : BufTy).Contents (Elt F) → (⟨S32768x7x7x2, .f32⟩ : BufTy).Contents (Elt F)),
    binary main_v105 main_v81 main_v106 (subf : (⟨S32768x7x7x2, .f32⟩ : BufTy).Contents (Elt F) → (⟨S32768x7x7x2, .f32⟩ : BufTy).Contents (Elt F) → (⟨S32768x7x7x2, .f32⟩ : BufTy).Contents (Elt F)),
    binary main_v81 main_v106 main_v107 (Host.divf : (⟨S32768x7x7x2, .f32⟩ : BufTy).Contents (Elt F) → (⟨S32768x7x7x2, .f32⟩ : BufTy).Contents (Elt F) → (⟨S32768x7x7x2, .f32⟩ : BufTy).Contents (Elt F)),
    nullary main_cst_10 (constant S_ .f32 0x00000000#32) ]

/-- The buffers they write, in order. -/
abbrev W1 : List (Ref sig .tc) := [main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_cst_10]

/-- The operations of @main's window 2: operations 123 … 190 of the 201 (a called function's operations stand in its call's place). -/
abbrev ops2 : List (HloOp τ sig (Elt F)) :=
  [ TRef.unary (TRef.of (T := ⟨S_, .f32⟩) main_cst_10) (TRef.of (T := ⟨S_, .f32⟩) main_call1_v0) id,
    TRef.unary (TRef.of (T := ⟨S_, .f32⟩) main_call1_v0) (TRef.of (T := ⟨S32768x7x7x2, .f32⟩) main_call1_v1) (broadcastInDim S32768x7x7x2 ![] bcast_S_S32768x7x7x2),
    TRef.ternary (TRef.of (T := ⟨S32768x7x7x2, .i1⟩) main_v70) (TRef.of (T := ⟨S32768x7x7x2, .f32⟩) main_v107) (TRef.of (T := ⟨S32768x7x7x2, .f32⟩) main_call1_v1) (TRef.of (T := ⟨S32768x7x7x2, .f32⟩) main_v108) select,
    unary main_v108 main_v109 ((extractStridedSlice S32768x7x7x1 ![0, 0, 0, 0] · slices_S32768x7x7x2_S32768x7x7x1_0_0_0_0) : (⟨S32768x7x7x2, .f32⟩ : BufTy).Contents (Elt F) → (⟨S32768x7x7x1, .f32⟩ : BufTy).Contents (Elt F)),
    reshape main_v109 main_v110 rfl shapeCasts_S32768x7x7x1_S32768x7x7,
    unary main_v108 main_v111 ((extractStridedSlice S32768x7x7x1 ![0, 0, 0, 1] · slices_S32768x7x7x2_S32768x7x7x1_0_0_0_1) : (⟨S32768x7x7x2, .f32⟩ : BufTy).Contents (Elt F) → (⟨S32768x7x7x1, .f32⟩ : BufTy).Contents (Elt F)),
    reshape main_v111 main_v112 rfl shapeCasts_S32768x7x7x1_S32768x7x7,
    binary main_v110 main_v112 main_v113 (cmpf .ogt : (⟨S32768x7x7, .f32⟩ : BufTy).Contents (Elt F) → (⟨S32768x7x7, .f32⟩ : BufTy).Contents (Elt F) → (⟨S32768x7x7, .i1⟩ : BufTy).Contents (Elt F)),
    unary main_v113 main_v114 (noti : (⟨S32768x7x7, .i1⟩ : BufTy).Contents (Elt F) → (⟨S32768x7x7, .i1⟩ : BufTy).Contents (Elt F)),
    unary main_v113 main_v115 (broadcastInDim S32768x7x7x1 ![0, 1, 2] bcast_S32768x7x7_S32768x7x7x1_0_1_2 : (⟨S32768x7x7, .i1⟩ : BufTy).Contents (Elt F) → (⟨S32768x7x7x1, .i1⟩ : BufTy).Contents (Elt F)),
    unary main_v114 main_v116 (broadcastInDim S32768x7x7x1 ![0, 1, 2] bcast_S32768x7x7_S32768x7x7x1_0_1_2 : (⟨S32768x7x7, .i1⟩ : BufTy).Contents (Elt F) → (⟨S32768x7x7x1, .i1⟩ : BufTy).Contents (Elt F)),
    binary main_v115 main_v116 main_v117 ((fun a b => concatenate S32768x7x7x2 3 [⟨S32768x7x7x1, a⟩, ⟨S32768x7x7x1, b⟩] concatenates_S32768x7x7x1_S32768x7x7x1_S32768x7x7x2_d3) : (⟨S32768x7x7x1, .i1⟩ : BufTy).Contents (Elt F) → (⟨S32768x7x7x1, .i1⟩ : BufTy).Contents (Elt F) → (⟨S32768x7x7x2, .i1⟩ : BufTy).Contents (Elt F)),
    nullary main_cst_11 (constant S_ .f32 0xFF800000#32),
    binary main_v108 main_cst_11 main_v118 ((fun x v => Host.reduce FloatOps.maximumf x v reducesTo_S32768x7x7x2_S32768x7x7_d3 h_S_) : (⟨S32768x7x7x2, .f32⟩ : BufTy).Contents (Elt F) → (⟨S_, .f32⟩ : BufTy).Contents (Elt F) → (⟨S32768x7x7, .f32⟩ : BufTy).Contents (Elt F)),
    unary main_v3 main_v119 (broadcastInDim S32768x7x7x1 ![0, 1, 2] bcast_S32768x7x7_S32768x7x7x1_0_1_2 : (⟨S32768x7x7, .i1⟩ : BufTy).Contents (Elt F) → (⟨S32768x7x7x1, .i1⟩ : BufTy).Contents (Elt F)),
    unary main_v119 main_v120 (broadcastInDim S32768x7x7x2 ![0, 1, 2, 3] bcast_S32768x7x7x1_S32768x7x7x2_0_1_2_3 : (⟨S32768x7x7x1, .i1⟩ : BufTy).Contents (Elt F) → (⟨S32768x7x7x2, .i1⟩ : BufTy).Contents (Elt F)),
    binary main_v120 main_v117 main_v121 (andi : (⟨S32768x7x7x2, .i1⟩ : BufTy).Contents (Elt F) → (⟨S32768x7x7x2, .i1⟩ : BufTy).Contents (Elt F) → (⟨S32768x7x7x2, .i1⟩ : BufTy).Contents (Elt F)),
    unary main_v3 main_v122 (broadcastInDim S32768x7x7x1 ![0, 1, 2] bcast_S32768x7x7_S32768x7x7x1_0_1_2 : (⟨S32768x7x7, .i1⟩ : BufTy).Contents (Elt F) → (⟨S32768x7x7x1, .i1⟩ : BufTy).Contents (Elt F)),
    unary main_v117 main_v123 (noti : (⟨S32768x7x7x2, .i1⟩ : BufTy).Contents (Elt F) → (⟨S32768x7x7x2, .i1⟩ : BufTy).Contents (Elt F)),
    unary main_v122 main_v124 (broadcastInDim S32768x7x7x2 ![0, 1, 2, 3] bcast_S32768x7x7x1_S32768x7x7x2_0_1_2_3 : (⟨S32768x7x7x1, .i1⟩ : BufTy).Contents (Elt F) → (⟨S32768x7x7x2, .i1⟩ : BufTy).Contents (Elt F)),
    binary main_v124 main_v123 main_v125 (andi : (⟨S32768x7x7x2, .i1⟩ : BufTy).Contents (Elt F) → (⟨S32768x7x7x2, .i1⟩ : BufTy).Contents (Elt F) → (⟨S32768x7x7x2, .i1⟩ : BufTy).Contents (Elt F)),
    unary main_v21 main_v126 ((extractStridedSlice S32768x7x7x2x1 ![0, 0, 0, 0, 4] · slices_S32768x7x7x2x5_S32768x7x7x2x1_0_0_0_0_4) : (⟨S32768x7x7x2x5, .f32⟩ : BufTy).Contents (Elt F) → (⟨S32768x7x7x2x1, .f32⟩ : BufTy).Contents (Elt F)),
    reshape main_v126 main_v127 rfl shapeCasts_S32768x7x7x2x1_S32768x7x7x2,
    unary main_v118 main_v128 (broadcastInDim S32768x7x7x1 ![0, 1, 2] bcast_S32768x7x7_S32768x7x7x1_0_1_2 : (⟨S32768x7x7, .f32⟩ : BufTy).Contents (Elt F) → (⟨S32768x7x7x1, .f32⟩ : BufTy).Contents (Elt F)),
    unary main_v128 main_v129 (broadcastInDim S32768x7x7x2 ![0, 1, 2, 3] bcast_S32768x7x7x1_S32768x7x7x2_0_1_2_3 : (⟨S32768x7x7x1, .f32⟩ : BufTy).Contents (Elt F) → (⟨S32768x7x7x2, .f32⟩ : BufTy).Contents (Elt F)),
    binary main_v127 main_v129 main_v130 (subf : (⟨S32768x7x7x2, .f32⟩ : BufTy).Contents (Elt F) → (⟨S32768x7x7x2, .f32⟩ : BufTy).Contents (Elt F) → (⟨S32768x7x7x2, .f32⟩ : BufTy).Contents (Elt F)),
    binary main_v130 main_v130 main_v131 (mulf : (⟨S32768x7x7x2, .f32⟩ : BufTy).Contents (Elt F) → (⟨S32768x7x7x2, .f32⟩ : BufTy).Contents (Elt F) → (⟨S32768x7x7x2, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S32768x7x7x2, .f32⟩) main_call2_v1) (broadcastInDim S32768x7x7x2 ![] bcast_S_S32768x7x7x2),
    TRef.ternary (TRef.of (T := ⟨S32768x7x7x2, .i1⟩) main_v121) (TRef.of (T := ⟨S32768x7x7x2, .f32⟩) main_v131) (TRef.of (T := ⟨S32768x7x7x2, .f32⟩) main_call2_v1) (TRef.of (T := ⟨S32768x7x7x2, .f32⟩) main_v132) select,
    nullary main_cst_13 (constant S_ .f32 0x00000000#32),
    binary main_v132 main_cst_13 main_v133 ((fun x v => Host.reduceAdd x v reducesTo_S32768x7x7x2_S_d0_1_2_3 h_S_) : (⟨S32768x7x7x2, .f32⟩ : BufTy).Contents (Elt F) → (⟨S_, .f32⟩ : BufTy).Contents (Elt F) → (⟨S_, .f32⟩ : BufTy).Contents (Elt F)),
    binary main_v127 main_v127 main_v134 (mulf : (⟨S32768x7x7x2, .f32⟩ : BufTy).Contents (Elt F) → (⟨S32768x7x7x2, .f32⟩ : BufTy).Contents (Elt F) → (⟨S32768x7x7x2, .f32⟩ : BufTy).Contents (Elt F)),
    nullary main_cst_14 (constant S_ .f32 0x00000000#32),
    TRef.unary (TRef.of (T := ⟨S_, .f32⟩) main_cst_14) (TRef.of (T := ⟨S_, .f32⟩) main_call3_v0) id,
    TRef.unary (TRef.of (T := ⟨S_, .f32⟩) main_call3_v0) (TRef.of (T := ⟨S32768x7x7x2, .f32⟩) main_call3_v1) (broadcastInDim S32768x7x7x2 ![] bcast_S_S32768x7x7x2),
    TRef.ternary (TRef.of (T := ⟨S32768x7x7x2, .i1⟩) main_v125) (TRef.of (T := ⟨S32768x7x7x2, .f32⟩) main_v134) (TRef.of (T := ⟨S32768x7x7x2, .f32⟩) main_call3_v1) (TRef.of (T := ⟨S32768x7x7x2, .f32⟩) main_v135) select,
    nullary main_cst_15 (constant S_ .f32 0x00000000#32),
    binary main_v135 main_cst_15 main_v136 ((fun x v => Host.reduceAdd x v reducesTo_S32768x7x7x2_S_d0_1_2_3 h_S_) : (⟨S32768x7x7x2, .f32⟩ : BufTy).Contents (Elt F) → (⟨S_, .f32⟩ : BufTy).Contents (Elt F) → (⟨S_, .f32⟩ : BufTy).Contents (Elt F)),
    unary main_v21 main_v137 ((extractStridedSlice S32768x7x7x2x2 ![0, 0, 0, 0, 0] · slices_S32768x7x7x2x5_S32768x7x7x2x2_0_0_0_0_0) : (⟨S32768x7x7x2x5, .f32⟩ : BufTy).Contents (Elt F) → (⟨S32768x7x7x2x2, .f32⟩ : BufTy).Contents (Elt F)),
    unary main_v23 main_v138 ((extractStridedSlice S32768x7x7x2x2 ![0, 0, 0, 0, 0] · slices_S32768x7x7x2x5_S32768x7x7x2x2_0_0_0_0_0) : (⟨S32768x7x7x2x5, .f32⟩ : BufTy).Contents (Elt F) → (⟨S32768x7x7x2x2, .f32⟩ : BufTy).Contents (Elt F)),
    binary main_v137 main_v138 main_v139 (subf : (⟨S32768x7x7x2x2, .f32⟩ : BufTy).Contents (Elt F) → (⟨S32768x7x7x2x2, .f32⟩ : BufTy).Contents (Elt F) → (⟨S32768x7x7x2x2, .f32⟩ : BufTy).Contents (Elt F)),
    binary main_v139 main_v139 main_v140 (mulf : (⟨S32768x7x7x2x2, .f32⟩ : BufTy).Contents (Elt F) → (⟨S32768x7x7x2x2, .f32⟩ : BufTy).Contents (Elt F) → (⟨S32768x7x7x2x2, .f32⟩ : BufTy).Contents (Elt F)),
    nullary main_cst_16 (constant S_ .f32 0x00000000#32),
    binary main_v140 main_cst_16 main_v141 ((fun x v => Host.reduceAdd x v reducesTo_S32768x7x7x2x2_S32768x7x7x2_d4 h_S_) : (⟨S32768x7x7x2x2, .f32⟩ : BufTy).Contents (Elt F) → (⟨S_, .f32⟩ : BufTy).Contents (Elt F) → (⟨S32768x7x7x2, .f32⟩ : BufTy).Contents (Elt F)),
    unary main_v21 main_v142 ((extractStridedSlice S32768x7x7x2x2 ![0, 0, 0, 0, 2] · slices_S32768x7x7x2x5_S32768x7x7x2x2_0_0_0_0_2) : (⟨S32768x7x7x2x5, .f32⟩ : BufTy).Contents (Elt F) → (⟨S32768x7x7x2x2, .f32⟩ : BufTy).Contents (Elt F)),
    unary main_v142 main_v143 (Host.sqrt : (⟨S32768x7x7x2x2, .f32⟩ : BufTy).Contents (Elt F) → (⟨S32768x7x7x2x2, .f32⟩ : BufTy).Contents (Elt F)),
    unary main_v23 main_v144 ((extractStridedSlice S32768x7x7x2x2 ![0, 0, 0, 0, 2] · slices_S32768x7x7x2x5_S32768x7x7x2x2_0_0_0_0_2) : (⟨S32768x7x7x2x5, .f32⟩ : BufTy).Contents (Elt F) → (⟨S32768x7x7x2x2, .f32⟩ : BufTy).Contents (Elt F)),
    unary main_v144 main_v145 (Host.sqrt : (⟨S32768x7x7x2x2, .f32⟩ : BufTy).Contents (Elt F) → (⟨S32768x7x7x2x2, .f32⟩ : BufTy).Contents (Elt F)),
    binary main_v143 main_v145 main_v146 (subf : (⟨S32768x7x7x2x2, .f32⟩ : BufTy).Contents (Elt F) → (⟨S32768x7x7x2x2, .f32⟩ : BufTy).Contents (Elt F) → (⟨S32768x7x7x2x2, .f32⟩ : BufTy).Contents (Elt F)),
    binary main_v146 main_v146 main_v147 (mulf : (⟨S32768x7x7x2x2, .f32⟩ : BufTy).Contents (Elt F) → (⟨S32768x7x7x2x2, .f32⟩ : BufTy).Contents (Elt F) → (⟨S32768x7x7x2x2, .f32⟩ : BufTy).Contents (Elt F)),
    nullary main_cst_17 (constant S_ .f32 0x00000000#32),
    binary main_v147 main_cst_17 main_v148 ((fun x v => Host.reduceAdd x v reducesTo_S32768x7x7x2x2_S32768x7x7x2_d4 h_S_) : (⟨S32768x7x7x2x2, .f32⟩ : BufTy).Contents (Elt F) → (⟨S_, .f32⟩ : BufTy).Contents (Elt F) → (⟨S32768x7x7x2, .f32⟩ : BufTy).Contents (Elt F)),
    binary main_v141 main_v148 main_v149 (addf : (⟨S32768x7x7x2, .f32⟩ : BufTy).Contents (Elt F) → (⟨S32768x7x7x2, .f32⟩ : BufTy).Contents (Elt F) → (⟨S32768x7x7x2, .f32⟩ : BufTy).Contents (Elt F)),
    nullary main_cst_18 (constant S_ .f32 0x00000000#32),
    TRef.unary (TRef.of (T := ⟨S_, .f32⟩) main_cst_18) (TRef.of (T := ⟨S_, .f32⟩) main_call4_v0) id,
    TRef.unary (TRef.of (T := ⟨S_, .f32⟩) main_call4_v0) (TRef.of (T := ⟨S32768x7x7x2, .f32⟩) main_call4_v1) (broadcastInDim S32768x7x7x2 ![] bcast_S_S32768x7x7x2),
    TRef.ternary (TRef.of (T := ⟨S32768x7x7x2, .i1⟩) main_v121) (TRef.of (T := ⟨S32768x7x7x2, .f32⟩) main_v149) (TRef.of (T := ⟨S32768x7x7x2, .f32⟩) main_call4_v1) (TRef.of (T := ⟨S32768x7x7x2, .f32⟩) main_v150) select,
    nullary main_cst_19 (constant S_ .f32 0x00000000#32),
    binary main_v150 main_cst_19 main_v151 ((fun x v => Host.reduceAdd x v reducesTo_S32768x7x7x2_S_d0_1_2_3 h_S_) : (⟨S32768x7x7x2, .f32⟩ : BufTy).Contents (Elt F) → (⟨S_, .f32⟩ : BufTy).Contents (Elt F) → (⟨S_, .f32⟩ : BufTy).Contents (Elt F)),
    unary main_arg0 main_v152 ((extractStridedSlice S32768x7x7x1 ![0, 0, 0, 10] · slices_S32768x7x7x11_S32768x7x7x1_0_0_0_10) : (⟨S32768x7x7x11, .f32⟩ : BufTy).Contents (Elt F) → (⟨S32768x7x7x1, .f32⟩ : BufTy).Contents (Elt F)),
    unary main_arg1 main_v153 ((extractStridedSlice S32768x7x7x1 ![0, 0, 0, 10] · slices_S32768x7x7x11_S32768x7x7x1_0_0_0_10) : (⟨S32768x7x7x11, .f32⟩ : BufTy).Contents (Elt F) → (⟨S32768x7x7x1, .f32⟩ : BufTy).Contents (Elt F)),
    binary main_v152 main_v153 main_v154 (subf : (⟨S32768x7x7x1, .f32⟩ : BufTy).Contents (Elt F) → (⟨S32768x7x7x1, .f32⟩ : BufTy).Contents (Elt F) → (⟨S32768x7x7x1, .f32⟩ : BufTy).Contents (Elt F)),
    binary main_v154 main_v154 main_v155 (mulf : (⟨S32768x7x7x1, .f32⟩ : BufTy).Contents (Elt F) → (⟨S32768x7x7x1, .f32⟩ : BufTy).Contents (Elt F) → (⟨S32768x7x7x1, .f32⟩ : BufTy).Contents (Elt F)),
    nullary main_cst_20 (constant S_ .f32 0x00000000#32),
    binary main_v155 main_cst_20 main_v156 ((fun x v => Host.reduceAdd x v reducesTo_S32768x7x7x1_S_d0_1_2_3 h_S_) : (⟨S32768x7x7x1, .f32⟩ : BufTy).Contents (Elt F) → (⟨S_, .f32⟩ : BufTy).Contents (Elt F) → (⟨S_, .f32⟩ : BufTy).Contents (Elt F)),
    nullary main_cst_21 (constant S_ .f32 0x40A00000#32) ]

/-- The buffers they write, in order. -/
abbrev W2 : List (Ref sig .tc) := [main_call1_v0, main_call1_v1, main_v108, main_v109, main_v110, main_v111, main_v112, main_v113, main_v114, main_v115, main_v116, main_v117, main_cst_11, main_v118, main_v119, main_v120, main_v121, main_v122, main_v123, main_v124, main_v125, main_v126, main_v127, main_v128, main_v129, main_v130, main_v131, main_cst_12, main_call2_v0, main_call2_v1, main_v132, main_cst_13, main_v133, main_v134, main_cst_14, main_call3_v0, main_call3_v1, main_v135, main_cst_15, main_v136, main_v137, main_v138, main_v139, main_v140, main_cst_16, main_v141, main_v142, main_v143, main_v144, main_v145, main_v146, main_v147, main_cst_17, main_v148, main_v149, main_cst_18, main_call4_v0, main_call4_v1, main_v150, main_cst_19, main_v151, main_v152, main_v153, main_v154, main_v155, main_cst_20, main_v156, main_cst_21]

/-- The operations of @main's window 3: operations 191 … 201 of the 201 (a called function's operations stand in its call's place). -/
abbrev ops3 : List (HloOp τ sig (Elt F)) :=
  [ binary main_cst_21 main_v151 main_v157 (mulf : (⟨S_, .f32⟩ : BufTy).Contents (Elt F) → (⟨S_, .f32⟩ : BufTy).Contents (Elt F) → (⟨S_, .f32⟩ : BufTy).Contents (Elt F)),
    binary main_v157 main_v133 main_v158 (addf : (⟨S_, .f32⟩ : BufTy).Contents (Elt F) → (⟨S_, .f32⟩ : BufTy).Contents (Elt F) → (⟨S_, .f32⟩ : BufTy).Contents (Elt F)),
    nullary main_cst_22 (constant S_ .f32 0x3F000000#32),
    binary main_cst_22 main_v136 main_v159 (mulf : (⟨S_, .f32⟩ : BufTy).Contents (Elt F) → (⟨S_, .f32⟩ : BufTy).Contents (Elt F) → (⟨S_, .f32⟩ : BufTy).Contents (Elt F)),
    binary main_v158 main_v159 main_v160 (addf : (⟨S_, .f32⟩ : BufTy).Contents (Elt F) → (⟨S_, .f32⟩ : BufTy).Contents (Elt F) → (⟨S_, .f32⟩ : BufTy).Contents (Elt F)),
    nullary main_cst_23 (constant S_ .f32 0x3F000000#32),
    binary main_cst_23 main_v19 main_v161 (mulf : (⟨S_, .f32⟩ : BufTy).Contents (Elt F) → (⟨S_, .f32⟩ : BufTy).Contents (Elt F) → (⟨S_, .f32⟩ : BufTy).Contents (Elt F)),
    binary main_v160 main_v161 main_v162 (addf : (⟨S_, .f32⟩ : BufTy).Contents (Elt F) → (⟨S_, .f32⟩ : BufTy).Contents (Elt F) → (⟨S_, .f32⟩ : BufTy).Contents (Elt F)),
    binary main_v162 main_v156 main_v163 (addf : (⟨S_, .f32⟩ : BufTy).Contents (Elt F) → (⟨S_, .f32⟩ : BufTy).Contents (Elt F) → (⟨S_, .f32⟩ : BufTy).Contents (Elt F)),
    nullary main_cst_24 (constant S_ .f32 0x47000000#32),
    binary main_v163 main_cst_24 main_v164 (Host.divf : (⟨S_, .f32⟩ : BufTy).Contents (Elt F) → (⟨S_, .f32⟩ : BufTy).Contents (Elt F) → (⟨S_, .f32⟩ : BufTy).Contents (Elt F)) ]

/-- The buffers they write, in order. -/
abbrev W3 : List (Ref sig .tc) := [main_v157, main_v158, main_cst_22, main_v159, main_v160, main_cst_23, main_v161, main_v162, main_v163, main_cst_24, main_v164]

/-- @main's 201 operations, in order. -/
abbrev ops : List (HloOp τ sig (Elt F)) := ops0 ++ ops1 ++ ops2 ++ ops3

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
set_option maxHeartbeats 4000000 in
theorem main_part2_eq (c : Dev nD) : main_part2 (F := F) c = seq ops2 := rfl

set_option maxRecDepth 8192 in
set_option maxHeartbeats 4000000 in
theorem main_part3_eq (c : Dev nD) : main_part3 (F := F) c = seq ops3 := rfl

set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., nullary_bufs_sub .., unary_bufs_sub .., binary_bufs_sub .., unary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., binary_bufs_sub .., binary_bufs_sub .., nullary_bufs_sub .., unary_bufs_sub .., unary_bufs_sub .., ternary_bufs_sub .., nullary_bufs_sub .., binary_bufs_sub .., unary_bufs_sub .., reshape_bufs_sub .., unary_bufs_sub .., reshape_bufs_sub .., unary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩

set_option maxRecDepth 8192 in
theorem ops1_sub : (ops1 : List (HloOp τ sig (Elt F))).Forall fun op => op.bufs ⊆ tcRefs τ sig :=
  ⟨binary_bufs_sub .., binary_bufs_sub .., unary_bufs_sub .., unary_bufs_sub .., unary_bufs_sub .., unary_bufs_sub .., binary_bufs_sub .., unary_bufs_sub .., unary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., binary_bufs_sub .., binary_bufs_sub .., binary_bufs_sub .., nullary_bufs_sub ..⟩

set_option maxRecDepth 8192 in
theorem ops2_sub : (ops2 : List (HloOp τ sig (Elt F))).Forall fun op => op.bufs ⊆ tcRefs τ sig :=
  ⟨unary_bufs_sub .., unary_bufs_sub .., ternary_bufs_sub .., unary_bufs_sub .., reshape_bufs_sub .., unary_bufs_sub .., reshape_bufs_sub .., binary_bufs_sub .., unary_bufs_sub .., unary_bufs_sub .., unary_bufs_sub .., binary_bufs_sub .., nullary_bufs_sub .., binary_bufs_sub .., unary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., binary_bufs_sub .., nullary_bufs_sub .., unary_bufs_sub .., unary_bufs_sub .., ternary_bufs_sub .., nullary_bufs_sub .., binary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub .., nullary_bufs_sub .., binary_bufs_sub .., unary_bufs_sub .., unary_bufs_sub .., unary_bufs_sub .., unary_bufs_sub .., binary_bufs_sub .., binary_bufs_sub .., nullary_bufs_sub .., binary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub .., nullary_bufs_sub .., binary_bufs_sub .., nullary_bufs_sub ..⟩

set_option maxRecDepth 8192 in
theorem ops3_sub : (ops3 : List (HloOp τ sig (Elt F))).Forall fun op => op.bufs ⊆ tcRefs τ sig :=
  ⟨binary_bufs_sub .., binary_bufs_sub .., nullary_bufs_sub .., binary_bufs_sub .., binary_bufs_sub .., nullary_bufs_sub .., binary_bufs_sub .., binary_bufs_sub .., binary_bufs_sub .., nullary_bufs_sub .., binary_bufs_sub ..⟩

theorem ops_sub : (ops : List (HloOp τ sig (Elt F))).Forall fun op => op.bufs ⊆ tcRefs τ sig :=
  List.forall_append.mpr ⟨List.forall_append.mpr ⟨List.forall_append.mpr ⟨ops0_sub, ops1_sub⟩, ops2_sub⟩, ops3_sub⟩

/-! ## Its buffers -/

set_option maxRecDepth 8192 in
theorem al0 : Aligned (ops0 (F := F)) W0 :=
  ⟨⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, trivial⟩

set_option maxRecDepth 8192 in
theorem al1 : Aligned (ops1 (F := F)) W1 :=
  ⟨⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, trivial⟩

set_option maxRecDepth 8192 in
theorem al2 : Aligned (ops2 (F := F)) W2 :=
  ⟨⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, trivial⟩

set_option maxRecDepth 8192 in
theorem al3 : Aligned (ops3 (F := F)) W3 :=
  ⟨⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, ⟨rfl, rfl⟩, trivial⟩

/-- The buffers @main's operations write, in order. -/
abbrev W : List (Ref sig .tc) := W0 ++ W1 ++ W2 ++ W3

theorem al : Aligned (ops (F := F)) W :=
  Aligned.append _ _ _ _ (Aligned.append _ _ _ _ (Aligned.append _ _ _ _ al0 al1) al2) al3

/-- The arguments are written by no operation. -/
theorem fv_main_arg0 (V : Valuation τ sig (Elt F)) : after ops V (Proc.devRef .tc main_arg0) = V (Proc.devRef .tc main_arg0) :=
  after_keep _ _ al main_arg0 (by decide) V
theorem fv_main_arg1 (V : Valuation τ sig (Elt F)) : after ops V (Proc.devRef .tc main_arg1) = V (Proc.devRef .tc main_arg1) :=
  after_keep _ _ al main_arg1 (by decide) V

/-! ## Every buffer's final contents

One lemma per operation, in program order: the buffer it writes ends at its stage value of the arguments
(the operation's place in the line, that no later operation writes its result, and that none from it on writes
an operand are read off the literal lists; the operands' final contents are the lemmas before it). -/

theorem fv_main_v0 (V : Valuation τ sig (Elt F)) :
    after ops V (Proc.devRef .tc main_v0) = Read.val_main_v0 (F := F) (V (Proc.devRef .tc main_arg1)) := by
  have h := fin_unary (x := main_arg1) (y := main_v0) al 0 rfl (by decide) (by decide) V
  rw [fv_main_arg1] at h
  exact h

theorem fv_main_v1 (V : Valuation τ sig (Elt F)) :
    after ops V (Proc.devRef .tc main_v1) = Read.val_main_v1 (F := F) (V (Proc.devRef .tc main_arg1)) := by
  have h := fin_reshape (x := main_v0) (y := main_v1) al 1 rfl (by decide) (by decide) V
  rw [fv_main_v0] at h
  exact h

theorem fv_main_cst (V : Valuation τ sig (Elt F)) :
    after ops V (Proc.devRef .tc main_cst) = Read.val_main_cst (F := F) := by
  have h := fin_nullary (y := main_cst) al 2 rfl (by decide) V
  exact h

theorem fv_main_v2 (V : Valuation τ sig (Elt F)) :
    after ops V (Proc.devRef .tc main_v2) = Read.val_main_v2 (F := F) := by
  have h := fin_unary (x := main_cst) (y := main_v2) al 3 rfl (by decide) (by decide) V
  rw [fv_main_cst] at h
  exact h

theorem fv_main_v3 (V : Valuation τ sig (Elt F)) :
    after ops V (Proc.devRef .tc main_v3) = Read.val_main_v3 (F := F) (V (Proc.devRef .tc main_arg1)) := by
  have h := fin_binary (a := main_v1) (b := main_v2) (y := main_v3) al 4 rfl (by decide) (by decide) (by decide) V
  rw [fv_main_v1, fv_main_v2] at h
  exact h

theorem fv_main_v4 (V : Valuation τ sig (Elt F)) :
    after ops V (Proc.devRef .tc main_v4) = Read.val_main_v4 (F := F) (V (Proc.devRef .tc main_arg1)) := by
  have h := fin_unary (x := main_v3) (y := main_v4) al 5 rfl (by decide) (by decide) V
  rw [fv_main_v3] at h
  exact h

theorem fv_main_v5 (V : Valuation τ sig (Elt F)) :
    after ops V (Proc.devRef .tc main_v5) = Read.val_main_v5 (F := F) (V (Proc.devRef .tc main_arg0)) := by
  have h := fin_unary (x := main_arg0) (y := main_v5) al 6 rfl (by decide) (by decide) V
  rw [fv_main_arg0] at h
  exact h

theorem fv_main_v6 (V : Valuation τ sig (Elt F)) :
    after ops V (Proc.devRef .tc main_v6) = Read.val_main_v6 (F := F) (V (Proc.devRef .tc main_arg0)) := by
  have h := fin_reshape (x := main_v5) (y := main_v6) al 7 rfl (by decide) (by decide) V
  rw [fv_main_v5] at h
  exact h

theorem fv_main_v7 (V : Valuation τ sig (Elt F)) :
    after ops V (Proc.devRef .tc main_v7) = Read.val_main_v7 (F := F) (V (Proc.devRef .tc main_arg1)) := by
  have h := fin_unary (x := main_arg1) (y := main_v7) al 8 rfl (by decide) (by decide) V
  rw [fv_main_arg1] at h
  exact h

theorem fv_main_v8 (V : Valuation τ sig (Elt F)) :
    after ops V (Proc.devRef .tc main_v8) = Read.val_main_v8 (F := F) (V (Proc.devRef .tc main_arg1)) := by
  have h := fin_reshape (x := main_v7) (y := main_v8) al 9 rfl (by decide) (by decide) V
  rw [fv_main_v7] at h
  exact h

theorem fv_main_v9 (V : Valuation τ sig (Elt F)) :
    after ops V (Proc.devRef .tc main_v9) = Read.val_main_v9 (F := F) (V (Proc.devRef .tc main_arg0)) (V (Proc.devRef .tc main_arg1)) := by
  have h := fin_binary (a := main_v6) (b := main_v8) (y := main_v9) al 10 rfl (by decide) (by decide) (by decide) V
  rw [fv_main_v6, fv_main_v8] at h
  exact h

theorem fv_main_v10 (V : Valuation τ sig (Elt F)) :
    after ops V (Proc.devRef .tc main_v10) = Read.val_main_v10 (F := F) (V (Proc.devRef .tc main_arg0)) (V (Proc.devRef .tc main_arg1)) := by
  have h := fin_binary (a := main_v9) (b := main_v9) (y := main_v10) al 11 rfl (by decide) (by decide) (by decide) V
  rw [fv_main_v9] at h
  exact h

theorem fv_main_v11 (V : Valuation τ sig (Elt F)) :
    after ops V (Proc.devRef .tc main_v11) = Read.val_main_v11 (F := F) (V (Proc.devRef .tc main_arg0)) := by
  have h := fin_unary (x := main_arg0) (y := main_v11) al 12 rfl (by decide) (by decide) V
  rw [fv_main_arg0] at h
  exact h

theorem fv_main_v12 (V : Valuation τ sig (Elt F)) :
    after ops V (Proc.devRef .tc main_v12) = Read.val_main_v12 (F := F) (V (Proc.devRef .tc main_arg0)) := by
  have h := fin_reshape (x := main_v11) (y := main_v12) al 13 rfl (by decide) (by decide) V
  rw [fv_main_v11] at h
  exact h

theorem fv_main_v13 (V : Valuation τ sig (Elt F)) :
    after ops V (Proc.devRef .tc main_v13) = Read.val_main_v13 (F := F) (V (Proc.devRef .tc main_arg1)) := by
  have h := fin_unary (x := main_arg1) (y := main_v13) al 14 rfl (by decide) (by decide) V
  rw [fv_main_arg1] at h
  exact h

theorem fv_main_v14 (V : Valuation τ sig (Elt F)) :
    after ops V (Proc.devRef .tc main_v14) = Read.val_main_v14 (F := F) (V (Proc.devRef .tc main_arg1)) := by
  have h := fin_reshape (x := main_v13) (y := main_v14) al 15 rfl (by decide) (by decide) V
  rw [fv_main_v13] at h
  exact h

theorem fv_main_v15 (V : Valuation τ sig (Elt F)) :
    after ops V (Proc.devRef .tc main_v15) = Read.val_main_v15 (F := F) (V (Proc.devRef .tc main_arg0)) (V (Proc.devRef .tc main_arg1)) := by
  have h := fin_binary (a := main_v12) (b := main_v14) (y := main_v15) al 16 rfl (by decide) (by decide) (by decide) V
  rw [fv_main_v12, fv_main_v14] at h
  exact h

theorem fv_main_v16 (V : Valuation τ sig (Elt F)) :
    after ops V (Proc.devRef .tc main_v16) = Read.val_main_v16 (F := F) (V (Proc.devRef .tc main_arg0)) (V (Proc.devRef .tc main_arg1)) := by
  have h := fin_binary (a := main_v15) (b := main_v15) (y := main_v16) al 17 rfl (by decide) (by decide) (by decide) V
  rw [fv_main_v15] at h
  exact h

theorem fv_main_v17 (V : Valuation τ sig (Elt F)) :
    after ops V (Proc.devRef .tc main_v17) = Read.val_main_v17 (F := F) (V (Proc.devRef .tc main_arg0)) (V (Proc.devRef .tc main_arg1)) := by
  have h := fin_binary (a := main_v10) (b := main_v16) (y := main_v17) al 18 rfl (by decide) (by decide) (by decide) V
  rw [fv_main_v10, fv_main_v16] at h
  exact h

theorem fv_main_cst_0 (V : Valuation τ sig (Elt F)) :
    after ops V (Proc.devRef .tc main_cst_0) = Read.val_main_cst_0 (F := F) := by
  have h := fin_nullary (y := main_cst_0) al 19 rfl (by decide) V
  exact h

theorem fv_main_call0_v0 (V : Valuation τ sig (Elt F)) :
    after ops V (Proc.devRef .tc main_call0_v0) = Read.val_main_call0_v0 (F := F) := by
  have h := fin_unary (x := main_cst_0) (y := main_call0_v0) al 20 rfl (by decide) (by decide) V
  rw [fv_main_cst_0] at h
  exact h

theorem fv_main_call0_v1 (V : Valuation τ sig (Elt F)) :
    after ops V (Proc.devRef .tc main_call0_v1) = Read.val_main_call0_v1 (F := F) := by
  have h := fin_unary (x := main_call0_v0) (y := main_call0_v1) al 21 rfl (by decide) (by decide) V
  rw [fv_main_call0_v0] at h
  exact h

theorem fv_main_v18 (V : Valuation τ sig (Elt F)) :
    after ops V (Proc.devRef .tc main_v18) = Read.val_main_v18 (F := F) (V (Proc.devRef .tc main_arg0)) (V (Proc.devRef .tc main_arg1)) := by
  have h := fin_ternary (c := main_v4) (a := main_v17) (b := main_call0_v1) (y := main_v18) al 22 rfl (by decide) (by decide) (by decide) (by decide) V
  rw [fv_main_v4, fv_main_v17, fv_main_call0_v1] at h
  exact h

theorem fv_main_cst_1 (V : Valuation τ sig (Elt F)) :
    after ops V (Proc.devRef .tc main_cst_1) = Read.val_main_cst_1 (F := F) := by
  have h := fin_nullary (y := main_cst_1) al 23 rfl (by decide) V
  exact h

theorem fv_main_v19 (V : Valuation τ sig (Elt F)) :
    after ops V (Proc.devRef .tc main_v19) = Read.val_main_v19 (F := F) (V (Proc.devRef .tc main_arg0)) (V (Proc.devRef .tc main_arg1)) := by
  have h := fin_binary (a := main_v18) (b := main_cst_1) (y := main_v19) al 24 rfl (by decide) (by decide) (by decide) V
  rw [fv_main_v18, fv_main_cst_1] at h
  exact h

theorem fv_main_v20 (V : Valuation τ sig (Elt F)) :
    after ops V (Proc.devRef .tc main_v20) = Read.val_main_v20 (F := F) (V (Proc.devRef .tc main_arg0)) := by
  have h := fin_unary (x := main_arg0) (y := main_v20) al 25 rfl (by decide) (by decide) V
  rw [fv_main_arg0] at h
  exact h

theorem fv_main_v21 (V : Valuation τ sig (Elt F)) :
    after ops V (Proc.devRef .tc main_v21) = Read.val_main_v21 (F := F) (V (Proc.devRef .tc main_arg0)) := by
  have h := fin_reshape (x := main_v20) (y := main_v21) al 26 rfl (by decide) (by decide) V
  rw [fv_main_v20] at h
  exact h

theorem fv_main_v22 (V : Valuation τ sig (Elt F)) :
    after ops V (Proc.devRef .tc main_v22) = Read.val_main_v22 (F := F) (V (Proc.devRef .tc main_arg1)) := by
  have h := fin_unary (x := main_arg1) (y := main_v22) al 27 rfl (by decide) (by decide) V
  rw [fv_main_arg1] at h
  exact h

theorem fv_main_v23 (V : Valuation τ sig (Elt F)) :
    after ops V (Proc.devRef .tc main_v23) = Read.val_main_v23 (F := F) (V (Proc.devRef .tc main_arg1)) := by
  have h := fin_reshape (x := main_v22) (y := main_v23) al 28 rfl (by decide) (by decide) V
  rw [fv_main_v22] at h
  exact h

theorem fv_main_v24 (V : Valuation τ sig (Elt F)) :
    after ops V (Proc.devRef .tc main_v24) = Read.val_main_v24 (F := F) (V (Proc.devRef .tc main_arg1)) := by
  have h := fin_unary (x := main_arg1) (y := main_v24) al 29 rfl (by decide) (by decide) V
  rw [fv_main_arg1] at h
  exact h

theorem fv_main_v25 (V : Valuation τ sig (Elt F)) :
    after ops V (Proc.devRef .tc main_v25) = Read.val_main_v25 (F := F) (V (Proc.devRef .tc main_arg0)) := by
  have h := fin_unary (x := main_v21) (y := main_v25) al 30 rfl (by decide) (by decide) V
  rw [fv_main_v21] at h
  exact h

theorem fv_main_cst_2 (V : Valuation τ sig (Elt F)) :
    after ops V (Proc.devRef .tc main_cst_2) = Read.val_main_cst_2 (F := F) := by
  have h := fin_nullary (y := main_cst_2) al 31 rfl (by decide) V
  exact h

theorem fv_main_v26 (V : Valuation τ sig (Elt F)) :
    after ops V (Proc.devRef .tc main_v26) = Read.val_main_v26 (F := F) := by
  have h := fin_unary (x := main_cst_2) (y := main_v26) al 32 rfl (by decide) (by decide) V
  rw [fv_main_cst_2] at h
  exact h

theorem fv_main_v27 (V : Valuation τ sig (Elt F)) :
    after ops V (Proc.devRef .tc main_v27) = Read.val_main_v27 (F := F) (V (Proc.devRef .tc main_arg0)) := by
  have h := fin_binary (a := main_v25) (b := main_v26) (y := main_v27) al 33 rfl (by decide) (by decide) (by decide) V
  rw [fv_main_v25, fv_main_v26] at h
  exact h

theorem fv_main_v28 (V : Valuation τ sig (Elt F)) :
    after ops V (Proc.devRef .tc main_v28) = Read.val_main_v28 (F := F) (V (Proc.devRef .tc main_arg0)) := by
  have h := fin_unary (x := main_v21) (y := main_v28) al 34 rfl (by decide) (by decide) V
  rw [fv_main_v21] at h
  exact h

theorem fv_main_cst_3 (V : Valuation τ sig (Elt F)) :
    after ops V (Proc.devRef .tc main_cst_3) = Read.val_main_cst_3 (F := F) := by
  have h := fin_nullary (y := main_cst_3) al 35 rfl (by decide) V
  exact h

theorem fv_main_v29 (V : Valuation τ sig (Elt F)) :
    after ops V (Proc.devRef .tc main_v29) = Read.val_main_v29 (F := F) := by
  have h := fin_unary (x := main_cst_3) (y := main_v29) al 36 rfl (by decide) (by decide) V
  rw [fv_main_cst_3] at h
  exact h

theorem fv_main_v30 (V : Valuation τ sig (Elt F)) :
    after ops V (Proc.devRef .tc main_v30) = Read.val_main_v30 (F := F) (V (Proc.devRef .tc main_arg0)) := by
  have h := fin_binary (a := main_v28) (b := main_v29) (y := main_v30) al 37 rfl (by decide) (by decide) (by decide) V
  rw [fv_main_v28, fv_main_v29] at h
  exact h

theorem fv_main_cst_4 (V : Valuation τ sig (Elt F)) :
    after ops V (Proc.devRef .tc main_cst_4) = Read.val_main_cst_4 (F := F) := by
  have h := fin_nullary (y := main_cst_4) al 38 rfl (by decide) V
  exact h

theorem fv_main_v31 (V : Valuation τ sig (Elt F)) :
    after ops V (Proc.devRef .tc main_v31) = Read.val_main_v31 (F := F) := by
  have h := fin_unary (x := main_cst_4) (y := main_v31) al 39 rfl (by decide) (by decide) V
  rw [fv_main_cst_4] at h
  exact h

theorem fv_main_v32 (V : Valuation τ sig (Elt F)) :
    after ops V (Proc.devRef .tc main_v32) = Read.val_main_v32 (F := F) (V (Proc.devRef .tc main_arg0)) := by
  have h := fin_binary (a := main_v31) (b := main_v30) (y := main_v32) al 40 rfl (by decide) (by decide) (by decide) V
  rw [fv_main_v31, fv_main_v30] at h
  exact h

theorem fv_main_v33 (V : Valuation τ sig (Elt F)) :
    after ops V (Proc.devRef .tc main_v33) = Read.val_main_v33 (F := F) (V (Proc.devRef .tc main_arg0)) := by
  have h := fin_binary (a := main_v27) (b := main_v32) (y := main_v33) al 41 rfl (by decide) (by decide) (by decide) V
  rw [fv_main_v27, fv_main_v32] at h
  exact h

theorem fv_main_cst_5 (V : Valuation τ sig (Elt F)) :
    after ops V (Proc.devRef .tc main_cst_5) = Read.val_main_cst_5 (F := F) := by
  have h := fin_nullary (y := main_cst_5) al 42 rfl (by decide) V
  exact h

theorem fv_main_v34 (V : Valuation τ sig (Elt F)) :
    after ops V (Proc.devRef .tc main_v34) = Read.val_main_v34 (F := F) := by
  have h := fin_unary (x := main_cst_5) (y := main_v34) al 43 rfl (by decide) (by decide) V
  rw [fv_main_cst_5] at h
  exact h

theorem fv_main_v35 (V : Valuation τ sig (Elt F)) :
    after ops V (Proc.devRef .tc main_v35) = Read.val_main_v35 (F := F) (V (Proc.devRef .tc main_arg0)) := by
  have h := fin_binary (a := main_v34) (b := main_v30) (y := main_v35) al 44 rfl (by decide) (by decide) (by decide) V
  rw [fv_main_v34, fv_main_v30] at h
  exact h

theorem fv_main_v36 (V : Valuation τ sig (Elt F)) :
    after ops V (Proc.devRef .tc main_v36) = Read.val_main_v36 (F := F) (V (Proc.devRef .tc main_arg0)) := by
  have h := fin_binary (a := main_v27) (b := main_v35) (y := main_v36) al 45 rfl (by decide) (by decide) (by decide) V
  rw [fv_main_v27, fv_main_v35] at h
  exact h

theorem fv_main_v37 (V : Valuation τ sig (Elt F)) :
    after ops V (Proc.devRef .tc main_v37) = Read.val_main_v37 (F := F) (V (Proc.devRef .tc main_arg0)) := by
  have h := fin_binary (a := main_v33) (b := main_v36) (y := main_v37) al 46 rfl (by decide) (by decide) (by decide) V
  rw [fv_main_v33, fv_main_v36] at h
  exact h

theorem fv_main_v38 (V : Valuation τ sig (Elt F)) :
    after ops V (Proc.devRef .tc main_v38) = Read.val_main_v38 (F := F) (V (Proc.devRef .tc main_arg1)) := by
  have h := fin_unary (x := main_v24) (y := main_v38) al 47 rfl (by decide) (by decide) V
  rw [fv_main_v24] at h
  exact h

theorem fv_main_cst_6 (V : Valuation τ sig (Elt F)) :
    after ops V (Proc.devRef .tc main_cst_6) = Read.val_main_cst_6 (F := F) := by
  have h := fin_nullary (y := main_cst_6) al 48 rfl (by decide) V
  exact h

theorem fv_main_v39 (V : Valuation τ sig (Elt F)) :
    after ops V (Proc.devRef .tc main_v39) = Read.val_main_v39 (F := F) := by
  have h := fin_unary (x := main_cst_6) (y := main_v39) al 49 rfl (by decide) (by decide) V
  rw [fv_main_cst_6] at h
  exact h

theorem fv_main_v40 (V : Valuation τ sig (Elt F)) :
    after ops V (Proc.devRef .tc main_v40) = Read.val_main_v40 (F := F) (V (Proc.devRef .tc main_arg1)) := by
  have h := fin_binary (a := main_v38) (b := main_v39) (y := main_v40) al 50 rfl (by decide) (by decide) (by decide) V
  rw [fv_main_v38, fv_main_v39] at h
  exact h

theorem fv_main_v41 (V : Valuation τ sig (Elt F)) :
    after ops V (Proc.devRef .tc main_v41) = Read.val_main_v41 (F := F) (V (Proc.devRef .tc main_arg1)) := by
  have h := fin_unary (x := main_v24) (y := main_v41) al 51 rfl (by decide) (by decide) V
  rw [fv_main_v24] at h
  exact h

theorem fv_main_cst_7 (V : Valuation τ sig (Elt F)) :
    after ops V (Proc.devRef .tc main_cst_7) = Read.val_main_cst_7 (F := F) := by
  have h := fin_nullary (y := main_cst_7) al 52 rfl (by decide) V
  exact h

theorem fv_main_v42 (V : Valuation τ sig (Elt F)) :
    after ops V (Proc.devRef .tc main_v42) = Read.val_main_v42 (F := F) := by
  have h := fin_unary (x := main_cst_7) (y := main_v42) al 53 rfl (by decide) (by decide) V
  rw [fv_main_cst_7] at h
  exact h

theorem fv_main_v43 (V : Valuation τ sig (Elt F)) :
    after ops V (Proc.devRef .tc main_v43) = Read.val_main_v43 (F := F) (V (Proc.devRef .tc main_arg1)) := by
  have h := fin_binary (a := main_v41) (b := main_v42) (y := main_v43) al 54 rfl (by decide) (by decide) (by decide) V
  rw [fv_main_v41, fv_main_v42] at h
  exact h

theorem fv_main_cst_8 (V : Valuation τ sig (Elt F)) :
    after ops V (Proc.devRef .tc main_cst_8) = Read.val_main_cst_8 (F := F) := by
  have h := fin_nullary (y := main_cst_8) al 55 rfl (by decide) V
  exact h

theorem fv_main_v44 (V : Valuation τ sig (Elt F)) :
    after ops V (Proc.devRef .tc main_v44) = Read.val_main_v44 (F := F) := by
  have h := fin_unary (x := main_cst_8) (y := main_v44) al 56 rfl (by decide) (by decide) V
  rw [fv_main_cst_8] at h
  exact h

theorem fv_main_v45 (V : Valuation τ sig (Elt F)) :
    after ops V (Proc.devRef .tc main_v45) = Read.val_main_v45 (F := F) (V (Proc.devRef .tc main_arg1)) := by
  have h := fin_binary (a := main_v44) (b := main_v43) (y := main_v45) al 57 rfl (by decide) (by decide) (by decide) V
  rw [fv_main_v44, fv_main_v43] at h
  exact h

theorem fv_main_v46 (V : Valuation τ sig (Elt F)) :
    after ops V (Proc.devRef .tc main_v46) = Read.val_main_v46 (F := F) (V (Proc.devRef .tc main_arg1)) := by
  have h := fin_binary (a := main_v40) (b := main_v45) (y := main_v46) al 58 rfl (by decide) (by decide) (by decide) V
  rw [fv_main_v40, fv_main_v45] at h
  exact h

theorem fv_main_cst_9 (V : Valuation τ sig (Elt F)) :
    after ops V (Proc.devRef .tc main_cst_9) = Read.val_main_cst_9 (F := F) := by
  have h := fin_nullary (y := main_cst_9) al 59 rfl (by decide) V
  exact h

theorem fv_main_v47 (V : Valuation τ sig (Elt F)) :
    after ops V (Proc.devRef .tc main_v47) = Read.val_main_v47 (F := F) := by
  have h := fin_unary (x := main_cst_9) (y := main_v47) al 60 rfl (by decide) (by decide) V
  rw [fv_main_cst_9] at h
  exact h

theorem fv_main_v48 (V : Valuation τ sig (Elt F)) :
    after ops V (Proc.devRef .tc main_v48) = Read.val_main_v48 (F := F) (V (Proc.devRef .tc main_arg1)) := by
  have h := fin_binary (a := main_v47) (b := main_v43) (y := main_v48) al 61 rfl (by decide) (by decide) (by decide) V
  rw [fv_main_v47, fv_main_v43] at h
  exact h

theorem fv_main_v49 (V : Valuation τ sig (Elt F)) :
    after ops V (Proc.devRef .tc main_v49) = Read.val_main_v49 (F := F) (V (Proc.devRef .tc main_arg1)) := by
  have h := fin_binary (a := main_v40) (b := main_v48) (y := main_v49) al 62 rfl (by decide) (by decide) (by decide) V
  rw [fv_main_v40, fv_main_v48] at h
  exact h

theorem fv_main_v50 (V : Valuation τ sig (Elt F)) :
    after ops V (Proc.devRef .tc main_v50) = Read.val_main_v50 (F := F) (V (Proc.devRef .tc main_arg1)) := by
  have h := fin_binary (a := main_v46) (b := main_v49) (y := main_v50) al 63 rfl (by decide) (by decide) (by decide) V
  rw [fv_main_v46, fv_main_v49] at h
  exact h

theorem fv_main_v51 (V : Valuation τ sig (Elt F)) :
    after ops V (Proc.devRef .tc main_v51) = Read.val_main_v51 (F := F) (V (Proc.devRef .tc main_arg1)) := by
  have h := fin_unary (x := main_v50) (y := main_v51) al 64 rfl (by decide) (by decide) V
  rw [fv_main_v50] at h
  exact h

theorem fv_main_v52 (V : Valuation τ sig (Elt F)) :
    after ops V (Proc.devRef .tc main_v52) = Read.val_main_v52 (F := F) (V (Proc.devRef .tc main_arg0)) := by
  have h := fin_unary (x := main_v37) (y := main_v52) al 65 rfl (by decide) (by decide) V
  rw [fv_main_v37] at h
  exact h

theorem fv_main_v53 (V : Valuation τ sig (Elt F)) :
    after ops V (Proc.devRef .tc main_v53) = Read.val_main_v53 (F := F) (V (Proc.devRef .tc main_arg1)) := by
  have h := fin_unary (x := main_v51) (y := main_v53) al 66 rfl (by decide) (by decide) V
  rw [fv_main_v51] at h
  exact h

theorem fv_main_v54 (V : Valuation τ sig (Elt F)) :
    after ops V (Proc.devRef .tc main_v54) = Read.val_main_v54 (F := F) (V (Proc.devRef .tc main_arg1)) := by
  have h := fin_unary (x := main_v53) (y := main_v54) al 67 rfl (by decide) (by decide) V
  rw [fv_main_v53] at h
  exact h

theorem fv_main_v55 (V : Valuation τ sig (Elt F)) :
    after ops V (Proc.devRef .tc main_v55) = Read.val_main_v55 (F := F) (V (Proc.devRef .tc main_arg0)) (V (Proc.devRef .tc main_arg1)) := by
  have h := fin_binary (a := main_v52) (b := main_v54) (y := main_v55) al 68 rfl (by decide) (by decide) (by decide) V
  rw [fv_main_v52, fv_main_v54] at h
  exact h

theorem fv_main_v56 (V : Valuation τ sig (Elt F)) :
    after ops V (Proc.devRef .tc main_v56) = Read.val_main_v56 (F := F) (V (Proc.devRef .tc main_arg0)) := by
  have h := fin_unary (x := main_v37) (y := main_v56) al 69 rfl (by decide) (by decide) V
  rw [fv_main_v37] at h
  exact h

theorem fv_main_v57 (V : Valuation τ sig (Elt F)) :
    after ops V (Proc.devRef .tc main_v57) = Read.val_main_v57 (F := F) (V (Proc.devRef .tc main_arg1)) := by
  have h := fin_unary (x := main_v51) (y := main_v57) al 70 rfl (by decide) (by decide) V
  rw [fv_main_v51] at h
  exact h

theorem fv_main_v58 (V : Valuation τ sig (Elt F)) :
    after ops V (Proc.devRef .tc main_v58) = Read.val_main_v58 (F := F) (V (Proc.devRef .tc main_arg1)) := by
  have h := fin_unary (x := main_v57) (y := main_v58) al 71 rfl (by decide) (by decide) V
  rw [fv_main_v57] at h
  exact h

theorem fv_main_v59 (V : Valuation τ sig (Elt F)) :
    after ops V (Proc.devRef .tc main_v59) = Read.val_main_v59 (F := F) (V (Proc.devRef .tc main_arg0)) (V (Proc.devRef .tc main_arg1)) := by
  have h := fin_binary (a := main_v56) (b := main_v58) (y := main_v59) al 72 rfl (by decide) (by decide) (by decide) V
  rw [fv_main_v56, fv_main_v58] at h
  exact h

theorem fv_main_v60 (V : Valuation τ sig (Elt F)) :
    after ops V (Proc.devRef .tc main_v60) = Read.val_main_v60 (F := F) (V (Proc.devRef .tc main_arg0)) (V (Proc.devRef .tc main_arg1)) := by
  have h := fin_unary (x := main_v55) (y := main_v60) al 73 rfl (by decide) (by decide) V
  rw [fv_main_v55] at h
  exact h

theorem fv_main_v61 (V : Valuation τ sig (Elt F)) :
    after ops V (Proc.devRef .tc main_v61) = Read.val_main_v61 (F := F) (V (Proc.devRef .tc main_arg0)) (V (Proc.devRef .tc main_arg1)) := by
  have h := fin_reshape (x := main_v60) (y := main_v61) al 74 rfl (by decide) (by decide) V
  rw [fv_main_v60] at h
  exact h

theorem fv_main_v62 (V : Valuation τ sig (Elt F)) :
    after ops V (Proc.devRef .tc main_v62) = Read.val_main_v62 (F := F) (V (Proc.devRef .tc main_arg0)) (V (Proc.devRef .tc main_arg1)) := by
  have h := fin_unary (x := main_v59) (y := main_v62) al 75 rfl (by decide) (by decide) V
  rw [fv_main_v59] at h
  exact h

theorem fv_main_v63 (V : Valuation τ sig (Elt F)) :
    after ops V (Proc.devRef .tc main_v63) = Read.val_main_v63 (F := F) (V (Proc.devRef .tc main_arg0)) (V (Proc.devRef .tc main_arg1)) := by
  have h := fin_reshape (x := main_v62) (y := main_v63) al 76 rfl (by decide) (by decide) V
  rw [fv_main_v62] at h
  exact h

theorem fv_main_v64 (V : Valuation τ sig (Elt F)) :
    after ops V (Proc.devRef .tc main_v64) = Read.val_main_v64 (F := F) (V (Proc.devRef .tc main_arg0)) (V (Proc.devRef .tc main_arg1)) := by
  have h := fin_binary (a := main_v61) (b := main_v63) (y := main_v64) al 77 rfl (by decide) (by decide) (by decide) V
  rw [fv_main_v61, fv_main_v63] at h
  exact h

theorem fv_main_v65 (V : Valuation τ sig (Elt F)) :
    after ops V (Proc.devRef .tc main_v65) = Read.val_main_v65 (F := F) (V (Proc.devRef .tc main_arg0)) (V (Proc.devRef .tc main_arg1)) := by
  have h := fin_unary (x := main_v55) (y := main_v65) al 78 rfl (by decide) (by decide) V
  rw [fv_main_v55] at h
  exact h

theorem fv_main_v66 (V : Valuation τ sig (Elt F)) :
    after ops V (Proc.devRef .tc main_v66) = Read.val_main_v66 (F := F) (V (Proc.devRef .tc main_arg0)) (V (Proc.devRef .tc main_arg1)) := by
  have h := fin_reshape (x := main_v65) (y := main_v66) al 79 rfl (by decide) (by decide) V
  rw [fv_main_v65] at h
  exact h

theorem fv_main_v67 (V : Valuation τ sig (Elt F)) :
    after ops V (Proc.devRef .tc main_v67) = Read.val_main_v67 (F := F) (V (Proc.devRef .tc main_arg0)) (V (Proc.devRef .tc main_arg1)) := by
  have h := fin_unary (x := main_v59) (y := main_v67) al 80 rfl (by decide) (by decide) V
  rw [fv_main_v59] at h
  exact h

theorem fv_main_v68 (V : Valuation τ sig (Elt F)) :
    after ops V (Proc.devRef .tc main_v68) = Read.val_main_v68 (F := F) (V (Proc.devRef .tc main_arg0)) (V (Proc.devRef .tc main_arg1)) := by
  have h := fin_reshape (x := main_v67) (y := main_v68) al 81 rfl (by decide) (by decide) V
  rw [fv_main_v67] at h
  exact h

theorem fv_main_v69 (V : Valuation τ sig (Elt F)) :
    after ops V (Proc.devRef .tc main_v69) = Read.val_main_v69 (F := F) (V (Proc.devRef .tc main_arg0)) (V (Proc.devRef .tc main_arg1)) := by
  have h := fin_binary (a := main_v66) (b := main_v68) (y := main_v69) al 82 rfl (by decide) (by decide) (by decide) V
  rw [fv_main_v66, fv_main_v68] at h
  exact h

theorem fv_main_v70 (V : Valuation τ sig (Elt F)) :
    after ops V (Proc.devRef .tc main_v70) = Read.val_main_v70 (F := F) (V (Proc.devRef .tc main_arg0)) (V (Proc.devRef .tc main_arg1)) := by
  have h := fin_binary (a := main_v64) (b := main_v69) (y := main_v70) al 83 rfl (by decide) (by decide) (by decide) V
  rw [fv_main_v64, fv_main_v69] at h
  exact h

theorem fv_main_v71 (V : Valuation τ sig (Elt F)) :
    after ops V (Proc.devRef .tc main_v71) = Read.val_main_v71 (F := F) (V (Proc.devRef .tc main_arg0)) (V (Proc.devRef .tc main_arg1)) := by
  have h := fin_unary (x := main_v59) (y := main_v71) al 84 rfl (by decide) (by decide) V
  rw [fv_main_v59] at h
  exact h

theorem fv_main_v72 (V : Valuation τ sig (Elt F)) :
    after ops V (Proc.devRef .tc main_v72) = Read.val_main_v72 (F := F) (V (Proc.devRef .tc main_arg0)) (V (Proc.devRef .tc main_arg1)) := by
  have h := fin_reshape (x := main_v71) (y := main_v72) al 85 rfl (by decide) (by decide) V
  rw [fv_main_v71] at h
  exact h

theorem fv_main_v73 (V : Valuation τ sig (Elt F)) :
    after ops V (Proc.devRef .tc main_v73) = Read.val_main_v73 (F := F) (V (Proc.devRef .tc main_arg0)) (V (Proc.devRef .tc main_arg1)) := by
  have h := fin_unary (x := main_v55) (y := main_v73) al 86 rfl (by decide) (by decide) V
  rw [fv_main_v55] at h
  exact h

theorem fv_main_v74 (V : Valuation τ sig (Elt F)) :
    after ops V (Proc.devRef .tc main_v74) = Read.val_main_v74 (F := F) (V (Proc.devRef .tc main_arg0)) (V (Proc.devRef .tc main_arg1)) := by
  have h := fin_reshape (x := main_v73) (y := main_v74) al 87 rfl (by decide) (by decide) V
  rw [fv_main_v73] at h
  exact h

theorem fv_main_v75 (V : Valuation τ sig (Elt F)) :
    after ops V (Proc.devRef .tc main_v75) = Read.val_main_v75 (F := F) (V (Proc.devRef .tc main_arg0)) (V (Proc.devRef .tc main_arg1)) := by
  have h := fin_binary (a := main_v72) (b := main_v74) (y := main_v75) al 88 rfl (by decide) (by decide) (by decide) V
  rw [fv_main_v72, fv_main_v74] at h
  exact h

theorem fv_main_v76 (V : Valuation τ sig (Elt F)) :
    after ops V (Proc.devRef .tc main_v76) = Read.val_main_v76 (F := F) (V (Proc.devRef .tc main_arg0)) (V (Proc.devRef .tc main_arg1)) := by
  have h := fin_unary (x := main_v59) (y := main_v76) al 89 rfl (by decide) (by decide) V
  rw [fv_main_v59] at h
  exact h

theorem fv_main_v77 (V : Valuation τ sig (Elt F)) :
    after ops V (Proc.devRef .tc main_v77) = Read.val_main_v77 (F := F) (V (Proc.devRef .tc main_arg0)) (V (Proc.devRef .tc main_arg1)) := by
  have h := fin_reshape (x := main_v76) (y := main_v77) al 90 rfl (by decide) (by decide) V
  rw [fv_main_v76] at h
  exact h

theorem fv_main_v78 (V : Valuation τ sig (Elt F)) :
    after ops V (Proc.devRef .tc main_v78) = Read.val_main_v78 (F := F) (V (Proc.devRef .tc main_arg0)) (V (Proc.devRef .tc main_arg1)) := by
  have h := fin_unary (x := main_v55) (y := main_v78) al 91 rfl (by decide) (by decide) V
  rw [fv_main_v55] at h
  exact h

theorem fv_main_v79 (V : Valuation τ sig (Elt F)) :
    after ops V (Proc.devRef .tc main_v79) = Read.val_main_v79 (F := F) (V (Proc.devRef .tc main_arg0)) (V (Proc.devRef .tc main_arg1)) := by
  have h := fin_reshape (x := main_v78) (y := main_v79) al 92 rfl (by decide) (by decide) V
  rw [fv_main_v78] at h
  exact h

theorem fv_main_v80 (V : Valuation τ sig (Elt F)) :
    after ops V (Proc.devRef .tc main_v80) = Read.val_main_v80 (F := F) (V (Proc.devRef .tc main_arg0)) (V (Proc.devRef .tc main_arg1)) := by
  have h := fin_binary (a := main_v77) (b := main_v79) (y := main_v80) al 93 rfl (by decide) (by decide) (by decide) V
  rw [fv_main_v77, fv_main_v79] at h
  exact h

theorem fv_main_v81 (V : Valuation τ sig (Elt F)) :
    after ops V (Proc.devRef .tc main_v81) = Read.val_main_v81 (F := F) (V (Proc.devRef .tc main_arg0)) (V (Proc.devRef .tc main_arg1)) := by
  have h := fin_binary (a := main_v75) (b := main_v80) (y := main_v81) al 94 rfl (by decide) (by decide) (by decide) V
  rw [fv_main_v75, fv_main_v80] at h
  exact h

theorem fv_main_v82 (V : Valuation τ sig (Elt F)) :
    after ops V (Proc.devRef .tc main_v82) = Read.val_main_v82 (F := F) (V (Proc.devRef .tc main_arg0)) := by
  have h := fin_unary (x := main_v37) (y := main_v82) al 95 rfl (by decide) (by decide) V
  rw [fv_main_v37] at h
  exact h

theorem fv_main_v83 (V : Valuation τ sig (Elt F)) :
    after ops V (Proc.devRef .tc main_v83) = Read.val_main_v83 (F := F) (V (Proc.devRef .tc main_arg0)) := by
  have h := fin_reshape (x := main_v82) (y := main_v83) al 96 rfl (by decide) (by decide) V
  rw [fv_main_v82] at h
  exact h

theorem fv_main_v84 (V : Valuation τ sig (Elt F)) :
    after ops V (Proc.devRef .tc main_v84) = Read.val_main_v84 (F := F) (V (Proc.devRef .tc main_arg0)) := by
  have h := fin_unary (x := main_v37) (y := main_v84) al 97 rfl (by decide) (by decide) V
  rw [fv_main_v37] at h
  exact h

theorem fv_main_v85 (V : Valuation τ sig (Elt F)) :
    after ops V (Proc.devRef .tc main_v85) = Read.val_main_v85 (F := F) (V (Proc.devRef .tc main_arg0)) := by
  have h := fin_reshape (x := main_v84) (y := main_v85) al 98 rfl (by decide) (by decide) V
  rw [fv_main_v84] at h
  exact h

theorem fv_main_v86 (V : Valuation τ sig (Elt F)) :
    after ops V (Proc.devRef .tc main_v86) = Read.val_main_v86 (F := F) (V (Proc.devRef .tc main_arg0)) := by
  have h := fin_binary (a := main_v83) (b := main_v85) (y := main_v86) al 99 rfl (by decide) (by decide) (by decide) V
  rw [fv_main_v83, fv_main_v85] at h
  exact h

theorem fv_main_v87 (V : Valuation τ sig (Elt F)) :
    after ops V (Proc.devRef .tc main_v87) = Read.val_main_v87 (F := F) (V (Proc.devRef .tc main_arg0)) := by
  have h := fin_unary (x := main_v37) (y := main_v87) al 100 rfl (by decide) (by decide) V
  rw [fv_main_v37] at h
  exact h

theorem fv_main_v88 (V : Valuation τ sig (Elt F)) :
    after ops V (Proc.devRef .tc main_v88) = Read.val_main_v88 (F := F) (V (Proc.devRef .tc main_arg0)) := by
  have h := fin_reshape (x := main_v87) (y := main_v88) al 101 rfl (by decide) (by decide) V
  rw [fv_main_v87] at h
  exact h

theorem fv_main_v89 (V : Valuation τ sig (Elt F)) :
    after ops V (Proc.devRef .tc main_v89) = Read.val_main_v89 (F := F) (V (Proc.devRef .tc main_arg0)) := by
  have h := fin_unary (x := main_v37) (y := main_v89) al 102 rfl (by decide) (by decide) V
  rw [fv_main_v37] at h
  exact h

theorem fv_main_v90 (V : Valuation τ sig (Elt F)) :
    after ops V (Proc.devRef .tc main_v90) = Read.val_main_v90 (F := F) (V (Proc.devRef .tc main_arg0)) := by
  have h := fin_reshape (x := main_v89) (y := main_v90) al 103 rfl (by decide) (by decide) V
  rw [fv_main_v89] at h
  exact h

theorem fv_main_v91 (V : Valuation τ sig (Elt F)) :
    after ops V (Proc.devRef .tc main_v91) = Read.val_main_v91 (F := F) (V (Proc.devRef .tc main_arg0)) := by
  have h := fin_binary (a := main_v88) (b := main_v90) (y := main_v91) al 104 rfl (by decide) (by decide) (by decide) V
  rw [fv_main_v88, fv_main_v90] at h
  exact h

theorem fv_main_v92 (V : Valuation τ sig (Elt F)) :
    after ops V (Proc.devRef .tc main_v92) = Read.val_main_v92 (F := F) (V (Proc.devRef .tc main_arg0)) := by
  have h := fin_binary (a := main_v86) (b := main_v91) (y := main_v92) al 105 rfl (by decide) (by decide) (by decide) V
  rw [fv_main_v86, fv_main_v91] at h
  exact h

theorem fv_main_v93 (V : Valuation τ sig (Elt F)) :
    after ops V (Proc.devRef .tc main_v93) = Read.val_main_v93 (F := F) (V (Proc.devRef .tc main_arg1)) := by
  have h := fin_unary (x := main_v51) (y := main_v93) al 106 rfl (by decide) (by decide) V
  rw [fv_main_v51] at h
  exact h

theorem fv_main_v94 (V : Valuation τ sig (Elt F)) :
    after ops V (Proc.devRef .tc main_v94) = Read.val_main_v94 (F := F) (V (Proc.devRef .tc main_arg1)) := by
  have h := fin_reshape (x := main_v93) (y := main_v94) al 107 rfl (by decide) (by decide) V
  rw [fv_main_v93] at h
  exact h

theorem fv_main_v95 (V : Valuation τ sig (Elt F)) :
    after ops V (Proc.devRef .tc main_v95) = Read.val_main_v95 (F := F) (V (Proc.devRef .tc main_arg1)) := by
  have h := fin_unary (x := main_v51) (y := main_v95) al 108 rfl (by decide) (by decide) V
  rw [fv_main_v51] at h
  exact h

theorem fv_main_v96 (V : Valuation τ sig (Elt F)) :
    after ops V (Proc.devRef .tc main_v96) = Read.val_main_v96 (F := F) (V (Proc.devRef .tc main_arg1)) := by
  have h := fin_reshape (x := main_v95) (y := main_v96) al 109 rfl (by decide) (by decide) V
  rw [fv_main_v95] at h
  exact h

theorem fv_main_v97 (V : Valuation τ sig (Elt F)) :
    after ops V (Proc.devRef .tc main_v97) = Read.val_main_v97 (F := F) (V (Proc.devRef .tc main_arg1)) := by
  have h := fin_binary (a := main_v94) (b := main_v96) (y := main_v97) al 110 rfl (by decide) (by decide) (by decide) V
  rw [fv_main_v94, fv_main_v96] at h
  exact h

theorem fv_main_v98 (V : Valuation τ sig (Elt F)) :
    after ops V (Proc.devRef .tc main_v98) = Read.val_main_v98 (F := F) (V (Proc.devRef .tc main_arg1)) := by
  have h := fin_unary (x := main_v51) (y := main_v98) al 111 rfl (by decide) (by decide) V
  rw [fv_main_v51] at h
  exact h

theorem fv_main_v99 (V : Valuation τ sig (Elt F)) :
    after ops V (Proc.devRef .tc main_v99) = Read.val_main_v99 (F := F) (V (Proc.devRef .tc main_arg1)) := by
  have h := fin_reshape (x := main_v98) (y := main_v99) al 112 rfl (by decide) (by decide) V
  rw [fv_main_v98] at h
  exact h

theorem fv_main_v100 (V : Valuation τ sig (Elt F)) :
    after ops V (Proc.devRef .tc main_v100) = Read.val_main_v100 (F := F) (V (Proc.devRef .tc main_arg1)) := by
  have h := fin_unary (x := main_v51) (y := main_v100) al 113 rfl (by decide) (by decide) V
  rw [fv_main_v51] at h
  exact h

theorem fv_main_v101 (V : Valuation τ sig (Elt F)) :
    after ops V (Proc.devRef .tc main_v101) = Read.val_main_v101 (F := F) (V (Proc.devRef .tc main_arg1)) := by
  have h := fin_reshape (x := main_v100) (y := main_v101) al 114 rfl (by decide) (by decide) V
  rw [fv_main_v100] at h
  exact h

theorem fv_main_v102 (V : Valuation τ sig (Elt F)) :
    after ops V (Proc.devRef .tc main_v102) = Read.val_main_v102 (F := F) (V (Proc.devRef .tc main_arg1)) := by
  have h := fin_binary (a := main_v99) (b := main_v101) (y := main_v102) al 115 rfl (by decide) (by decide) (by decide) V
  rw [fv_main_v99, fv_main_v101] at h
  exact h

theorem fv_main_v103 (V : Valuation τ sig (Elt F)) :
    after ops V (Proc.devRef .tc main_v103) = Read.val_main_v103 (F := F) (V (Proc.devRef .tc main_arg1)) := by
  have h := fin_binary (a := main_v97) (b := main_v102) (y := main_v103) al 116 rfl (by decide) (by decide) (by decide) V
  rw [fv_main_v97, fv_main_v102] at h
  exact h

theorem fv_main_v104 (V : Valuation τ sig (Elt F)) :
    after ops V (Proc.devRef .tc main_v104) = Read.val_main_v104 (F := F) (V (Proc.devRef .tc main_arg1)) := by
  have h := fin_unary (x := main_v103) (y := main_v104) al 117 rfl (by decide) (by decide) V
  rw [fv_main_v103] at h
  exact h

theorem fv_main_v105 (V : Valuation τ sig (Elt F)) :
    after ops V (Proc.devRef .tc main_v105) = Read.val_main_v105 (F := F) (V (Proc.devRef .tc main_arg0)) (V (Proc.devRef .tc main_arg1)) := by
  have h := fin_binary (a := main_v92) (b := main_v104) (y := main_v105) al 118 rfl (by decide) (by decide) (by decide) V
  rw [fv_main_v92, fv_main_v104] at h
  exact h

theorem fv_main_v106 (V : Valuation τ sig (Elt F)) :
    after ops V (Proc.devRef .tc main_v106) = Read.val_main_v106 (F := F) (V (Proc.devRef .tc main_arg0)) (V (Proc.devRef .tc main_arg1)) := by
  have h := fin_binary (a := main_v105) (b := main_v81) (y := main_v106) al 119 rfl (by decide) (by decide) (by decide) V
  rw [fv_main_v105, fv_main_v81] at h
  exact h

theorem fv_main_v107 (V : Valuation τ sig (Elt F)) :
    after ops V (Proc.devRef .tc main_v107) = Read.val_main_v107 (F := F) (V (Proc.devRef .tc main_arg0)) (V (Proc.devRef .tc main_arg1)) := by
  have h := fin_binary (a := main_v81) (b := main_v106) (y := main_v107) al 120 rfl (by decide) (by decide) (by decide) V
  rw [fv_main_v81, fv_main_v106] at h
  exact h

theorem fv_main_cst_10 (V : Valuation τ sig (Elt F)) :
    after ops V (Proc.devRef .tc main_cst_10) = Read.val_main_cst_10 (F := F) := by
  have h := fin_nullary (y := main_cst_10) al 121 rfl (by decide) V
  exact h

theorem fv_main_call1_v0 (V : Valuation τ sig (Elt F)) :
    after ops V (Proc.devRef .tc main_call1_v0) = Read.val_main_call1_v0 (F := F) := by
  have h := fin_unary (x := main_cst_10) (y := main_call1_v0) al 122 rfl (by decide) (by decide) V
  rw [fv_main_cst_10] at h
  exact h

theorem fv_main_call1_v1 (V : Valuation τ sig (Elt F)) :
    after ops V (Proc.devRef .tc main_call1_v1) = Read.val_main_call1_v1 (F := F) := by
  have h := fin_unary (x := main_call1_v0) (y := main_call1_v1) al 123 rfl (by decide) (by decide) V
  rw [fv_main_call1_v0] at h
  exact h

theorem fv_main_v108 (V : Valuation τ sig (Elt F)) :
    after ops V (Proc.devRef .tc main_v108) = Read.val_main_v108 (F := F) (V (Proc.devRef .tc main_arg0)) (V (Proc.devRef .tc main_arg1)) := by
  have h := fin_ternary (c := main_v70) (a := main_v107) (b := main_call1_v1) (y := main_v108) al 124 rfl (by decide) (by decide) (by decide) (by decide) V
  rw [fv_main_v70, fv_main_v107, fv_main_call1_v1] at h
  exact h

theorem fv_main_v109 (V : Valuation τ sig (Elt F)) :
    after ops V (Proc.devRef .tc main_v109) = Read.val_main_v109 (F := F) (V (Proc.devRef .tc main_arg0)) (V (Proc.devRef .tc main_arg1)) := by
  have h := fin_unary (x := main_v108) (y := main_v109) al 125 rfl (by decide) (by decide) V
  rw [fv_main_v108] at h
  exact h

theorem fv_main_v110 (V : Valuation τ sig (Elt F)) :
    after ops V (Proc.devRef .tc main_v110) = Read.val_main_v110 (F := F) (V (Proc.devRef .tc main_arg0)) (V (Proc.devRef .tc main_arg1)) := by
  have h := fin_reshape (x := main_v109) (y := main_v110) al 126 rfl (by decide) (by decide) V
  rw [fv_main_v109] at h
  exact h

theorem fv_main_v111 (V : Valuation τ sig (Elt F)) :
    after ops V (Proc.devRef .tc main_v111) = Read.val_main_v111 (F := F) (V (Proc.devRef .tc main_arg0)) (V (Proc.devRef .tc main_arg1)) := by
  have h := fin_unary (x := main_v108) (y := main_v111) al 127 rfl (by decide) (by decide) V
  rw [fv_main_v108] at h
  exact h

theorem fv_main_v112 (V : Valuation τ sig (Elt F)) :
    after ops V (Proc.devRef .tc main_v112) = Read.val_main_v112 (F := F) (V (Proc.devRef .tc main_arg0)) (V (Proc.devRef .tc main_arg1)) := by
  have h := fin_reshape (x := main_v111) (y := main_v112) al 128 rfl (by decide) (by decide) V
  rw [fv_main_v111] at h
  exact h

theorem fv_main_v113 (V : Valuation τ sig (Elt F)) :
    after ops V (Proc.devRef .tc main_v113) = Read.val_main_v113 (F := F) (V (Proc.devRef .tc main_arg0)) (V (Proc.devRef .tc main_arg1)) := by
  have h := fin_binary (a := main_v110) (b := main_v112) (y := main_v113) al 129 rfl (by decide) (by decide) (by decide) V
  rw [fv_main_v110, fv_main_v112] at h
  exact h

theorem fv_main_v114 (V : Valuation τ sig (Elt F)) :
    after ops V (Proc.devRef .tc main_v114) = Read.val_main_v114 (F := F) (V (Proc.devRef .tc main_arg0)) (V (Proc.devRef .tc main_arg1)) := by
  have h := fin_unary (x := main_v113) (y := main_v114) al 130 rfl (by decide) (by decide) V
  rw [fv_main_v113] at h
  exact h

theorem fv_main_v115 (V : Valuation τ sig (Elt F)) :
    after ops V (Proc.devRef .tc main_v115) = Read.val_main_v115 (F := F) (V (Proc.devRef .tc main_arg0)) (V (Proc.devRef .tc main_arg1)) := by
  have h := fin_unary (x := main_v113) (y := main_v115) al 131 rfl (by decide) (by decide) V
  rw [fv_main_v113] at h
  exact h

theorem fv_main_v116 (V : Valuation τ sig (Elt F)) :
    after ops V (Proc.devRef .tc main_v116) = Read.val_main_v116 (F := F) (V (Proc.devRef .tc main_arg0)) (V (Proc.devRef .tc main_arg1)) := by
  have h := fin_unary (x := main_v114) (y := main_v116) al 132 rfl (by decide) (by decide) V
  rw [fv_main_v114] at h
  exact h

theorem fv_main_v117 (V : Valuation τ sig (Elt F)) :
    after ops V (Proc.devRef .tc main_v117) = Read.val_main_v117 (F := F) (V (Proc.devRef .tc main_arg0)) (V (Proc.devRef .tc main_arg1)) := by
  have h := fin_binary (a := main_v115) (b := main_v116) (y := main_v117) al 133 rfl (by decide) (by decide) (by decide) V
  rw [fv_main_v115, fv_main_v116] at h
  exact h

theorem fv_main_cst_11 (V : Valuation τ sig (Elt F)) :
    after ops V (Proc.devRef .tc main_cst_11) = Read.val_main_cst_11 (F := F) := by
  have h := fin_nullary (y := main_cst_11) al 134 rfl (by decide) V
  exact h

theorem fv_main_v118 (V : Valuation τ sig (Elt F)) :
    after ops V (Proc.devRef .tc main_v118) = Read.val_main_v118 (F := F) (V (Proc.devRef .tc main_arg0)) (V (Proc.devRef .tc main_arg1)) := by
  have h := fin_binary (a := main_v108) (b := main_cst_11) (y := main_v118) al 135 rfl (by decide) (by decide) (by decide) V
  rw [fv_main_v108, fv_main_cst_11] at h
  exact h

theorem fv_main_v119 (V : Valuation τ sig (Elt F)) :
    after ops V (Proc.devRef .tc main_v119) = Read.val_main_v119 (F := F) (V (Proc.devRef .tc main_arg1)) := by
  have h := fin_unary (x := main_v3) (y := main_v119) al 136 rfl (by decide) (by decide) V
  rw [fv_main_v3] at h
  exact h

theorem fv_main_v120 (V : Valuation τ sig (Elt F)) :
    after ops V (Proc.devRef .tc main_v120) = Read.val_main_v120 (F := F) (V (Proc.devRef .tc main_arg1)) := by
  have h := fin_unary (x := main_v119) (y := main_v120) al 137 rfl (by decide) (by decide) V
  rw [fv_main_v119] at h
  exact h

theorem fv_main_v121 (V : Valuation τ sig (Elt F)) :
    after ops V (Proc.devRef .tc main_v121) = Read.val_main_v121 (F := F) (V (Proc.devRef .tc main_arg0)) (V (Proc.devRef .tc main_arg1)) := by
  have h := fin_binary (a := main_v120) (b := main_v117) (y := main_v121) al 138 rfl (by decide) (by decide) (by decide) V
  rw [fv_main_v120, fv_main_v117] at h
  exact h

theorem fv_main_v122 (V : Valuation τ sig (Elt F)) :
    after ops V (Proc.devRef .tc main_v122) = Read.val_main_v122 (F := F) (V (Proc.devRef .tc main_arg1)) := by
  have h := fin_unary (x := main_v3) (y := main_v122) al 139 rfl (by decide) (by decide) V
  rw [fv_main_v3] at h
  exact h

theorem fv_main_v123 (V : Valuation τ sig (Elt F)) :
    after ops V (Proc.devRef .tc main_v123) = Read.val_main_v123 (F := F) (V (Proc.devRef .tc main_arg0)) (V (Proc.devRef .tc main_arg1)) := by
  have h := fin_unary (x := main_v117) (y := main_v123) al 140 rfl (by decide) (by decide) V
  rw [fv_main_v117] at h
  exact h

theorem fv_main_v124 (V : Valuation τ sig (Elt F)) :
    after ops V (Proc.devRef .tc main_v124) = Read.val_main_v124 (F := F) (V (Proc.devRef .tc main_arg1)) := by
  have h := fin_unary (x := main_v122) (y := main_v124) al 141 rfl (by decide) (by decide) V
  rw [fv_main_v122] at h
  exact h

theorem fv_main_v125 (V : Valuation τ sig (Elt F)) :
    after ops V (Proc.devRef .tc main_v125) = Read.val_main_v125 (F := F) (V (Proc.devRef .tc main_arg0)) (V (Proc.devRef .tc main_arg1)) := by
  have h := fin_binary (a := main_v124) (b := main_v123) (y := main_v125) al 142 rfl (by decide) (by decide) (by decide) V
  rw [fv_main_v124, fv_main_v123] at h
  exact h

theorem fv_main_v126 (V : Valuation τ sig (Elt F)) :
    after ops V (Proc.devRef .tc main_v126) = Read.val_main_v126 (F := F) (V (Proc.devRef .tc main_arg0)) := by
  have h := fin_unary (x := main_v21) (y := main_v126) al 143 rfl (by decide) (by decide) V
  rw [fv_main_v21] at h
  exact h

theorem fv_main_v127 (V : Valuation τ sig (Elt F)) :
    after ops V (Proc.devRef .tc main_v127) = Read.val_main_v127 (F := F) (V (Proc.devRef .tc main_arg0)) := by
  have h := fin_reshape (x := main_v126) (y := main_v127) al 144 rfl (by decide) (by decide) V
  rw [fv_main_v126] at h
  exact h

theorem fv_main_v128 (V : Valuation τ sig (Elt F)) :
    after ops V (Proc.devRef .tc main_v128) = Read.val_main_v128 (F := F) (V (Proc.devRef .tc main_arg0)) (V (Proc.devRef .tc main_arg1)) := by
  have h := fin_unary (x := main_v118) (y := main_v128) al 145 rfl (by decide) (by decide) V
  rw [fv_main_v118] at h
  exact h

theorem fv_main_v129 (V : Valuation τ sig (Elt F)) :
    after ops V (Proc.devRef .tc main_v129) = Read.val_main_v129 (F := F) (V (Proc.devRef .tc main_arg0)) (V (Proc.devRef .tc main_arg1)) := by
  have h := fin_unary (x := main_v128) (y := main_v129) al 146 rfl (by decide) (by decide) V
  rw [fv_main_v128] at h
  exact h

theorem fv_main_v130 (V : Valuation τ sig (Elt F)) :
    after ops V (Proc.devRef .tc main_v130) = Read.val_main_v130 (F := F) (V (Proc.devRef .tc main_arg0)) (V (Proc.devRef .tc main_arg1)) := by
  have h := fin_binary (a := main_v127) (b := main_v129) (y := main_v130) al 147 rfl (by decide) (by decide) (by decide) V
  rw [fv_main_v127, fv_main_v129] at h
  exact h

theorem fv_main_v131 (V : Valuation τ sig (Elt F)) :
    after ops V (Proc.devRef .tc main_v131) = Read.val_main_v131 (F := F) (V (Proc.devRef .tc main_arg0)) (V (Proc.devRef .tc main_arg1)) := by
  have h := fin_binary (a := main_v130) (b := main_v130) (y := main_v131) al 148 rfl (by decide) (by decide) (by decide) V
  rw [fv_main_v130] at h
  exact h

theorem fv_main_cst_12 (V : Valuation τ sig (Elt F)) :
    after ops V (Proc.devRef .tc main_cst_12) = Read.val_main_cst_12 (F := F) := by
  have h := fin_nullary (y := main_cst_12) al 149 rfl (by decide) V
  exact h

theorem fv_main_call2_v0 (V : Valuation τ sig (Elt F)) :
    after ops V (Proc.devRef .tc main_call2_v0) = Read.val_main_call2_v0 (F := F) := by
  have h := fin_unary (x := main_cst_12) (y := main_call2_v0) al 150 rfl (by decide) (by decide) V
  rw [fv_main_cst_12] at h
  exact h

theorem fv_main_call2_v1 (V : Valuation τ sig (Elt F)) :
    after ops V (Proc.devRef .tc main_call2_v1) = Read.val_main_call2_v1 (F := F) := by
  have h := fin_unary (x := main_call2_v0) (y := main_call2_v1) al 151 rfl (by decide) (by decide) V
  rw [fv_main_call2_v0] at h
  exact h

theorem fv_main_v132 (V : Valuation τ sig (Elt F)) :
    after ops V (Proc.devRef .tc main_v132) = Read.val_main_v132 (F := F) (V (Proc.devRef .tc main_arg0)) (V (Proc.devRef .tc main_arg1)) := by
  have h := fin_ternary (c := main_v121) (a := main_v131) (b := main_call2_v1) (y := main_v132) al 152 rfl (by decide) (by decide) (by decide) (by decide) V
  rw [fv_main_v121, fv_main_v131, fv_main_call2_v1] at h
  exact h

theorem fv_main_cst_13 (V : Valuation τ sig (Elt F)) :
    after ops V (Proc.devRef .tc main_cst_13) = Read.val_main_cst_13 (F := F) := by
  have h := fin_nullary (y := main_cst_13) al 153 rfl (by decide) V
  exact h

theorem fv_main_v133 (V : Valuation τ sig (Elt F)) :
    after ops V (Proc.devRef .tc main_v133) = Read.val_main_v133 (F := F) (V (Proc.devRef .tc main_arg0)) (V (Proc.devRef .tc main_arg1)) := by
  have h := fin_binary (a := main_v132) (b := main_cst_13) (y := main_v133) al 154 rfl (by decide) (by decide) (by decide) V
  rw [fv_main_v132, fv_main_cst_13] at h
  exact h

theorem fv_main_v134 (V : Valuation τ sig (Elt F)) :
    after ops V (Proc.devRef .tc main_v134) = Read.val_main_v134 (F := F) (V (Proc.devRef .tc main_arg0)) := by
  have h := fin_binary (a := main_v127) (b := main_v127) (y := main_v134) al 155 rfl (by decide) (by decide) (by decide) V
  rw [fv_main_v127] at h
  exact h

theorem fv_main_cst_14 (V : Valuation τ sig (Elt F)) :
    after ops V (Proc.devRef .tc main_cst_14) = Read.val_main_cst_14 (F := F) := by
  have h := fin_nullary (y := main_cst_14) al 156 rfl (by decide) V
  exact h

theorem fv_main_call3_v0 (V : Valuation τ sig (Elt F)) :
    after ops V (Proc.devRef .tc main_call3_v0) = Read.val_main_call3_v0 (F := F) := by
  have h := fin_unary (x := main_cst_14) (y := main_call3_v0) al 157 rfl (by decide) (by decide) V
  rw [fv_main_cst_14] at h
  exact h

theorem fv_main_call3_v1 (V : Valuation τ sig (Elt F)) :
    after ops V (Proc.devRef .tc main_call3_v1) = Read.val_main_call3_v1 (F := F) := by
  have h := fin_unary (x := main_call3_v0) (y := main_call3_v1) al 158 rfl (by decide) (by decide) V
  rw [fv_main_call3_v0] at h
  exact h

theorem fv_main_v135 (V : Valuation τ sig (Elt F)) :
    after ops V (Proc.devRef .tc main_v135) = Read.val_main_v135 (F := F) (V (Proc.devRef .tc main_arg0)) (V (Proc.devRef .tc main_arg1)) := by
  have h := fin_ternary (c := main_v125) (a := main_v134) (b := main_call3_v1) (y := main_v135) al 159 rfl (by decide) (by decide) (by decide) (by decide) V
  rw [fv_main_v125, fv_main_v134, fv_main_call3_v1] at h
  exact h

theorem fv_main_cst_15 (V : Valuation τ sig (Elt F)) :
    after ops V (Proc.devRef .tc main_cst_15) = Read.val_main_cst_15 (F := F) := by
  have h := fin_nullary (y := main_cst_15) al 160 rfl (by decide) V
  exact h

theorem fv_main_v136 (V : Valuation τ sig (Elt F)) :
    after ops V (Proc.devRef .tc main_v136) = Read.val_main_v136 (F := F) (V (Proc.devRef .tc main_arg0)) (V (Proc.devRef .tc main_arg1)) := by
  have h := fin_binary (a := main_v135) (b := main_cst_15) (y := main_v136) al 161 rfl (by decide) (by decide) (by decide) V
  rw [fv_main_v135, fv_main_cst_15] at h
  exact h

theorem fv_main_v137 (V : Valuation τ sig (Elt F)) :
    after ops V (Proc.devRef .tc main_v137) = Read.val_main_v137 (F := F) (V (Proc.devRef .tc main_arg0)) := by
  have h := fin_unary (x := main_v21) (y := main_v137) al 162 rfl (by decide) (by decide) V
  rw [fv_main_v21] at h
  exact h

theorem fv_main_v138 (V : Valuation τ sig (Elt F)) :
    after ops V (Proc.devRef .tc main_v138) = Read.val_main_v138 (F := F) (V (Proc.devRef .tc main_arg1)) := by
  have h := fin_unary (x := main_v23) (y := main_v138) al 163 rfl (by decide) (by decide) V
  rw [fv_main_v23] at h
  exact h

theorem fv_main_v139 (V : Valuation τ sig (Elt F)) :
    after ops V (Proc.devRef .tc main_v139) = Read.val_main_v139 (F := F) (V (Proc.devRef .tc main_arg0)) (V (Proc.devRef .tc main_arg1)) := by
  have h := fin_binary (a := main_v137) (b := main_v138) (y := main_v139) al 164 rfl (by decide) (by decide) (by decide) V
  rw [fv_main_v137, fv_main_v138] at h
  exact h

theorem fv_main_v140 (V : Valuation τ sig (Elt F)) :
    after ops V (Proc.devRef .tc main_v140) = Read.val_main_v140 (F := F) (V (Proc.devRef .tc main_arg0)) (V (Proc.devRef .tc main_arg1)) := by
  have h := fin_binary (a := main_v139) (b := main_v139) (y := main_v140) al 165 rfl (by decide) (by decide) (by decide) V
  rw [fv_main_v139] at h
  exact h

theorem fv_main_cst_16 (V : Valuation τ sig (Elt F)) :
    after ops V (Proc.devRef .tc main_cst_16) = Read.val_main_cst_16 (F := F) := by
  have h := fin_nullary (y := main_cst_16) al 166 rfl (by decide) V
  exact h

theorem fv_main_v141 (V : Valuation τ sig (Elt F)) :
    after ops V (Proc.devRef .tc main_v141) = Read.val_main_v141 (F := F) (V (Proc.devRef .tc main_arg0)) (V (Proc.devRef .tc main_arg1)) := by
  have h := fin_binary (a := main_v140) (b := main_cst_16) (y := main_v141) al 167 rfl (by decide) (by decide) (by decide) V
  rw [fv_main_v140, fv_main_cst_16] at h
  exact h

theorem fv_main_v142 (V : Valuation τ sig (Elt F)) :
    after ops V (Proc.devRef .tc main_v142) = Read.val_main_v142 (F := F) (V (Proc.devRef .tc main_arg0)) := by
  have h := fin_unary (x := main_v21) (y := main_v142) al 168 rfl (by decide) (by decide) V
  rw [fv_main_v21] at h
  exact h

theorem fv_main_v143 (V : Valuation τ sig (Elt F)) :
    after ops V (Proc.devRef .tc main_v143) = Read.val_main_v143 (F := F) (V (Proc.devRef .tc main_arg0)) := by
  have h := fin_unary (x := main_v142) (y := main_v143) al 169 rfl (by decide) (by decide) V
  rw [fv_main_v142] at h
  exact h

theorem fv_main_v144 (V : Valuation τ sig (Elt F)) :
    after ops V (Proc.devRef .tc main_v144) = Read.val_main_v144 (F := F) (V (Proc.devRef .tc main_arg1)) := by
  have h := fin_unary (x := main_v23) (y := main_v144) al 170 rfl (by decide) (by decide) V
  rw [fv_main_v23] at h
  exact h

theorem fv_main_v145 (V : Valuation τ sig (Elt F)) :
    after ops V (Proc.devRef .tc main_v145) = Read.val_main_v145 (F := F) (V (Proc.devRef .tc main_arg1)) := by
  have h := fin_unary (x := main_v144) (y := main_v145) al 171 rfl (by decide) (by decide) V
  rw [fv_main_v144] at h
  exact h

theorem fv_main_v146 (V : Valuation τ sig (Elt F)) :
    after ops V (Proc.devRef .tc main_v146) = Read.val_main_v146 (F := F) (V (Proc.devRef .tc main_arg0)) (V (Proc.devRef .tc main_arg1)) := by
  have h := fin_binary (a := main_v143) (b := main_v145) (y := main_v146) al 172 rfl (by decide) (by decide) (by decide) V
  rw [fv_main_v143, fv_main_v145] at h
  exact h

theorem fv_main_v147 (V : Valuation τ sig (Elt F)) :
    after ops V (Proc.devRef .tc main_v147) = Read.val_main_v147 (F := F) (V (Proc.devRef .tc main_arg0)) (V (Proc.devRef .tc main_arg1)) := by
  have h := fin_binary (a := main_v146) (b := main_v146) (y := main_v147) al 173 rfl (by decide) (by decide) (by decide) V
  rw [fv_main_v146] at h
  exact h

theorem fv_main_cst_17 (V : Valuation τ sig (Elt F)) :
    after ops V (Proc.devRef .tc main_cst_17) = Read.val_main_cst_17 (F := F) := by
  have h := fin_nullary (y := main_cst_17) al 174 rfl (by decide) V
  exact h

theorem fv_main_v148 (V : Valuation τ sig (Elt F)) :
    after ops V (Proc.devRef .tc main_v148) = Read.val_main_v148 (F := F) (V (Proc.devRef .tc main_arg0)) (V (Proc.devRef .tc main_arg1)) := by
  have h := fin_binary (a := main_v147) (b := main_cst_17) (y := main_v148) al 175 rfl (by decide) (by decide) (by decide) V
  rw [fv_main_v147, fv_main_cst_17] at h
  exact h

theorem fv_main_v149 (V : Valuation τ sig (Elt F)) :
    after ops V (Proc.devRef .tc main_v149) = Read.val_main_v149 (F := F) (V (Proc.devRef .tc main_arg0)) (V (Proc.devRef .tc main_arg1)) := by
  have h := fin_binary (a := main_v141) (b := main_v148) (y := main_v149) al 176 rfl (by decide) (by decide) (by decide) V
  rw [fv_main_v141, fv_main_v148] at h
  exact h

theorem fv_main_cst_18 (V : Valuation τ sig (Elt F)) :
    after ops V (Proc.devRef .tc main_cst_18) = Read.val_main_cst_18 (F := F) := by
  have h := fin_nullary (y := main_cst_18) al 177 rfl (by decide) V
  exact h

theorem fv_main_call4_v0 (V : Valuation τ sig (Elt F)) :
    after ops V (Proc.devRef .tc main_call4_v0) = Read.val_main_call4_v0 (F := F) := by
  have h := fin_unary (x := main_cst_18) (y := main_call4_v0) al 178 rfl (by decide) (by decide) V
  rw [fv_main_cst_18] at h
  exact h

theorem fv_main_call4_v1 (V : Valuation τ sig (Elt F)) :
    after ops V (Proc.devRef .tc main_call4_v1) = Read.val_main_call4_v1 (F := F) := by
  have h := fin_unary (x := main_call4_v0) (y := main_call4_v1) al 179 rfl (by decide) (by decide) V
  rw [fv_main_call4_v0] at h
  exact h

theorem fv_main_v150 (V : Valuation τ sig (Elt F)) :
    after ops V (Proc.devRef .tc main_v150) = Read.val_main_v150 (F := F) (V (Proc.devRef .tc main_arg0)) (V (Proc.devRef .tc main_arg1)) := by
  have h := fin_ternary (c := main_v121) (a := main_v149) (b := main_call4_v1) (y := main_v150) al 180 rfl (by decide) (by decide) (by decide) (by decide) V
  rw [fv_main_v121, fv_main_v149, fv_main_call4_v1] at h
  exact h

theorem fv_main_cst_19 (V : Valuation τ sig (Elt F)) :
    after ops V (Proc.devRef .tc main_cst_19) = Read.val_main_cst_19 (F := F) := by
  have h := fin_nullary (y := main_cst_19) al 181 rfl (by decide) V
  exact h

theorem fv_main_v151 (V : Valuation τ sig (Elt F)) :
    after ops V (Proc.devRef .tc main_v151) = Read.val_main_v151 (F := F) (V (Proc.devRef .tc main_arg0)) (V (Proc.devRef .tc main_arg1)) := by
  have h := fin_binary (a := main_v150) (b := main_cst_19) (y := main_v151) al 182 rfl (by decide) (by decide) (by decide) V
  rw [fv_main_v150, fv_main_cst_19] at h
  exact h

theorem fv_main_v152 (V : Valuation τ sig (Elt F)) :
    after ops V (Proc.devRef .tc main_v152) = Read.val_main_v152 (F := F) (V (Proc.devRef .tc main_arg0)) := by
  have h := fin_unary (x := main_arg0) (y := main_v152) al 183 rfl (by decide) (by decide) V
  rw [fv_main_arg0] at h
  exact h

theorem fv_main_v153 (V : Valuation τ sig (Elt F)) :
    after ops V (Proc.devRef .tc main_v153) = Read.val_main_v153 (F := F) (V (Proc.devRef .tc main_arg1)) := by
  have h := fin_unary (x := main_arg1) (y := main_v153) al 184 rfl (by decide) (by decide) V
  rw [fv_main_arg1] at h
  exact h

theorem fv_main_v154 (V : Valuation τ sig (Elt F)) :
    after ops V (Proc.devRef .tc main_v154) = Read.val_main_v154 (F := F) (V (Proc.devRef .tc main_arg0)) (V (Proc.devRef .tc main_arg1)) := by
  have h := fin_binary (a := main_v152) (b := main_v153) (y := main_v154) al 185 rfl (by decide) (by decide) (by decide) V
  rw [fv_main_v152, fv_main_v153] at h
  exact h

theorem fv_main_v155 (V : Valuation τ sig (Elt F)) :
    after ops V (Proc.devRef .tc main_v155) = Read.val_main_v155 (F := F) (V (Proc.devRef .tc main_arg0)) (V (Proc.devRef .tc main_arg1)) := by
  have h := fin_binary (a := main_v154) (b := main_v154) (y := main_v155) al 186 rfl (by decide) (by decide) (by decide) V
  rw [fv_main_v154] at h
  exact h

theorem fv_main_cst_20 (V : Valuation τ sig (Elt F)) :
    after ops V (Proc.devRef .tc main_cst_20) = Read.val_main_cst_20 (F := F) := by
  have h := fin_nullary (y := main_cst_20) al 187 rfl (by decide) V
  exact h

theorem fv_main_v156 (V : Valuation τ sig (Elt F)) :
    after ops V (Proc.devRef .tc main_v156) = Read.val_main_v156 (F := F) (V (Proc.devRef .tc main_arg0)) (V (Proc.devRef .tc main_arg1)) := by
  have h := fin_binary (a := main_v155) (b := main_cst_20) (y := main_v156) al 188 rfl (by decide) (by decide) (by decide) V
  rw [fv_main_v155, fv_main_cst_20] at h
  exact h

theorem fv_main_cst_21 (V : Valuation τ sig (Elt F)) :
    after ops V (Proc.devRef .tc main_cst_21) = Read.val_main_cst_21 (F := F) := by
  have h := fin_nullary (y := main_cst_21) al 189 rfl (by decide) V
  exact h

theorem fv_main_v157 (V : Valuation τ sig (Elt F)) :
    after ops V (Proc.devRef .tc main_v157) = Read.val_main_v157 (F := F) (V (Proc.devRef .tc main_arg0)) (V (Proc.devRef .tc main_arg1)) := by
  have h := fin_binary (a := main_cst_21) (b := main_v151) (y := main_v157) al 190 rfl (by decide) (by decide) (by decide) V
  rw [fv_main_cst_21, fv_main_v151] at h
  exact h

theorem fv_main_v158 (V : Valuation τ sig (Elt F)) :
    after ops V (Proc.devRef .tc main_v158) = Read.val_main_v158 (F := F) (V (Proc.devRef .tc main_arg0)) (V (Proc.devRef .tc main_arg1)) := by
  have h := fin_binary (a := main_v157) (b := main_v133) (y := main_v158) al 191 rfl (by decide) (by decide) (by decide) V
  rw [fv_main_v157, fv_main_v133] at h
  exact h

theorem fv_main_cst_22 (V : Valuation τ sig (Elt F)) :
    after ops V (Proc.devRef .tc main_cst_22) = Read.val_main_cst_22 (F := F) := by
  have h := fin_nullary (y := main_cst_22) al 192 rfl (by decide) V
  exact h

theorem fv_main_v159 (V : Valuation τ sig (Elt F)) :
    after ops V (Proc.devRef .tc main_v159) = Read.val_main_v159 (F := F) (V (Proc.devRef .tc main_arg0)) (V (Proc.devRef .tc main_arg1)) := by
  have h := fin_binary (a := main_cst_22) (b := main_v136) (y := main_v159) al 193 rfl (by decide) (by decide) (by decide) V
  rw [fv_main_cst_22, fv_main_v136] at h
  exact h

theorem fv_main_v160 (V : Valuation τ sig (Elt F)) :
    after ops V (Proc.devRef .tc main_v160) = Read.val_main_v160 (F := F) (V (Proc.devRef .tc main_arg0)) (V (Proc.devRef .tc main_arg1)) := by
  have h := fin_binary (a := main_v158) (b := main_v159) (y := main_v160) al 194 rfl (by decide) (by decide) (by decide) V
  rw [fv_main_v158, fv_main_v159] at h
  exact h

theorem fv_main_cst_23 (V : Valuation τ sig (Elt F)) :
    after ops V (Proc.devRef .tc main_cst_23) = Read.val_main_cst_23 (F := F) := by
  have h := fin_nullary (y := main_cst_23) al 195 rfl (by decide) V
  exact h

theorem fv_main_v161 (V : Valuation τ sig (Elt F)) :
    after ops V (Proc.devRef .tc main_v161) = Read.val_main_v161 (F := F) (V (Proc.devRef .tc main_arg0)) (V (Proc.devRef .tc main_arg1)) := by
  have h := fin_binary (a := main_cst_23) (b := main_v19) (y := main_v161) al 196 rfl (by decide) (by decide) (by decide) V
  rw [fv_main_cst_23, fv_main_v19] at h
  exact h

theorem fv_main_v162 (V : Valuation τ sig (Elt F)) :
    after ops V (Proc.devRef .tc main_v162) = Read.val_main_v162 (F := F) (V (Proc.devRef .tc main_arg0)) (V (Proc.devRef .tc main_arg1)) := by
  have h := fin_binary (a := main_v160) (b := main_v161) (y := main_v162) al 197 rfl (by decide) (by decide) (by decide) V
  rw [fv_main_v160, fv_main_v161] at h
  exact h

theorem fv_main_v163 (V : Valuation τ sig (Elt F)) :
    after ops V (Proc.devRef .tc main_v163) = Read.val_main_v163 (F := F) (V (Proc.devRef .tc main_arg0)) (V (Proc.devRef .tc main_arg1)) := by
  have h := fin_binary (a := main_v162) (b := main_v156) (y := main_v163) al 198 rfl (by decide) (by decide) (by decide) V
  rw [fv_main_v162, fv_main_v156] at h
  exact h

theorem fv_main_cst_24 (V : Valuation τ sig (Elt F)) :
    after ops V (Proc.devRef .tc main_cst_24) = Read.val_main_cst_24 (F := F) := by
  have h := fin_nullary (y := main_cst_24) al 199 rfl (by decide) V
  exact h

theorem fv_main_v164 (V : Valuation τ sig (Elt F)) :
    after ops V (Proc.devRef .tc main_v164) = Read.val_main_v164 (F := F) (V (Proc.devRef .tc main_arg0)) (V (Proc.devRef .tc main_arg1)) := by
  have h := fin_binary (a := main_v163) (b := main_cst_24) (y := main_v164) al 200 rfl (by decide) (by decide) (by decide) V
  rw [fv_main_v163, fv_main_cst_24] at h
  exact h

/-! ## The run -/

/-- On every device, for any float values, from any memory with zero counters: every weakly fair execution of the
    reference terminates with its result at the last operation's value of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164)
          = Cert.ReferenceIdeal.Read.val_main_v164 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v164).trans (fv_main_v164 _),
      (h c main_arg0).trans (fv_main_arg0 _),
      (h c main_arg1).trans (fv_main_arg1 _)⟩)
    (run_seq scopedRefs_eq scopedSems_eq defs main (fun _ => ops) main_eq (fun _ => ops_sub) m ρ
      (fun _ => Aligned.fresh _ _ al))

end Cert.ReferenceIdeal.HandRun

end
-- ==== Proof.lean ====
/-
  The certificate of a detection loss computed block by block against its whole-array reference.

  Both programs compute, from the predictions and the targets (two rows of eleven numbers per cell), the number
  `(5·L + C + ½·N + ½·O + K) / 32768`, where L, C, N, O, K are the sums over all cells of five per-cell parts
  (Proof/Spec.lean). The kernel reads the cells in blocks of 4096 rows, forms the weighted total of each block and
  adds the blocks' totals up, one running number per half of the cells, and the host adds the two halves and divides
  (Proof/KernelBlock.lean, Proof/KernelValue.lean, Proof/KernelRun.lean, Proof/KernelTotal.lean). The reference forms
  each of the five sums over all cells and weights them once (Proof/RefBoxes.lean … Proof/RefLoc.lean for the parts,
  Proof/RefTotal.lean for the total, Proof/RefRun.lean for its run). The two numbers agree on the extended reals
  because the weights 5 and ½ are finite and not negative, hence distribute over any sum, and because sums may be
  regrouped and re-indexed (Proof/Algebra.lean); no step needs the inputs finite. The ideal pass rewrote nothing, so
  `preserves` is trivial; the kernel's two frames are its generated frames, the reference's frame is its run.
-/
import proofs.«100800_j66340064854039_1_alg».proof.Defs
import proofs.«100800_j66340064854039_1_alg».proof.Proof.Gen.Kernel
import proofs.«100800_j66340064854039_1_alg».proof.Proof.Gen.Kernel.Skeleton
import proofs.«100800_j66340064854039_1_alg».proof.Proof.Gen.Kernel.Launch
import proofs.«100800_j66340064854039_1_alg».proof.Proof.Gen.Kernel.Points
import proofs.«100800_j66340064854039_1_alg».proof.Proof.Gen.Kernel.Frame
import proofs.«100800_j66340064854039_1_alg».proof.Proof.Gen.KernelIdeal
import proofs.«100800_j66340064854039_1_alg».proof.Proof.Gen.KernelIdeal.Skeleton
import proofs.«100800_j66340064854039_1_alg».proof.Proof.Gen.KernelIdeal.Launch
import proofs.«100800_j66340064854039_1_alg».proof.Proof.Gen.KernelIdeal.Points
import proofs.«100800_j66340064854039_1_alg».proof.Proof.Gen.KernelIdeal.Frame
import proofs.«100800_j66340064854039_1_alg».proof.Proof.Gen.ReferenceIdeal
import proofs.«100800_j66340064854039_1_alg».proof.Proof.Gen.Pre_finite_inputs
import proofs.«100800_j66340064854039_1_alg».proof.Proof.KernelRun
import proofs.«100800_j66340064854039_1_alg».proof.Proof.KernelTotal
import proofs.«100800_j66340064854039_1_alg».proof.Proof.RefTotal
import proofs.«100800_j66340064854039_1_alg».proof.Proof.RefRun
import Idealize.ShloMosaic.Adequacy
import Idealize.ShloMosaic.Init

noncomputable section

namespace Cert.Proof

open Idealize.ShloMosaic Idealize.SL.Sem Idealize.ShloMosaic.ValueIdx Cert.Yolo

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both programs end with the weighted total over all cells of the argument arrays, divided by the number of images. -/
theorem algebraic : Cert.algebraic_KernelIdeal_ReferenceIdeal := by
  intro m ρ m' ρ' _ hagree
  refine ⟨fun c _ => Ideal.div (total (cells (m ((c.tc : Thread Cert.KernelIdeal.nD Cert.KernelIdeal.τ).loc Cert.KernelIdeal.main_arg0)))
      (cells (m ((c.tc : Thread Cert.KernelIdeal.nD Cert.KernelIdeal.τ).loc Cert.KernelIdeal.main_arg1)))) kN, ?_, ?_⟩
  · refine (θ_run Cert.KernelIdeal.defs _ _).mono (fun _ h c => ⟨(h c).1.trans ?_, (h c).2⟩) (Cert.KernelIdeal.Hand.run m ρ)
    funext _
    unfold Cert.KernelIdeal.Hand.kernelResult
    rw [Cert.KernelIdeal.Hand.kernel_total]
  · refine (θ_run Cert.ReferenceIdeal.defs _ _).mono (fun _ h c => ⟨(h c).1.trans ?_, (h c).2⟩)
      (Cert.ReferenceIdeal.HandRun.run (F := Ideal) m' ρ')
    rw [(hagree c).1, (hagree c).2]
    funext i
    rw [eq_ix0 i]
    exact Cert.Yolo.Ref.ref_value _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
